-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x50 : Shape := ⟨2, ![1600000, 50]⟩
abbrev S1600000 : Shape := ⟨1, ![1600000]⟩
abbrev S128x50 : Shape := ⟨2, ![128, 50]⟩
abbrev S50 : Shape := ⟨1, ![50]⟩
abbrev S50x50 : Shape := ⟨2, ![50, 50]⟩
abbrev S100x50 : Shape := ⟨2, ![100, 50]⟩
abbrev S150x50 : Shape := ⟨2, ![150, 50]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x50 : S_.BroadcastsInDim S1600000x50 (![] : Fin 0 → Fin S1600000x50.rank)
  reducesTo_S1600000x50_S_d0_1 : S1600000x50.ReducesTo [0, 1] S_
  bcast_S_S128x50 : S_.BroadcastsInDim S128x50 (![] : Fin 0 → Fin S128x50.rank)
  reducesTo_S128x50_S_d0_1 : S128x50.ReducesTo [0, 1] S_
  bcast_S_S50 : S_.BroadcastsInDim S50 (![] : Fin 0 → Fin S50.rank)
  reducesTo_S50_S_d0 : S50.ReducesTo [0] S_
  bcast_S_S50x50 : S_.BroadcastsInDim S50x50 (![] : Fin 0 → Fin S50x50.rank)
  reducesTo_S50x50_S_d0_1 : S50x50.ReducesTo [0, 1] S_
  bcast_S_S100x50 : S_.BroadcastsInDim S100x50 (![] : Fin 0 → Fin S100x50.rank)
  reducesTo_S100x50_S_d0_1 : S100x50.ReducesTo [0, 1] S_
  bcast_S_S150x50 : S_.BroadcastsInDim S150x50 (![] : Fin 0 → Fin S150x50.rank)
  reducesTo_S150x50_S_d0_1 : S150x50.ReducesTo [0, 1] S_
  bcast_S_S1600000 : S_.BroadcastsInDim S1600000 (![] : Fin 0 → Fin S1600000.rank)
  reducesTo_S1600000_S_d0 : S1600000.ReducesTo [0] S_

variable [Facts]

def fn_part5 {F : FTy → Type} [FloatOps F] (main_arg3 : IVec S1600000 32) (main_v82 : IVec S_ 1) (main_v84 : IVec S1600000 1) : IVec S_ 1 :=
  let main_c_33 : IVec S_ 1 := constantI S_ 1 1#1
  let main_v85 : IVec S_ 1 := (fun x v => Host.reduce IntOp.andi x v reducesTo_S1600000_S_d0 h_S_) main_v84 main_c_33
  let main_v86 : IVec S_ 1 := andi main_v82 main_v85
  let main_c_34 : IVec S_ 32 := constantI S_ 32 0#32
  let main_v87 : IVec S1600000 32 := broadcastInDim S1600000 ![] bcast_S_S1600000 main_c_34
  let main_v88 : IVec S1600000 1 := cmpi .sge main_arg3 main_v87
  let main_c_35 : IVec S_ 1 := constantI S_ 1 1#1
  let main_v89 : IVec S_ 1 := (fun x v => Host.reduce IntOp.andi x v reducesTo_S1600000_S_d0 h_S_) main_v88 main_c_35
  let main_v90 : IVec S_ 1 := andi main_v86 main_v89
  let main_c_36 : IVec S_ 32 := constantI S_ 32 100000#32
  let main_v91 : IVec S1600000 32 := broadcastInDim S1600000 ![] bcast_S_S1600000 main_c_36
  let main_v92 : IVec S1600000 1 := cmpi .slt main_arg3 main_v91
  let main_c_37 : IVec S_ 1 := constantI S_ 1 1#1
  let main_v93 : IVec S_ 1 := (fun x v => Host.reduce IntOp.andi x v reducesTo_S1600000_S_d0 h_S_) main_v92 main_c_37
  let main_v94 : IVec S_ 1 := andi main_v90 main_v93
  main_v94

def fn_part4 {F : FTy → Type} [FloatOps F] (main_arg2 : IVec S1600000 32) (main_arg3 : IVec S1600000 32) (main_arg16 : FVec F S150x50 .f32) (main_arg17 : FVec F S50 .f32) (main_v63 : IVec S_ 1) (main_v67 : IVec S_ 1) : IVec S_ 1 :=
  let main_v68 : IVec S_ 1 := andi main_v63 main_v67
  let main_v69 : FVec F S150x50 .f32 := Host.absf main_arg16
  let main_cst_26 : FVec F S_ .f32 := constant S_ .f32 0x7F800000#32
  let main_v70 : FVec F S150x50 .f32 := broadcastInDim S150x50 ![] bcast_S_S150x50 main_cst_26
  let main_v71 : IVec S150x50 1 := cmpf .olt main_v69 main_v70
  let main_c_27 : IVec S_ 1 := constantI S_ 1 1#1
  let main_v72 : IVec S_ 1 := (fun x v => Host.reduce IntOp.andi x v reducesTo_S150x50_S_d0_1 h_S_) main_v71 main_c_27
  let main_v73 : IVec S_ 1 := andi main_v68 main_v72
  let main_v74 : FVec F S50 .f32 := Host.absf main_arg17
  let main_cst_28 : FVec F S_ .f32 := constant S_ .f32 0x7F800000#32
  let main_v75 : FVec F S50 .f32 := broadcastInDim S50 ![] bcast_S_S50 main_cst_28
  let main_v76 : IVec S50 1 := cmpf .olt main_v74 main_v75
  let main_c_29 : IVec S_ 1 := constantI S_ 1 1#1
  let main_v77 : IVec S_ 1 := (fun x v => Host.reduce IntOp.andi x v reducesTo_S50_S_d0 h_S_) main_v76 main_c_29
  let main_v78 : IVec S_ 1 := andi main_v73 main_v77
  let main_c_30 : IVec S_ 32 := constantI S_ 32 0#32
  let main_v79 : IVec S1600000 32 := broadcastInDim S1600000 ![] bcast_S_S1600000 main_c_30
  let main_v80 : IVec S1600000 1 := cmpi .sge main_arg2 main_v79
  let main_c_31 : IVec S_ 1 := constantI S_ 1 1#1
  let main_v81 : IVec S_ 1 := (fun x v => Host.reduce IntOp.andi x v reducesTo_S1600000_S_d0 h_S_) main_v80 main_c_31
  let main_v82 : IVec S_ 1 := andi main_v78 main_v81
  let main_c_32 : IVec S_ 32 := constantI S_ 32 100000#32
  let main_v83 : IVec S1600000 32 := broadcastInDim S1600000 ![] bcast_S_S1600000 main_c_32
  let main_v84 : IVec S1600000 1 := cmpi .slt main_arg2 main_v83
  fn_part5 (F := F) main_arg3 main_v82 main_v84

def fn_part3 {F : FTy → Type} [FloatOps F] (main_arg2 : IVec S1600000 32) (main_arg3 : IVec S1600000 32) (main_arg13 : FVec F S50 .f32) (main_arg14 : FVec F S50x50 .f32) (main_arg15 : FVec F S50 .f32) (main_arg16 : FVec F S150x50 .f32) (main_arg17 : FVec F S50 .f32) (main_v48 : IVec S_ 1) (main_v49 : FVec F S128x50 .f32) (main_v50 : FVec F S128x50 .f32) : IVec S_ 1 :=
  let main_v51 : IVec S128x50 1 := cmpf .olt main_v49 main_v50
  let main_c_19 : IVec S_ 1 := constantI S_ 1 1#1
  let main_v52 : IVec S_ 1 := (fun x v => Host.reduce IntOp.andi x v reducesTo_S128x50_S_d0_1 h_S_) main_v51 main_c_19
  let main_v53 : IVec S_ 1 := andi main_v48 main_v52
  let main_v54 : FVec F S50 .f32 := Host.absf main_arg13
  let main_cst_20 : FVec F S_ .f32 := constant S_ .f32 0x7F800000#32
  let main_v55 : FVec F S50 .f32 := broadcastInDim S50 ![] bcast_S_S50 main_cst_20
  let main_v56 : IVec S50 1 := cmpf .olt main_v54 main_v55
  let main_c_21 : IVec S_ 1 := constantI S_ 1 1#1
  let main_v57 : IVec S_ 1 := (fun x v => Host.reduce IntOp.andi x v reducesTo_S50_S_d0 h_S_) main_v56 main_c_21
  let main_v58 : IVec S_ 1 := andi main_v53 main_v57
  let main_v59 : FVec F S50x50 .f32 := Host.absf main_arg14
  let main_cst_22 : FVec F S_ .f32 := constant S_ .f32 0x7F800000#32
  let main_v60 : FVec F S50x50 .f32 := broadcastInDim S50x50 ![] bcast_S_S50x50 main_cst_22
  let main_v61 : IVec S50x50 1 := cmpf .olt main_v59 main_v60
  let main_c_23 : IVec S_ 1 := constantI S_ 1 1#1
  let main_v62 : IVec S_ 1 := (fun x v => Host.reduce IntOp.andi x v reducesTo_S50x50_S_d0_1 h_S_) main_v61 main_c_23
  let main_v63 : IVec S_ 1 := andi main_v58 main_v62
  let main_v64 : FVec F S50 .f32 := Host.absf main_arg15
  let main_cst_24 : FVec F S_ .f32 := constant S_ .f32 0x7F800000#32
  let main_v65 : FVec F S50 .f32 := broadcastInDim S50 ![] bcast_S_S50 main_cst_24
  let main_v66 : IVec S50 1 := cmpf .olt main_v64 main_v65
  let main_c_25 : IVec S_ 1 := constantI S_ 1 1#1
  let main_v67 : IVec S_ 1 := (fun x v => Host.reduce IntOp.andi x v reducesTo_S50_S_d0 h_S_) main_v66 main_c_25
  fn_part4 (F := F) main_arg2 main_arg3 main_arg16 main_arg17 main_v63 main_v67

def fn_part2 {F : FTy → Type} [FloatOps F] (main_arg2 : IVec S1600000 32) (main_arg3 : IVec S1600000 32) (main_arg9 : FVec F S50 .f32) (main_arg10 : FVec F S128x50 .f32) (main_arg11 : FVec F S50 .f32) (main_arg12 : FVec F S128x50 .f32) (main_arg13 : FVec F S50 .f32) (main_arg14 : FVec F S50x50 .f32) (main_arg15 : FVec F S50 .f32) (main_arg16 : FVec F S150x50 .f32) (main_arg17 : FVec F S50 .f32) (main_v33 : IVec S_ 1) : IVec S_ 1 :=
  let main_v34 : FVec F S50 .f32 := Host.absf main_arg9
  let main_cst_12 : FVec F S_ .f32 := constant S_ .f32 0x7F800000#32
  let main_v35 : FVec F S50 .f32 := broadcastInDim S50 ![] bcast_S_S50 main_cst_12
  let main_v36 : IVec S50 1 := cmpf .olt main_v34 main_v35
  let main_c_13 : IVec S_ 1 := constantI S_ 1 1#1
  let main_v37 : IVec S_ 1 := (fun x v => Host.reduce IntOp.andi x v reducesTo_S50_S_d0 h_S_) main_v36 main_c_13
  let main_v38 : IVec S_ 1 := andi main_v33 main_v37
  let main_v39 : FVec F S128x50 .f32 := Host.absf main_arg10
  let main_cst_14 : FVec F S_ .f32 := constant S_ .f32 0x7F800000#32
  let main_v40 : FVec F S128x50 .f32 := broadcastInDim S128x50 ![] bcast_S_S128x50 main_cst_14
  let main_v41 : IVec S128x50 1 := cmpf .olt main_v39 main_v40
  let main_c_15 : IVec S_ 1 := constantI S_ 1 1#1
  let main_v42 : IVec S_ 1 := (fun x v => Host.reduce IntOp.andi x v reducesTo_S128x50_S_d0_1 h_S_) main_v41 main_c_15
  let main_v43 : IVec S_ 1 := andi main_v38 main_v42
  let main_v44 : FVec F S50 .f32 := Host.absf main_arg11
  let main_cst_16 : FVec F S_ .f32 := constant S_ .f32 0x7F800000#32
  let main_v45 : FVec F S50 .f32 := broadcastInDim S50 ![] bcast_S_S50 main_cst_16
  let main_v46 : IVec S50 1 := cmpf .olt main_v44 main_v45
  let main_c_17 : IVec S_ 1 := constantI S_ 1 1#1
  let main_v47 : IVec S_ 1 := (fun x v => Host.reduce IntOp.andi x v reducesTo_S50_S_d0 h_S_) main_v46 main_c_17
  let main_v48 : IVec S_ 1 := andi main_v43 main_v47
  let main_v49 : FVec F S128x50 .f32 := Host.absf main_arg12
  let main_cst_18 : FVec F S_ .f32 := constant S_ .f32 0x7F800000#32
  let main_v50 : FVec F S128x50 .f32 := broadcastInDim S128x50 ![] bcast_S_S128x50 main_cst_18
  fn_part3 (F := F) main_arg2 main_arg3 main_arg13 main_arg14 main_arg15 main_arg16 main_arg17 main_v48 main_v49 main_v50

def fn_part1 {F : FTy → Type} [FloatOps F] (main_arg2 : IVec S1600000 32) (main_arg3 : IVec S1600000 32) (main_arg6 : FVec F S50x50 .f32) (main_arg7 : FVec F S50 .f32) (main_arg8 : FVec F S100x50 .f32) (main_arg9 : FVec F S50 .f32) (main_arg10 : FVec F S128x50 .f32) (main_arg11 : FVec F S50 .f32) (main_arg12 : FVec F S128x50 .f32) (main_arg13 : FVec F S50 .f32) (main_arg14 : FVec F S50x50 .f32) (main_arg15 : FVec F S50 .f32) (main_arg16 : FVec F S150x50 .f32) (main_arg17 : FVec F S50 .f32) (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  let main_v19 : FVec F S50x50 .f32 := Host.absf main_arg6
  let main_cst_6 : FVec F S_ .f32 := constant S_ .f32 0x7F800000#32
  let main_v20 : FVec F S50x50 .f32 := broadcastInDim S50x50 ![] bcast_S_S50x50 main_cst_6
  let main_v21 : IVec S50x50 1 := cmpf .olt main_v19 main_v20
  let main_c_7 : IVec S_ 1 := constantI S_ 1 1#1
  let main_v22 : IVec S_ 1 := (fun x v => Host.reduce IntOp.andi x v reducesTo_S50x50_S_d0_1 h_S_) main_v21 main_c_7
  let main_v23 : IVec S_ 1 := andi main_v18 main_v22
  let main_v24 : FVec F S50 .f32 := Host.absf main_arg7
  let main_cst_8 : FVec F S_ .f32 := constant S_ .f32 0x7F800000#32
  let main_v25 : FVec F S50 .f32 := broadcastInDim S50 ![] bcast_S_S50 main_cst_8
  let main_v26 : IVec S50 1 := cmpf .olt main_v24 main_v25
  let main_c_9 : IVec S_ 1 := constantI S_ 1 1#1
  let main_v27 : IVec S_ 1 := (fun x v => Host.reduce IntOp.andi x v reducesTo_S50_S_d0 h_S_) main_v26 main_c_9
  let main_v28 : IVec S_ 1 := andi main_v23 main_v27
  let main_v29 : FVec F S100x50 .f32 := Host.absf main_arg8
  let main_cst_10 : FVec F S_ .f32 := constant S_ .f32 0x7F800000#32
  let main_v30 : FVec F S100x50 .f32 := broadcastInDim S100x50 ![] bcast_S_S100x50 main_cst_10
  let main_v31 : IVec S100x50 1 := cmpf .olt main_v29 main_v30
  let main_c_11 : IVec S_ 1 := constantI S_ 1 1#1
  let main_v32 : IVec S_ 1 := (fun x v => Host.reduce IntOp.andi x v reducesTo_S100x50_S_d0_1 h_S_) main_v31 main_c_11
  let main_v33 : IVec S_ 1 := andi main_v28 main_v32
  fn_part2 (F := F) main_arg2 main_arg3 main_arg9 main_arg10 main_arg11 main_arg12 main_arg13 main_arg14 main_arg15 main_arg16 main_arg17 main_v33

def fn {F : FTy → Type} [FloatOps F] (main_arg0 : FVec F S100000x128 .f32) (main_arg1 : FVec F S1600000x50 .f32) (main_arg2 : IVec S1600000 32) (main_arg3 : IVec S1600000 32) (main_arg4 : FVec F S128x50 .f32) (main_arg5 : FVec F S50 .f32) (main_arg6 : FVec F S50x50 .f32) (main_arg7 : FVec F S50 .f32) (main_arg8 : FVec F S100x50 .f32) (main_arg9 : FVec F S50 .f32) (main_arg10 : FVec F S128x50 .f32) (main_arg11 : FVec F S50 .f32) (main_arg12 : FVec F S128x50 .f32) (main_arg13 : FVec F S50 .f32) (main_arg14 : FVec F S50x50 .f32) (main_arg15 : FVec F S50 .f32) (main_arg16 : FVec F S150x50 .f32) (main_arg17 : FVec F S50 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x50 .f32 := Host.absf main_arg1
  let main_cst_0 : FVec F S_ .f32 := constant S_ .f32 0x7F800000#32
  let main_v5 : FVec F S1600000x50 .f32 := broadcastInDim S1600000x50 ![] bcast_S_S1600000x50 main_cst_0
  let main_v6 : IVec S1600000x50 1 := cmpf .olt main_v4 main_v5
  let main_c_1 : IVec S_ 1 := constantI S_ 1 1#1
  let main_v7 : IVec S_ 1 := (fun x v => Host.reduce IntOp.andi x v reducesTo_S1600000x50_S_d0_1 h_S_) main_v6 main_c_1
  let main_v8 : IVec S_ 1 := andi main_v3 main_v7
  let main_v9 : FVec F S128x50 .f32 := Host.absf main_arg4
  let main_cst_2 : FVec F S_ .f32 := constant S_ .f32 0x7F800000#32
  let main_v10 : FVec F S128x50 .f32 := broadcastInDim S128x50 ![] bcast_S_S128x50 main_cst_2
  let main_v11 : IVec S128x50 1 := cmpf .olt main_v9 main_v10
  let main_c_3 : IVec S_ 1 := constantI S_ 1 1#1
  let main_v12 : IVec S_ 1 := (fun x v => Host.reduce IntOp.andi x v reducesTo_S128x50_S_d0_1 h_S_) main_v11 main_c_3
  let main_v13 : IVec S_ 1 := andi main_v8 main_v12
  let main_v14 : FVec F S50 .f32 := Host.absf main_arg5
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_arg2 main_arg3 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S1600000x50 : Shape := ⟨2, ![1600000, 50]⟩
abbrev S1600000 : Shape := ⟨1, ![1600000]⟩
abbrev S128x50 : Shape := ⟨2, ![128, 50]⟩
abbrev S50 : Shape := ⟨1, ![50]⟩
abbrev S50x50 : Shape := ⟨2, ![50, 50]⟩
abbrev S100x50 : Shape := ⟨2, ![100, 50]⟩
abbrev S150x50 : Shape := ⟨2, ![150, 50]⟩
abbrev S100000x50 : Shape := ⟨2, ![100000, 50]⟩
abbrev S100000x100 : Shape := ⟨2, ![100000, 100]⟩
abbrev S10000x128 : Shape := ⟨2, ![10000, 128]⟩
abbrev S10000x50 : Shape := ⟨2, ![10000, 50]⟩
abbrev S10000x100 : Shape := ⟨2, ![10000, 100]⟩
abbrev S1x50 : Shape := ⟨2, ![1, 50]⟩
abbrev S8000x50 : Shape := ⟨2, ![8000, 50]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S4000x50 : Shape := ⟨2, ![4000, 50]⟩
abbrev S4000x150 : Shape := ⟨2, ![4000, 150]⟩
abbrev S5000x50 : Shape := ⟨2, ![5000, 50]⟩
abbrev S5000x100 : Shape := ⟨2, ![5000, 100]⟩

abbrev nBuf : Space → Nat
  | .hbm => 124
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S1600000x50, .f32⟩
  | .hbm, ⟨2, _⟩ => ⟨S1600000, .i32⟩
  | .hbm, ⟨3, _⟩ => ⟨S1600000, .i32⟩
  | .hbm, ⟨4, _⟩ => ⟨S128x50, .f32⟩
  | .hbm, ⟨5, _⟩ => ⟨S50, .f32⟩
  | .hbm, ⟨6, _⟩ => ⟨S50x50, .f32⟩
  | .hbm, ⟨7, _⟩ => ⟨S50, .f32⟩
  | .hbm, ⟨8, _⟩ => ⟨S100x50, .f32⟩
  | .hbm, ⟨9, _⟩ => ⟨S50, .f32⟩
  | .hbm, ⟨10, _⟩ => ⟨S128x50, .f32⟩
  | .hbm, ⟨11, _⟩ => ⟨S50, .f32⟩
  | .hbm, ⟨12, _⟩ => ⟨S128x50, .f32⟩
  | .hbm, ⟨13, _⟩ => ⟨S50, .f32⟩
  | .hbm, ⟨14, _⟩ => ⟨S50x50, .f32⟩
  | .hbm, ⟨15, _⟩ => ⟨S50, .f32⟩
  | .hbm, ⟨16, _⟩ => ⟨S150x50, .f32⟩
  | .hbm, ⟨17, _⟩ => ⟨S50, .f32⟩
  | .hbm, ⟨18, _⟩ => ⟨S100000x50, .f32⟩
  | .hbm, ⟨19, _⟩ => ⟨S100000x100, .f32⟩
  | .hbm, ⟨20, _⟩ => ⟨S1600000x50, .f32⟩
  | .hbm, ⟨21, _⟩ => ⟨S1600000x50, .f32⟩
  | .hbm, ⟨22, _⟩ => ⟨S100000x50, .f32⟩
  | .hbm, ⟨23, _⟩ => ⟨S100000x50, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1, .i32⟩
  | .hbm, ⟨33, _⟩ => ⟨S_, .i32⟩
  | .hbm, ⟨34, _⟩ => ⟨S1600000x1, .i32⟩
  | .hbm, ⟨35, _⟩ => ⟨S1600000x1, .i1⟩
  | .hbm, ⟨36, _⟩ => ⟨S1x1, .i32⟩
  | .hbm, ⟨37, _⟩ => ⟨S1600000x1, .i32⟩
  | .hbm, ⟨38, _⟩ => ⟨S1600000x1, .i1⟩
  | .hbm, ⟨39, _⟩ => ⟨S1600000x1, .i1⟩
  | .hbm, ⟨40, _⟩ => ⟨S_, .i1⟩
  | .hbm, ⟨41, _⟩ => ⟨S1600000, .i1⟩
  | .hbm, ⟨42, _⟩ => ⟨S1600000x50, .f32⟩
  | .hbm, ⟨43, _⟩ => ⟨S1600000x50, .i1⟩
  | .hbm, ⟨44, _⟩ => ⟨S_, .f32⟩
  | .hbm, ⟨45, _⟩ => ⟨S1600000x50, .f32⟩
  | .hbm, ⟨46, _⟩ => ⟨S1600000x50, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1, .i32⟩
  | .hbm, ⟨56, _⟩ => ⟨S_, .i32⟩
  | .hbm, ⟨57, _⟩ => ⟨S1600000x1, .i32⟩
  | .hbm, ⟨58, _⟩ => ⟨S1600000x1, .i1⟩
  | .hbm, ⟨59, _⟩ => ⟨S1x1, .i32⟩
  | .hbm, ⟨60, _⟩ => ⟨S1600000x1, .i32⟩
  | .hbm, ⟨61, _⟩ => ⟨S1600000x1, .i1⟩
  | .hbm, ⟨62, _⟩ => ⟨S1600000x1, .i1⟩
  | .hbm, ⟨63, _⟩ => ⟨S_, .i1⟩
  | .hbm, ⟨64, _⟩ => ⟨S1600000, .i1⟩
  | .hbm, ⟨65, _⟩ => ⟨S1600000x50, .f32⟩
  | .hbm, ⟨66, _⟩ => ⟨S1600000x50, .i1⟩
  | .hbm, ⟨67, _⟩ => ⟨S_, .f32⟩
  | .hbm, ⟨68, _⟩ => ⟨S1600000x50, .f32⟩
  | .hbm, ⟨69, _⟩ => ⟨S1600000x50, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1, .i32⟩
  | .hbm, ⟨79, _⟩ => ⟨S_, .i32⟩
  | .hbm, ⟨80, _⟩ => ⟨S1600000x1, .i32⟩
  | .hbm, ⟨81, _⟩ => ⟨S1600000x1, .i1⟩
  | .hbm, ⟨82, _⟩ => ⟨S1x1, .i32⟩
  | .hbm, ⟨83, _⟩ => ⟨S1600000x1, .i32⟩
  | .hbm, ⟨84, _⟩ => ⟨S1600000x1, .i1⟩
  | .hbm, ⟨85, _⟩ => ⟨S1600000x1, .i1⟩
  | .hbm, ⟨86, _⟩ => ⟨S_, .i1⟩
  | .hbm, ⟨87, _⟩ => ⟨S1600000, .i1⟩
  | .hbm, ⟨88, _⟩ => ⟨S1600000x50, .f32⟩
  | .hbm, ⟨89, _⟩ => ⟨S1600000x50, .i1⟩
  | .hbm, ⟨90, _⟩ => ⟨S_, .f32⟩
  | .hbm, ⟨91, _⟩ => ⟨S1600000x50, .f32⟩
  | .hbm, ⟨92, _⟩ => ⟨S1600000x50, .f32⟩
  | .hbm, ⟨93, _⟩ => ⟨S_, .i32⟩
  | .hbm, ⟨94, _⟩ => ⟨S1600000, .i32⟩
  | .hbm, ⟨95, _⟩ => ⟨S1600000, .i1⟩
  | .hbm, ⟨96, _⟩ => ⟨S_, .i32⟩
  | .hbm, ⟨97, _⟩ => ⟨S1600000, .i32⟩
  | .hbm, ⟨98, _⟩ => ⟨S1600000, .i32⟩
  | .hbm, ⟨99, _⟩ => ⟨S1600000, .i32⟩
  | .hbm, ⟨100, _⟩ => ⟨S1600000x1, .i32⟩
  | .hbm, ⟨101, _⟩ => ⟨S1, .i32⟩
  | .hbm, ⟨102, _⟩ => ⟨S_, .i32⟩
  | .hbm, ⟨103, _⟩ => ⟨S1600000x1, .i32⟩
  | .hbm, ⟨104, _⟩ => ⟨S1600000x1, .i1⟩
  | .hbm, ⟨105, _⟩ => ⟨S1x1, .i32⟩
  | .hbm, ⟨106, _⟩ => ⟨S1600000x1, .i32⟩
  | .hbm, ⟨107, _⟩ => ⟨S1600000x1, .i1⟩
  | .hbm, ⟨108, _⟩ => ⟨S1600000x1, .i1⟩
  | .hbm, ⟨109, _⟩ => ⟨S_, .i1⟩
  | .hbm, ⟨110, _⟩ => ⟨S1600000, .i1⟩
  | .hbm, ⟨111, _⟩ => ⟨S1600000x50, .f32⟩
  | .hbm, ⟨112, _⟩ => ⟨S1600000x50, .i1⟩
  | .hbm, ⟨113, _⟩ => ⟨S_, .f32⟩
  | .hbm, ⟨114, _⟩ => ⟨S1600000x50, .f32⟩
  | .hbm, ⟨115, _⟩ => ⟨S1600000x50, .f32⟩
  | .hbm, ⟨116, _⟩ => ⟨S1600000x50, .f32⟩
  | .hbm, ⟨117, _⟩ => ⟨S1600000x50, .f32⟩
  | .hbm, ⟨118, _⟩ => ⟨S_, .f32⟩
  | .hbm, ⟨119, _⟩ => ⟨S100000x50, .f32⟩
  | .hbm, ⟨120, _⟩ => ⟨S1600000x1, .i32⟩
  | .hbm, ⟨121, _⟩ => ⟨S100000x50, .f32⟩
  | .hbm, ⟨122, _⟩ => ⟨S1600000x50, .f32⟩
  | .hbm, ⟨123, _⟩ => ⟨S100000x50, .f32⟩
  | .local _ .vmem, ⟨0, _⟩ => ⟨S10000x128, .f32⟩
  | .local _ .vmem, ⟨1, _⟩ => ⟨S10000x128, .f32⟩
  | .local _ .vmem, ⟨2, _⟩ => ⟨S128x50, .f32⟩
  | .local _ .vmem, ⟨3, _⟩ => ⟨S50, .f32⟩
  | .local _ .vmem, ⟨4, _⟩ => ⟨S128x50, .f32⟩
  | .local _ .vmem, ⟨5, _⟩ => ⟨S50, .f32⟩
  | .local _ .vmem, ⟨6, _⟩ => ⟨S128x50, .f32⟩
  | .local _ .vmem, ⟨7, _⟩ => ⟨S50, .f32⟩
  | .local _ .vmem, ⟨8, _⟩ => ⟨S10000x50, .f32⟩
  | .local _ .vmem, ⟨9, _⟩ => ⟨S10000x50, .f32⟩
  | .local _ .vmem, ⟨10, _⟩ => ⟨S10000x100, .f32⟩
  | .local _ .vmem, ⟨11, _⟩ => ⟨S10000x100, .f32⟩
  | .local _ .vmem, ⟨12, _⟩ => ⟨S8000x50, .f32⟩
  | .local _ .vmem, ⟨13, _⟩ => ⟨S8000x50, .f32⟩
  | .local _ .vmem, ⟨14, _⟩ => ⟨S50x50, .f32⟩
  | .local _ .vmem, ⟨15, _⟩ => ⟨S50, .f32⟩
  | .local _ .vmem, ⟨16, _⟩ => ⟨S50x50, .f32⟩
  | .local _ .vmem, ⟨17, _⟩ => ⟨S50, .f32⟩
  | .local _ .vmem, ⟨18, _⟩ => ⟨S8000x50, .f32⟩
  | .local _ .vmem, ⟨19, _⟩ => ⟨S8000x50, .f32⟩
  | .local _ .vmem, ⟨20, _⟩ => ⟨S8000x50, .f32⟩
  | .local _ .vmem, ⟨21, _⟩ => ⟨S8000x50, .f32⟩
  | .local _ .vmem, ⟨22, _⟩ => ⟨S4000x50, .f32⟩
  | .local _ .vmem, ⟨23, _⟩ => ⟨S4000x50, .f32⟩
  | .local _ .vmem, ⟨24, _⟩ => ⟨S4000x50, .f32⟩
  | .local _ .vmem, ⟨25, _⟩ => ⟨S4000x50, .f32⟩
  | .local _ .vmem, ⟨26, _⟩ => ⟨S4000x50, .f32⟩
  | .local _ .vmem, ⟨27, _⟩ => ⟨S4000x50, .f32⟩
  | .local _ .vmem, ⟨28, _⟩ => ⟨S150x50, .f32⟩
  | .local _ .vmem, ⟨29, _⟩ => ⟨S50, .f32⟩
  | .local _ .vmem, ⟨30, _⟩ => ⟨S4000x50, .f32⟩
  | .local _ .vmem, ⟨31, _⟩ => ⟨S4000x50, .f32⟩
  | .local _ .vmem, ⟨32, _⟩ => ⟨S5000x50, .f32⟩
  | .local _ .vmem, ⟨33, _⟩ => ⟨S5000x50, .f32⟩
  | .local _ .vmem, ⟨34, _⟩ => ⟨S5000x50, .f32⟩
  | .local _ .vmem, ⟨35, _⟩ => ⟨S5000x50, .f32⟩
  | .local _ .vmem, ⟨36, _⟩ => ⟨S100x50, .f32⟩
  | .local _ .vmem, ⟨37, _⟩ => ⟨S50, .f32⟩
  | .local _ .vmem, ⟨38, _⟩ => ⟨S5000x50, .f32⟩
  | .local _ .vmem, ⟨39, _⟩ => ⟨S5000x50, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev main_v1_0 : Ref sig .tc := ⟨.hbm, 20, rfl⟩
abbrev main_v1_1 : Ref sig .tc := ⟨.hbm, 21, rfl⟩
abbrev main_v2 : Ref sig .tc := ⟨.hbm, 22, rfl⟩
abbrev main_v3 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v4 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v5 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v6 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_c_1 : Ref sig .tc := ⟨.hbm, 101, rfl⟩
abbrev main_call3_c_2 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_3 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_call3_cst : Ref sig .tc := ⟨.hbm, 113, rfl⟩
abbrev main_call3_v15 : Ref sig .tc := ⟨.hbm, 114, rfl⟩
abbrev main_v7 : Ref sig .tc := ⟨.hbm, 115, rfl⟩
abbrev main_v8 : Ref sig .tc := ⟨.hbm, 116, rfl⟩
abbrev main_v9 : Ref sig .tc := ⟨.hbm, 117, rfl⟩
abbrev main_cst : Ref sig .tc := ⟨.hbm, 118, rfl⟩
abbrev main_v10 : Ref sig .tc := ⟨.hbm, 119, rfl⟩
abbrev main_v11 : Ref sig .tc := ⟨.hbm, 120, rfl⟩
abbrev main_v12 : Ref sig .tc := ⟨.hbm, 121, rfl⟩
abbrev main_v13 : Ref sig .tc := ⟨.hbm, 122, rfl⟩
abbrev main_v14 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg4_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem5_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem4_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x50 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S10000x100 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S50x50 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S50 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S50x50 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S50 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x50 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8000x50 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![400], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x50 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x50 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x50 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S150x50 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S50 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x50 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x50 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x50 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S100x50 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S50 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x50 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x50_S128x50_0_0 : ∀ a, (![0, 0] : Fin 2 → Nat) a + S128x50.size a ≤ S128x50.size a
  h_S128x50 : 0 < S128x50.numel
  inb_S50_S50_0 : ∀ a, (![0] : Fin 1 → Nat) a + S50.size a ≤ S50.size a
  h_S50 : 0 < S50.numel
  shapeCasts_S50_S1x50 : S50.ShapeCasts S1x50
  broadcasts_S1x50_S10000x50 : S1x50.Broadcasts S10000x50
  inb_S10000x50_S10000x50_0_0 : ∀ a, (![0, 0] : Fin 2 → Nat) a + S10000x50.size a ≤ S10000x50.size a
  h_S10000x50 : 0 < S10000x50.numel
  concatenates_S10000x50_S10000x50_S10000x100_d1 : Shape.Concatenates [S10000x50, S10000x50] S10000x100 1
  inb_S10000x100_S10000x100_0_0 : ∀ a, (![0, 0] : Fin 2 → Nat) a + S10000x100.size a ≤ S10000x100.size a
  h_S10000x100 : 0 < S10000x100.numel
  inb_S8000x50_S8000x50_0_0 : ∀ a, (![0, 0] : Fin 2 → Nat) a + S8000x50.size a ≤ S8000x50.size a
  h_S8000x50 : 0 < S8000x50.numel
  inb_S50x50_S50x50_0_0 : ∀ a, (![0, 0] : Fin 2 → Nat) a + S50x50.size a ≤ S50x50.size a
  h_S50x50 : 0 < S50x50.numel
  broadcasts_S1x50_S8000x50 : S1x50.Broadcasts S8000x50
  slices_S100000x100_S100000x50_0_0 : S100000x100.Slices ![0, 0] S100000x50
  slices_S100000x100_S100000x50_0_50 : S100000x100.Slices ![0, 50] S100000x50
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x50_0 : S1600000.BroadcastsInDim S1600000x50 (![0] : Fin 1 → Fin S1600000x50.rank)
  bcast_S_S1600000x50 : S_.BroadcastsInDim S1600000x50 (![] : Fin 0 → Fin S1600000x50.rank)
  bcast_S_S100000x50 : S_.BroadcastsInDim S100000x50 (![] : Fin 0 → Fin S100000x50.rank)
  inb_S4000x50_S4000x50_0_0 : ∀ a, (![0, 0] : Fin 2 → Nat) a + S4000x50.size a ≤ S4000x50.size a
  h_S4000x50 : 0 < S4000x50.numel
  shapeCasts_S4000x50_S4000x50 : S4000x50.ShapeCasts S4000x50
  concatenates_S4000x50_S4000x50_S4000x50_S4000x150_d1 : Shape.Concatenates [S4000x50, S4000x50, S4000x50] S4000x150 1
  inb_S150x50_S150x50_0_0 : ∀ a, (![0, 0] : Fin 2 → Nat) a + S150x50.size a ≤ S150x50.size a
  h_S150x50 : 0 < S150x50.numel
  broadcasts_S1x50_S4000x50 : S1x50.Broadcasts S4000x50
  inb_S5000x50_S5000x50_0_0 : ∀ a, (![0, 0] : Fin 2 → Nat) a + S5000x50.size a ≤ S5000x50.size a
  h_S5000x50 : 0 < S5000x50.numel
  shapeCasts_S5000x50_S5000x50 : S5000x50.ShapeCasts S5000x50
  concatenates_S5000x50_S5000x50_S5000x100_d1 : Shape.Concatenates [S5000x50, S5000x50] S5000x100 1
  inb_S100x50_S100x50_0_0 : ∀ a, (![0, 0] : Fin 2 → Nat) a + S100x50.size a ≤ S100x50.size a
  h_S100x50 : 0 < S100x50.numel
  broadcasts_S1x50_S5000x50 : S1x50.Broadcasts S5000x50
  dot_S10000x128_S128x50_S10000x50_1_0_0_1_n_n_wf : DotDims.WF S10000x128 S128x50 S10000x50 [1] [0] [0] [1] [] []
  dot_S8000x50_S50x50_S8000x50_1_0_0_1_n_n_wf : DotDims.WF S8000x50 S50x50 S8000x50 [1] [0] [0] [1] [] []
  gather_S100000x50_S1600000x1_S1600000x50_1_0_n_n_0_1_150_wf : GatherDims.WF S100000x50 S1600000x1 S1600000x50 [1] [0] [] [0] [] 1 ![1, 50]
  scatter_S100000x50_S1600000x1_S1600000x50_1_0_0_1_wf : ScatterDims.WF S100000x50 S1600000x1 S1600000x50 [1] [0] [0] 1
  dot_S4000x150_S150x50_S4000x50_1_0_0_1_n_n_wf : DotDims.WF S4000x150 S150x50 S4000x50 [1] [0] [0] [1] [] []
  dot_S5000x100_S100x50_S5000x50_1_0_0_1_n_n_wf : DotDims.WF S5000x100 S100x50 S5000x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x50.size a ≤ S128x50.size a
  hwx0_1 : ∀ i : grid0.Coords, EltTy.bits .f32 = 32 ∨ (Rect.block (s := S128x50) S128x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50.size a ≤ S50.size a
  hwx0_2 : ∀ i : grid0.Coords, EltTy.bits .f32 = 32 ∨ (Rect.block (s := S50) S50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x50.size a ≤ S128x50.size a
  hwx0_3 : ∀ i : grid0.Coords, EltTy.bits .f32 = 32 ∨ (Rect.block (s := S128x50) S128x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50.size a ≤ S50.size a
  hwx0_4 : ∀ i : grid0.Coords, EltTy.bits .f32 = 32 ∨ (Rect.block (s := S50) S50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x50.size a ≤ S128x50.size a
  hwx0_5 : ∀ i : grid0.Coords, EltTy.bits .f32 = 32 ∨ (Rect.block (s := S128x50) S128x50.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S50.size a ≤ S50.size a
  hwx0_6 : ∀ i : grid0.Coords, EltTy.bits .f32 = 32 ∨ (Rect.block (s := S50) S50.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x50.size a ≤ S100000x50.size a
  hwx0_7 : ∀ i : grid0.Coords, EltTy.bits .f32 = 32 ∨ (Rect.block (s := S100000x50) S10000x50.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x100.size a ≤ S100000x100.size a
  hwx0_8 : ∀ i : grid0.Coords, EltTy.bits .f32 = 32 ∨ (Rect.block (s := S100000x100) S10000x100.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x50.size a ≤ S1600000x50.size a
  hwx1_0 : ∀ i : grid1.Coords, EltTy.bits .f32 = 32 ∨ (Rect.block (s := S1600000x50) S8000x50.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S50x50.size a ≤ S50x50.size a
  hwx1_1 : ∀ i : grid1.Coords, EltTy.bits .f32 = 32 ∨ (Rect.block (s := S50x50) S50x50.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S50.size a ≤ S50.size a
  hwx1_2 : ∀ i : grid1.Coords, EltTy.bits .f32 = 32 ∨ (Rect.block (s := S50) S50.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S50x50.size a ≤ S50x50.size a
  hwx1_3 : ∀ i : grid1.Coords, EltTy.bits .f32 = 32 ∨ (Rect.block (s := S50x50) S50x50.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S50.size a ≤ S50.size a
  hwx1_4 : ∀ i : grid1.Coords, EltTy.bits .f32 = 32 ∨ (Rect.block (s := S50) S50.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x50.size a ≤ S1600000x50.size a
  hwx1_5 : ∀ i : grid1.Coords, EltTy.bits .f32 = 32 ∨ (Rect.block (s := S1600000x50) S8000x50.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x50.size a ≤ S1600000x50.size a
  hwx1_6 : ∀ i : grid1.Coords, EltTy.bits .f32 = 32 ∨ (Rect.block (s := S1600000x50) S8000x50.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x50.size a ≤ S1600000x50.size a
  hwx2_0 : ∀ i : grid2.Coords, EltTy.bits .f32 = 32 ∨ (Rect.block (s := S1600000x50) S4000x50.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x50.size a ≤ S1600000x50.size a
  hwx2_1 : ∀ i : grid2.Coords, EltTy.bits .f32 = 32 ∨ (Rect.block (s := S1600000x50) S4000x50.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x50.size a ≤ S1600000x50.size a
  hwx2_2 : ∀ i : grid2.Coords, EltTy.bits .f32 = 32 ∨ (Rect.block (s := S1600000x50) S4000x50.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S150x50.size a ≤ S150x50.size a
  hwx2_3 : ∀ i : grid2.Coords, EltTy.bits .f32 = 32 ∨ (Rect.block (s := S150x50) S150x50.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S50.size a ≤ S50.size a
  hwx2_4 : ∀ i : grid2.Coords, EltTy.bits .f32 = 32 ∨ (Rect.block (s := S50) S50.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x50.size a ≤ S1600000x50.size a
  hwx2_5 : ∀ i : grid2.Coords, EltTy.bits .f32 = 32 ∨ (Rect.block (s := S1600000x50) S4000x50.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x50.size a ≤ S100000x50.size a
  hwx3_0 : ∀ i : grid3.Coords, EltTy.bits .f32 = 32 ∨ (Rect.block (s := S100000x50) S5000x50.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x50.size a ≤ S100000x50.size a
  hwx3_1 : ∀ i : grid3.Coords, EltTy.bits .f32 = 32 ∨ (Rect.block (s := S100000x50) S5000x50.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S100x50.size a ≤ S100x50.size a
  hwx3_2 : ∀ i : grid3.Coords, EltTy.bits .f32 = 32 ∨ (Rect.block (s := S100x50) S100x50.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S50.size a ≤ S50.size a
  hwx3_3 : ∀ i : grid3.Coords, EltTy.bits .f32 = 32 ∨ (Rect.block (s := S50) S50.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x50.size a ≤ S100000x50.size a
  hwx3_4 : ∀ i : grid3.Coords, EltTy.bits .f32 = 32 ∨ (Rect.block (s := S100000x50) S5000x50.size (cc3_transform_4 i) (hinb3_4 i)).WholeWords (EltTy.packing .f32)

variable [Facts₀]

def dot_S10000x128_S128x50_S10000x50_1_0_0_1_n_n : DotDims S10000x128 S128x50 S10000x50 where
  lhsContracting := [1]
  rhsContracting := [0]
  lhsNonContracting := [0]
  rhsNonContracting := [1]
  lhsBatch := []
  rhsBatch := []
  wf := dot_S10000x128_S128x50_S10000x50_1_0_0_1_n_n_wf
def dot_S8000x50_S50x50_S8000x50_1_0_0_1_n_n : DotDims S8000x50 S50x50 S8000x50 where
  lhsContracting := [1]
  rhsContracting := [0]
  lhsNonContracting := [0]
  rhsNonContracting := [1]
  lhsBatch := []
  rhsBatch := []
  wf := dot_S8000x50_S50x50_S8000x50_1_0_0_1_n_n_wf
def gather_S100000x50_S1600000x1_S1600000x50_1_0_n_n_0_1_150 : GatherDims S100000x50 S1600000x1 S1600000x50 where
  offsetDims := [1]
  collapsedSliceDims := [0]
  operandBatchingDims := []
  startIndicesBatchingDims := []
  startIndexMap := [0]
  indexVectorDim := 1
  sliceSizes := ![1, 50]
  wf := gather_S100000x50_S1600000x1_S1600000x50_1_0_n_n_0_1_150_wf
def scatter_S100000x50_S1600000x1_S1600000x50_1_0_0_1 : ScatterDims S100000x50 S1600000x1 S1600000x50 where
  updateWindowDims := [1]
  insertedWindowDims := [0]
  scatterDimsToOperandDims := [0]
  indexVectorDim := 1
  wf := scatter_S100000x50_S1600000x1_S1600000x50_1_0_0_1_wf
def dot_S4000x150_S150x50_S4000x50_1_0_0_1_n_n : DotDims S4000x150 S150x50 S4000x50 where
  lhsContracting := [1]
  rhsContracting := [0]
  lhsNonContracting := [0]
  rhsNonContracting := [1]
  lhsBatch := []
  rhsBatch := []
  wf := dot_S4000x150_S150x50_S4000x50_1_0_0_1_n_n_wf
def dot_S5000x100_S100x50_S5000x50_1_0_0_1_n_n : DotDims S5000x100 S100x50 S5000x50 where
  lhsContracting := [1]
  rhsContracting := [0]
  lhsNonContracting := [0]
  rhsNonContracting := [1]
  lhsBatch := []
  rhsBatch := []
  wf := dot_S5000x100_S100x50_S5000x50_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S128x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg12) S128x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg13) S50.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S10000x50.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S10000x100.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg1) S8000x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S50x50.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S50.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg14) S50x50.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg15) S50.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1_0) S8000x50.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1_1) S8000x50.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v8) S4000x50.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S4000x50.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1_1) S4000x50.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S150x50.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg17) S50.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S4000x50.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v0_0) S5000x50.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x50.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S100x50.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S50.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v14) S5000x50.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000x50 : Shape := ⟨2, ![1600000, 50]⟩
abbrev S1600000 : Shape := ⟨1, ![1600000]⟩
abbrev S128x50 : Shape := ⟨2, ![128, 50]⟩
abbrev S50 : Shape := ⟨1, ![50]⟩
abbrev S50x50 : Shape := ⟨2, ![50, 50]⟩
abbrev S100x50 : Shape := ⟨2, ![100, 50]⟩
abbrev S150x50 : Shape := ⟨2, ![150, 50]⟩
abbrev S100000x50 : Shape := ⟨2, ![100000, 50]⟩
abbrev S1x50 : Shape := ⟨2, ![1, 50]⟩
abbrev S_ : Shape := ⟨0, ![]⟩
abbrev S1600000x1 : Shape := ⟨2, ![1600000, 1]⟩
abbrev S100000x100 : Shape := ⟨2, ![100000, 100]⟩
abbrev S1600000x150 : Shape := ⟨2, ![1600000, 150]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x50, .f32⟩
  | .hbm, ⟨2, _⟩ => ⟨S1600000, .i32⟩
  | .hbm, ⟨3, _⟩ => ⟨S1600000, .i32⟩
  | .hbm, ⟨4, _⟩ => ⟨S128x50, .f32⟩
  | .hbm, ⟨5, _⟩ => ⟨S50, .f32⟩
  | .hbm, ⟨6, _⟩ => ⟨S50x50, .f32⟩
  | .hbm, ⟨7, _⟩ => ⟨S50, .f32⟩
  | .hbm, ⟨8, _⟩ => ⟨S100x50, .f32⟩
  | .hbm, ⟨9, _⟩ => ⟨S50, .f32⟩
  | .hbm, ⟨10, _⟩ => ⟨S128x50, .f32⟩
  | .hbm, ⟨11, _⟩ => ⟨S50, .f32⟩
  | .hbm, ⟨12, _⟩ => ⟨S128x50, .f32⟩
  | .hbm, ⟨13, _⟩ => ⟨S50, .f32⟩
  | .hbm, ⟨14, _⟩ => ⟨S50x50, .f32⟩
  | .hbm, ⟨15, _⟩ => ⟨S50, .f32⟩
  | .hbm, ⟨16, _⟩ => ⟨S150x50, .f32⟩
  | .hbm, ⟨17, _⟩ => ⟨S50, .f32⟩
  | .hbm, ⟨18, _⟩ => ⟨S100000x50, .f32⟩
  | .hbm, ⟨19, _⟩ => ⟨S1x50, .f32⟩
  | .hbm, ⟨20, _⟩ => ⟨S100000x50, .f32⟩
  | .hbm, ⟨21, _⟩ => ⟨S100000x50, .f32⟩
  | .hbm, ⟨22, _⟩ => ⟨S_, .f32⟩
  | .hbm, ⟨23, _⟩ => ⟨S100000x50, .f32⟩
  | .hbm, ⟨24, _⟩ => ⟨S100000x50, .f32⟩
  | .hbm, ⟨25, _⟩ => ⟨S1600000x50, .f32⟩
  | .hbm, ⟨26, _⟩ => ⟨S1x50, .f32⟩
  | .hbm, ⟨27, _⟩ => ⟨S1600000x50, .f32⟩
  | .hbm, ⟨28, _⟩ => ⟨S1600000x50, .f32⟩
  | .hbm, ⟨29, _⟩ => ⟨S_, .f32⟩
  | .hbm, ⟨30, _⟩ => ⟨S1600000x50, .f32⟩
  | .hbm, ⟨31, _⟩ => ⟨S1600000x50, .f32⟩
  | .hbm, ⟨32, _⟩ => ⟨S_, .f32⟩
  | .hbm, ⟨33, _⟩ => ⟨S100000x50, .f32⟩
  | .hbm, ⟨34, _⟩ => ⟨S1600000x1, .i32⟩
  | .hbm, ⟨35, _⟩ => ⟨S100000x50, .f32⟩
  | .hbm, ⟨36, _⟩ => ⟨S100000x100, .f32⟩
  | .hbm, ⟨37, _⟩ => ⟨S100000x50, .f32⟩
  | .hbm, ⟨38, _⟩ => ⟨S1x50, .f32⟩
  | .hbm, ⟨39, _⟩ => ⟨S100000x50, .f32⟩
  | .hbm, ⟨40, _⟩ => ⟨S100000x50, .f32⟩
  | .hbm, ⟨41, _⟩ => ⟨S_, .f32⟩
  | .hbm, ⟨42, _⟩ => ⟨S100000x50, .f32⟩
  | .hbm, ⟨43, _⟩ => ⟨S100000x50, .f32⟩
  | .hbm, ⟨44, _⟩ => ⟨S100000x50, .f32⟩
  | .hbm, ⟨45, _⟩ => ⟨S1x50, .f32⟩
  | .hbm, ⟨46, _⟩ => ⟨S100000x50, .f32⟩
  | .hbm, ⟨47, _⟩ => ⟨S100000x50, .f32⟩
  | .hbm, ⟨48, _⟩ => ⟨S100000x50, .f32⟩
  | .hbm, ⟨49, _⟩ => ⟨S1x50, .f32⟩
  | .hbm, ⟨50, _⟩ => ⟨S100000x50, .f32⟩
  | .hbm, ⟨51, _⟩ => ⟨S100000x50, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x50, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x50, .f32⟩
  | .hbm, ⟨70, _⟩ => ⟨S1600000x50, .f32⟩
  | .hbm, ⟨71, _⟩ => ⟨S_, .f32⟩
  | .hbm, ⟨72, _⟩ => ⟨S1600000x50, .f32⟩
  | .hbm, ⟨73, _⟩ => ⟨S1600000x50, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x50, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x50, .f32⟩
  | .hbm, ⟨92, _⟩ => ⟨S1600000x50, .f32⟩
  | .hbm, ⟨93, _⟩ => ⟨S_, .f32⟩
  | .hbm, ⟨94, _⟩ => ⟨S1600000x50, .f32⟩
  | .hbm, ⟨95, _⟩ => ⟨S1600000x50, .f32⟩
  | .hbm, ⟨96, _⟩ => ⟨S1600000x50, .f32⟩
  | .hbm, ⟨97, _⟩ => ⟨S1x50, .f32⟩
  | .hbm, ⟨98, _⟩ => ⟨S1600000x50, .f32⟩
  | .hbm, ⟨99, _⟩ => ⟨S1600000x50, .f32⟩
  | .hbm, ⟨100, _⟩ => ⟨S_, .f32⟩
  | .hbm, ⟨101, _⟩ => ⟨S1600000x50, .f32⟩
  | .hbm, ⟨102, _⟩ => ⟨S1600000x50, .f32⟩
  | .hbm, ⟨103, _⟩ => ⟨S1600000x150, .f32⟩
  | .hbm, ⟨104, _⟩ => ⟨S1600000x50, .f32⟩
  | .hbm, ⟨105, _⟩ => ⟨S1x50, .f32⟩
  | .hbm, ⟨106, _⟩ => ⟨S1600000x50, .f32⟩
  | .hbm, ⟨107, _⟩ => ⟨S1600000x50, .f32⟩
  | .hbm, ⟨108, _⟩ => ⟨S_, .f32⟩
  | .hbm, ⟨109, _⟩ => ⟨S1600000x50, .f32⟩
  | .hbm, ⟨110, _⟩ => ⟨S1600000x50, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_cst : Ref sig .tc := ⟨.hbm, 29, rfl⟩
abbrev main_call1_v0 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_call2_cst : Ref sig .tc := ⟨.hbm, 41, rfl⟩
abbrev main_call2_v0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c : Ref sig .tc := ⟨.hbm, 52, rfl⟩
abbrev main_v27 : Ref sig .tc := ⟨.hbm, 53, rfl⟩
abbrev main_v28 : Ref sig .tc := ⟨.hbm, 54, rfl⟩
abbrev main_c_0 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_1 : Ref sig .tc := ⟨.hbm, 61, rfl⟩
abbrev main_v34 : Ref sig .tc := ⟨.hbm, 62, rfl⟩
abbrev main_v35 : Ref sig .tc := ⟨.hbm, 63, rfl⟩
abbrev main_c_2 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_call3_cst : Ref sig .tc := ⟨.hbm, 71, rfl⟩
abbrev main_call3_v0 : Ref sig .tc := ⟨.hbm, 72, rfl⟩
abbrev main_v42 : Ref sig .tc := ⟨.hbm, 73, rfl⟩
abbrev main_c_3 : Ref sig .tc := ⟨.hbm, 74, rfl⟩
abbrev main_v43 : Ref sig .tc := ⟨.hbm, 75, rfl⟩
abbrev main_v44 : Ref sig .tc := ⟨.hbm, 76, rfl⟩
abbrev main_c_4 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_5 : Ref sig .tc := ⟨.hbm, 83, rfl⟩
abbrev main_v50 : Ref sig .tc := ⟨.hbm, 84, rfl⟩
abbrev main_v51 : Ref sig .tc := ⟨.hbm, 85, rfl⟩
abbrev main_c_6 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_call4_cst : Ref sig .tc := ⟨.hbm, 93, rfl⟩
abbrev main_call4_v0 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_call5_cst : Ref sig .tc := ⟨.hbm, 100, rfl⟩
abbrev main_call5_v0 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_call6_cst : Ref sig .tc := ⟨.hbm, 108, rfl⟩
abbrev main_call6_v0 : Ref sig .tc := ⟨.hbm, 109, rfl⟩
abbrev main_v69 : Ref sig .tc := ⟨.hbm, 110, rfl⟩

abbrev nD : Nat := 1
abbrev τ : Topo := Topo.v7x

variable {F : FTy → Type} [FloatOps F]

class Facts₀ : Prop where
  bcast_S50_S1x50_1 : S50.BroadcastsInDim S1x50 (![1] : Fin 1 → Fin S1x50.rank)
  bcast_S1x50_S100000x50_0_1 : S1x50.BroadcastsInDim S100000x50 (![0, 1] : Fin 2 → Fin S100000x50.rank)
  bcast_S_S100000x50 : S_.BroadcastsInDim S100000x50 (![] : Fin 0 → Fin S100000x50.rank)
  bcast_S1x50_S1600000x50_0_1 : S1x50.BroadcastsInDim S1600000x50 (![0, 1] : Fin 2 → Fin S1600000x50.rank)
  bcast_S_S1600000x50 : S_.BroadcastsInDim S1600000x50 (![] : Fin 0 → Fin S1600000x50.rank)
  bcast_S1600000_S1600000x1_0 : S1600000.BroadcastsInDim S1600000x1 (![0] : Fin 1 → Fin S1600000x1.rank)
  concatenates_S100000x50_S100000x50_S100000x100_d1 : Shape.Concatenates [S100000x50, S100000x50] S100000x100 1
  bcast_S_S1600000 : S_.BroadcastsInDim S1600000 (![] : Fin 0 → Fin S1600000.rank)
  concatenates_S1600000x50_S1600000x50_S1600000x50_S1600000x150_d1 : Shape.Concatenates [S1600000x50, S1600000x50, S1600000x50] S1600000x150 1
  dot_S100000x128_S128x50_S100000x50_1_0_0_1_n_n_wf : DotDims.WF S100000x128 S128x50 S100000x50 [1] [0] [0] [1] [] []
  dot_S1600000x50_S50x50_S1600000x50_1_0_0_1_n_n_wf : DotDims.WF S1600000x50 S50x50 S1600000x50 [1] [0] [0] [1] [] []
  scatter_S100000x50_S1600000x1_S1600000x50_1_0_0_1_wf : ScatterDims.WF S100000x50 S1600000x1 S1600000x50 [1] [0] [0] 1
  dot_S100000x100_S100x50_S100000x50_1_0_0_1_n_n_wf : DotDims.WF S100000x100 S100x50 S100000x50 [1] [0] [0] [1] [] []
  gather_S100000x50_S1600000x1_S1600000x50_1_0_n_n_0_1_150_wf : GatherDims.WF S100000x50 S1600000x1 S1600000x50 [1] [0] [] [0] [] 1 ![1, 50]
  dot_S1600000x150_S150x50_S1600000x50_1_0_0_1_n_n_wf : DotDims.WF S1600000x150 S150x50 S1600000x50 [1] [0] [0] [1] [] []

variable [Facts₀]

def dot_S100000x128_S128x50_S100000x50_1_0_0_1_n_n : DotDims S100000x128 S128x50 S100000x50 where
  lhsContracting := [1]
  rhsContracting := [0]
  lhsNonContracting := [0]
  rhsNonContracting := [1]
  lhsBatch := []
  rhsBatch := []
  wf := dot_S100000x128_S128x50_S100000x50_1_0_0_1_n_n_wf
def dot_S1600000x50_S50x50_S1600000x50_1_0_0_1_n_n : DotDims S1600000x50 S50x50 S1600000x50 where
  lhsContracting := [1]
  rhsContracting := [0]
  lhsNonContracting := [0]
  rhsNonContracting := [1]
  lhsBatch := []
  rhsBatch := []
  wf := dot_S1600000x50_S50x50_S1600000x50_1_0_0_1_n_n_wf
def scatter_S100000x50_S1600000x1_S1600000x50_1_0_0_1 : ScatterDims S100000x50 S1600000x1 S1600000x50 where
  updateWindowDims := [1]
  insertedWindowDims := [0]
  scatterDimsToOperandDims := [0]
  indexVectorDim := 1
  wf := scatter_S100000x50_S1600000x1_S1600000x50_1_0_0_1_wf
def dot_S100000x100_S100x50_S100000x50_1_0_0_1_n_n : DotDims S100000x100 S100x50 S100000x50 where
  lhsContracting := [1]
  rhsContracting := [0]
  lhsNonContracting := [0]
  rhsNonContracting := [1]
  lhsBatch := []
  rhsBatch := []
  wf := dot_S100000x100_S100x50_S100000x50_1_0_0_1_n_n_wf
def gather_S100000x50_S1600000x1_S1600000x50_1_0_n_n_0_1_150 : GatherDims S100000x50 S1600000x1 S1600000x50 where
  offsetDims := [1]
  collapsedSliceDims := [0]
  operandBatchingDims := []
  startIndicesBatchingDims := []
  startIndexMap := [0]
  indexVectorDim := 1
  sliceSizes := ![1, 50]
  wf := gather_S100000x50_S1600000x1_S1600000x50_1_0_n_n_0_1_150_wf
def dot_S1600000x150_S150x50_S1600000x50_1_0_0_1_n_n : DotDims S1600000x150 S150x50 S1600000x50 where
  lhsContracting := [1]
  rhsContracting := [0]
  lhsNonContracting := [0]
  rhsNonContracting := [1]
  lhsBatch := []
  rhsBatch := []
  wf := dot_S1600000x150_S150x50_S1600000x50_1_0_0_1_n_n_wf

class Facts : Prop extends Facts₀ where

variable [Facts]
-- ==== Proof.Stages.lean ====
/-
  The layer's stages as functions of whole arrays, each spelt exactly as the reference program composes it:
  a linear map with its bias broadcast along the rows (`nodeLin`, `edgeLin`), the positive part against the zero
  array (`reluV`, `reluE`), the two update stages — the positive part of a linear map of a lane-wise concatenation
  (`nodeUpd` of two pieces, `edgeUpd` of three) —, a row gather at indices whose negative values are moved up by the
  number of nodes first (`rows`), and the sum of edge rows into their destination node's row (`segSum`).
  The node result is `nodeUpd (reluV (nodeLin x wₙ bₙ)) (segSum dst (reluE (edgeLin e wₑ bₑ))) w b`; the edge result is
  `edgeUpd` of the positive parts of `left[src] + right[dst]` and `right[src] + left[dst]` and of a third edge map.
-/
import proofs.«419642_j1082331758607_3_alg».proof.ReferenceIdeal
import Idealize.ShloMosaic.PureOps.Ideal

noncomputable section

namespace Cert.Stage

open Idealize.ShloMosaic Cert.ReferenceIdeal Cert.ReferenceIdeal.Facts₀

variable [Cert.ReferenceIdeal.Facts]

/-- Node-by-hidden and edge-by-hidden arrays of extended reals. -/
abbrev VH := FVec Ideal S100000x50 .f32
abbrev EH := FVec Ideal S1600000x50 .f32

/-- The zero arrays the positive part is taken against. -/
def zerosV : VH := broadcastInDim S100000x50 ![] bcast_S_S100000x50 (constant (F := Ideal) S_ .f32 0x00000000#32)
def zerosE : EH := broadcastInDim S1600000x50 ![] bcast_S_S1600000x50 (constant (F := Ideal) S_ .f32 0x00000000#32)

/-- A bias vector laid along every row. -/
def biasV (b : FVec Ideal S50 .f32) : VH :=
  broadcastInDim S100000x50 ![0, 1] bcast_S1x50_S100000x50_0_1 (broadcastInDim S1x50 ![1] bcast_S50_S1x50_1 b)
def biasE (b : FVec Ideal S50 .f32) : EH :=
  broadcastInDim S1600000x50 ![0, 1] bcast_S1x50_S1600000x50_0_1 (broadcastInDim S1x50 ![1] bcast_S50_S1x50_1 b)

/-- `x · w + b` on the node features and on the edge features. -/
def nodeLin (x : FVec Ideal S100000x128 .f32) (w : FVec Ideal S128x50 .f32) (b : FVec Ideal S50 .f32) : VH :=
  addf (Host.dotGeneral (F := Ideal) dot_S100000x128_S128x50_S100000x50_1_0_0_1_n_n none x w) (biasV b)
def edgeLin (x : FVec Ideal S1600000x50 .f32) (w : FVec Ideal S50x50 .f32) (b : FVec Ideal S50 .f32) : EH :=
  addf (Host.dotGeneral (F := Ideal) dot_S1600000x50_S50x50_S1600000x50_1_0_0_1_n_n none x w) (biasE b)

/-- The positive part. -/
def reluV (x : VH) : VH := maximumf x zerosV
def reluE (x : EH) : EH := maximumf x zerosE

/-- The node update: the positive part of `[nn | en] · w + b`. -/
def nodeUpd (nn en : VH) (w : FVec Ideal S100x50 .f32) (b : FVec Ideal S50 .f32) : VH :=
  reluV (addf (Host.dotGeneral (F := Ideal) dot_S100000x100_S100x50_S100000x50_1_0_0_1_n_n none
    (concatenate S100000x100 1 [⟨S100000x50, nn⟩, ⟨S100000x50, en⟩] concatenates_S100000x50_S100000x50_S100000x100_d1) w) (biasV b))

/-- The edge update: the positive part of `[f | s | t] · w + b`. -/
def edgeUpd (f s t : EH) (w : FVec Ideal S150x50 .f32) (b : FVec Ideal S50 .f32) : EH :=
  reluE (addf (Host.dotGeneral (F := Ideal) dot_S1600000x150_S150x50_S1600000x50_1_0_0_1_n_n none
    (concatenate S1600000x150 1 [⟨S1600000x50, f⟩, ⟨S1600000x50, s⟩, ⟨S1600000x50, t⟩]
      concatenates_S1600000x50_S1600000x50_S1600000x50_S1600000x150_d1) w) (biasE b))

/-- An index vector with its negative entries moved up by the number of nodes, as a column of start indices. -/
def wrapIdx (i : IVec S1600000 32) : IVec S1600000x1 32 :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 100000#32))) i)

/-- The rows of a node array at an index vector. -/
def rows (x : VH) (i : IVec S1600000 32) : EH :=
  Host.gather gather_S100000x50_S1600000x1_S1600000x50_1_0_n_n_0_1_150 x (wrapIdx i)

/-- Edge rows summed into the row of their destination node. -/
def segSum (dst : IVec S1600000 32) (u : EH) : VH :=
  Host.scatterAdd scatter_S100000x50_S1600000x1_S1600000x50_1_0_0_1 zerosV
    (broadcastInDim S1600000x1 ![0] bcast_S1600000_S1600000x1_0 dst) u

end Cert.Stage

end
-- ==== Proof.R0.lean ====
/-
  Region 0 (the node transform) at any entry contents. Its first output array, once every block of rows is written
  back, is the positive part of the node features' linear map; its second output holds two linear maps side by side,
  and its left and right halves (columns 0–49 and 50–99) are those two maps.

  The road: a block's matrix product into a zero accumulator, read at one element, is the sum over the 128 features
  (the contraction has one axis), and so is the whole-array product of the stages; the bias is the same vector laid
  along the rows on both sides. Grid point `t` handles rows `10000 t … 10000 t + 9999` of the node features and of
  both outputs, with the weights and biases whole, so what it writes back is block `t` of the stage's array; every row
  lies in the block of point `row / 10000`, so the blocks cover the arrays.
-/
import proofs.«419642_j1082331758607_3_alg».proof.Proof.Gen.KernelIdeal.Frame
import proofs.«419642_j1082331758607_3_alg».proof.Proof.Gen.ReferenceIdeal
import proofs.«419642_j1082331758607_3_alg».proof.Proof.Stages
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.R0

open Idealize.ShloMosaic Idealize.ShloMosaic.TcCoe Idealize.SL.Sem
open Cert.KernelIdeal Cert.KernelIdeal.Gen
open Idealize.ShloMosaic.ValueIdx

/-! ## A block's matrix product at an index

The contraction of the block dimension numbers has one axis of extent 128; the left operand is read along its
row and the right operand along its column. -/

theorem blockLhs_0 (i : S10000x50.Idx) (q : dot_S10000x128_S128x50_S10000x50_1_0_0_1_n_n.contr.Idx) :
    (dot_S10000x128_S128x50_S10000x50_1_0_0_1_n_n.lhsIdx i q 0).val = (i 0).val := by
  unfold DotDims.lhsIdx
  rw [dif_neg (show ¬(0 : Fin S10000x128.rank) ∈ dot_S10000x128_S128x50_S10000x50_1_0_0_1_n_n.lhsBatch by decide), dif_pos (show (0 : Fin S10000x128.rank) ∈ dot_S10000x128_S128x50_S10000x50_1_0_0_1_n_n.lhsNonContracting by decide)]
  rfl
theorem blockLhs_1 (i : S10000x50.Idx) (q : dot_S10000x128_S128x50_S10000x50_1_0_0_1_n_n.contr.Idx) :
    (dot_S10000x128_S128x50_S10000x50_1_0_0_1_n_n.lhsIdx i q 1).val = (q ⟨0, by decide⟩).val :=
  dot_S10000x128_S128x50_S10000x50_1_0_0_1_n_n.lhsIdx_val_of_single rfl i q
theorem blockRhs_0 (i : S10000x50.Idx) (q : dot_S10000x128_S128x50_S10000x50_1_0_0_1_n_n.contr.Idx) :
    (dot_S10000x128_S128x50_S10000x50_1_0_0_1_n_n.rhsIdx i q 0).val = (q ⟨0, by decide⟩).val :=
  dot_S10000x128_S128x50_S10000x50_1_0_0_1_n_n.rhsIdx_val_of_single rfl i q
theorem blockRhs_1 (i : S10000x50.Idx) (q : dot_S10000x128_S128x50_S10000x50_1_0_0_1_n_n.contr.Idx) :
    (dot_S10000x128_S128x50_S10000x50_1_0_0_1_n_n.rhsIdx i q 1).val = (i 1).val := by
  unfold DotDims.rhsIdx
  rw [dif_neg (show ¬(1 : Fin S128x50.rank) ∈ dot_S10000x128_S128x50_S10000x50_1_0_0_1_n_n.rhsBatch by decide), dif_pos (show (1 : Fin S128x50.rank) ∈ dot_S10000x128_S128x50_S10000x50_1_0_0_1_n_n.rhsNonContracting by decide)]
  rfl

/-- A block's product into the zero accumulator, at row `p` and column `q`: the sum over the 128 features. -/
theorem blockMatmul_apply {φ₁ φ₂ : FTy} (x : FVec Ideal S10000x128 φ₁) (w : FVec Ideal S128x50 φ₂) (p : Fin 10000) (q : Fin 50) :
    matmul (F := Ideal) dot_S10000x128_S128x50_S10000x50_1_0_0_1_n_n none x w (constant (F := Ideal) S10000x50 .f32 0x00000000#32) (ix2 p q)
      = ∑ k : Fin 128, x (ix2 p k) * w (ix2 k q) := by
  refine (Ideal.matmul_constant_zero_apply dot_S10000x128_S128x50_S10000x50_1_0_0_1_n_n none x w (ix2 p q)).trans ?_
  rw [← Equiv.sum_comp (contrEquiv1 dot_S10000x128_S128x50_S10000x50_1_0_0_1_n_n 128 rfl rfl).symm]
  refine Finset.sum_congr rfl fun k _ => ?_
  have hk := contrEquiv1_symm_val dot_S10000x128_S128x50_S10000x50_1_0_0_1_n_n 128 rfl rfl k
  have el : dot_S10000x128_S128x50_S10000x50_1_0_0_1_n_n.lhsIdx (ix2 p q) ((contrEquiv1 dot_S10000x128_S128x50_S10000x50_1_0_0_1_n_n 128 rfl rfl).symm k) = ix2 p k := funext fun a => Fin.ext (by
    match a with
    | ⟨0, _⟩ => exact blockLhs_0 _ _
    | ⟨1, _⟩ => exact (blockLhs_1 _ _).trans hk)
  have er : dot_S10000x128_S128x50_S10000x50_1_0_0_1_n_n.rhsIdx (ix2 p q) ((contrEquiv1 dot_S10000x128_S128x50_S10000x50_1_0_0_1_n_n 128 rfl rfl).symm k) = ix2 k q := funext fun a => Fin.ext (by
    match a with
    | ⟨0, _⟩ => exact (blockRhs_0 _ _).trans hk
    | ⟨1, _⟩ => exact blockRhs_1 _ _)
  rw [el, er]

/-- A bias vector cast to one row and laid along the block's rows reads, at `(p, q)`, the vector at `q`. -/
theorem blockBias_apply {α : Type} (b : S50.Idx → α) (p : Fin 10000) (q : Fin 50) :
    broadcastTo S10000x50 (shapeCast S1x50 b shapeCasts_S50_S1x50) broadcasts_S1x50_S10000x50 (ix2 p q) = b (ix1 q) :=
  (broadcastTo_1b_ab_apply _ _ p q).trans (shapeCast_a_1a_apply b _ 0 q)

/-! ## The body's two stored values at an index -/

/-- The positive part of a block's linear map, at row `p` and column `q`. -/
theorem pay2_apply (v0 : Vec Ideal S10000x128 .f32) (v2 : Vec Ideal S128x50 .f32) (v9 : Vec Ideal S50 .f32) (p : Fin 10000) (q : Fin 50) :
    (k0_pay2 (F := Ideal) v0 v2 v9) (ix2 p q) = max ((∑ k : Fin 128, v0 (ix2 p k) * v2 (ix2 k q)) + v9 (ix1 q)) 0 := by
  unfold k0_pay2 k0_pay1
  refine (maximumf_apply _ _ _).trans ?_
  refine congrArg₂ max ((addf_apply _ _ _).trans (congrArg₂ (· + ·) ?_ ?_)) ?_
  · exact blockMatmul_apply _ _ p q
  · exact blockBias_apply v9 p q
  · exact Ideal.ofBits_zero_f32

/-- The two linear maps side by side: columns below 50. -/
theorem pay3_apply_left (v0 : Vec Ideal S10000x128 .f32) (v4 v6 : Vec Ideal S128x50 .f32) (v16 v21 : Vec Ideal S50 .f32) (p : Fin 10000) (q : Fin 50) (q' : Fin 100)
    (hq : q'.val = q.val) :
    (k0_pay3 (F := Ideal) v0 v4 v6 v16 v21) (ix2 p q') = (∑ k : Fin 128, v0 (ix2 p k) * v4 (ix2 k q)) + v16 (ix1 q) := by
  unfold k0_pay3 k0_pay1
  refine (concatenate_pair_apply_left (t := S10000x100) (s₁ := S10000x50) (s₂ := S10000x50) (1 : Fin 2) _ _ concatenates_S10000x50_S10000x50_S10000x100_d1 (ix2 p q') rfl (ix2 p q) (fun b => ?_)).trans ?_
  · match b with
    | ⟨0, _⟩ => rfl
    | ⟨1, _⟩ => exact hq.symm
  refine (addf_apply _ _ _).trans (congrArg₂ (· + ·) ?_ ?_)
  · exact blockMatmul_apply _ _ p q
  · exact blockBias_apply v16 p q

/-- The two linear maps side by side: columns from 50 on. -/
theorem pay3_apply_right (v0 : Vec Ideal S10000x128 .f32) (v4 v6 : Vec Ideal S128x50 .f32) (v16 v21 : Vec Ideal S50 .f32) (p : Fin 10000) (q : Fin 50) (q' : Fin 100)
    (hq : q'.val = 50 + q.val) :
    (k0_pay3 (F := Ideal) v0 v4 v6 v16 v21) (ix2 p q') = (∑ k : Fin 128, v0 (ix2 p k) * v6 (ix2 k q)) + v21 (ix1 q) := by
  unfold k0_pay3 k0_pay1
  refine (concatenate_pair_apply_right (t := S10000x100) (s₁ := S10000x50) (s₂ := S10000x50) (1 : Fin 2) _ _ concatenates_S10000x50_S10000x50_S10000x100_d1 (ix2 p q') rfl rfl (ix2 p q) (fun b hb => ?_) ?_).trans ?_
  · match b with
    | ⟨0, _⟩ => rfl
    | ⟨1, _⟩ => exact absurd rfl hb
  · show q.val + 50 = q'.val
    omega
  refine (addf_apply _ _ _).trans (congrArg₂ (· + ·) ?_ ?_)
  · exact blockMatmul_apply _ _ p q
  · exact blockBias_apply v21 p q

/-! ## The stages at an index

The whole-array product has the same one-axis contraction; the bias is laid along the rows by two broadcasts. -/

theorem wholeLhs_0 (i : Cert.ReferenceIdeal.S100000x50.Idx) (q : Cert.ReferenceIdeal.dot_S100000x128_S128x50_S100000x50_1_0_0_1_n_n.contr.Idx) :
    (Cert.ReferenceIdeal.dot_S100000x128_S128x50_S100000x50_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x50_S100000x50_1_0_0_1_n_n.lhsBatch by decide), dif_pos (show (0 : Fin Cert.ReferenceIdeal.S100000x128.rank) ∈ Cert.ReferenceIdeal.dot_S100000x128_S128x50_S100000x50_1_0_0_1_n_n.lhsNonContracting by decide)]
  rfl
theorem wholeLhs_1 (i : Cert.ReferenceIdeal.S100000x50.Idx) (q : Cert.ReferenceIdeal.dot_S100000x128_S128x50_S100000x50_1_0_0_1_n_n.contr.Idx) :
    (Cert.ReferenceIdeal.dot_S100000x128_S128x50_S100000x50_1_0_0_1_n_n.lhsIdx i q 1).val = (q ⟨0, by decide⟩).val :=
  Cert.ReferenceIdeal.dot_S100000x128_S128x50_S100000x50_1_0_0_1_n_n.lhsIdx_val_of_single rfl i q
theorem wholeRhs_0 (i : Cert.ReferenceIdeal.S100000x50.Idx) (q : Cert.ReferenceIdeal.dot_S100000x128_S128x50_S100000x50_1_0_0_1_n_n.contr.Idx) :
    (Cert.ReferenceIdeal.dot_S100000x128_S128x50_S100000x50_1_0_0_1_n_n.rhsIdx i q 0).val = (q ⟨0, by decide⟩).val :=
  Cert.ReferenceIdeal.dot_S100000x128_S128x50_S100000x50_1_0_0_1_n_n.rhsIdx_val_of_single rfl i q
theorem wholeRhs_1 (i : Cert.ReferenceIdeal.S100000x50.Idx) (q : Cert.ReferenceIdeal.dot_S100000x128_S128x50_S100000x50_1_0_0_1_n_n.contr.Idx) :
    (Cert.ReferenceIdeal.dot_S100000x128_S128x50_S100000x50_1_0_0_1_n_n.rhsIdx i q 1).val = (i 1).val := by
  unfold DotDims.rhsIdx
  rw [dif_neg (show ¬(1 : Fin Cert.ReferenceIdeal.S128x50.rank) ∈ Cert.ReferenceIdeal.dot_S100000x128_S128x50_S100000x50_1_0_0_1_n_n.rhsBatch by decide), dif_pos (show (1 : Fin Cert.ReferenceIdeal.S128x50.rank) ∈ Cert.ReferenceIdeal.dot_S100000x128_S128x50_S100000x50_1_0_0_1_n_n.rhsNonContracting by decide)]
  rfl

/-- The node features' linear map at row `r` and column `q`. -/
theorem nodeLin_apply (x : FVec Ideal Cert.ReferenceIdeal.S100000x128 .f32) (w : FVec Ideal Cert.ReferenceIdeal.S128x50 .f32)
    (b : FVec Ideal Cert.ReferenceIdeal.S50 .f32) (r : Fin 100000) (q : Fin 50) :
    Cert.Stage.nodeLin x w b (ix2 r q) = (∑ k : Fin 128, x (ix2 r k) * w (ix2 k q)) + b (ix1 q) := by
  unfold Cert.Stage.nodeLin Cert.Stage.biasV
  refine (addf_apply _ _ _).trans (congrArg₂ (· + ·) ?_ ?_)
  · simp only [Host.dotGeneral]
    rw [Ideal.dotGeneral_apply, ← Equiv.sum_comp (contrEquiv1 Cert.ReferenceIdeal.dot_S100000x128_S128x50_S100000x50_1_0_0_1_n_n 128 rfl rfl).symm]
    refine Finset.sum_congr rfl fun k _ => ?_
    have hk := contrEquiv1_symm_val Cert.ReferenceIdeal.dot_S100000x128_S128x50_S100000x50_1_0_0_1_n_n 128 rfl rfl k
    have el : Cert.ReferenceIdeal.dot_S100000x128_S128x50_S100000x50_1_0_0_1_n_n.lhsIdx (ix2 r q) ((contrEquiv1 Cert.ReferenceIdeal.dot_S100000x128_S128x50_S100000x50_1_0_0_1_n_n 128 rfl rfl).symm k) = ix2 r k := funext fun a => Fin.ext (by
      match a with
      | ⟨0, _⟩ => exact wholeLhs_0 _ _
      | ⟨1, _⟩ => exact (wholeLhs_1 _ _).trans hk)
    have er : Cert.ReferenceIdeal.dot_S100000x128_S128x50_S100000x50_1_0_0_1_n_n.rhsIdx (ix2 r q) ((contrEquiv1 Cert.ReferenceIdeal.dot_S100000x128_S128x50_S100000x50_1_0_0_1_n_n 128 rfl rfl).symm k) = ix2 k q := funext fun a => Fin.ext (by
      match a with
      | ⟨0, _⟩ => exact (wholeRhs_0 _ _).trans hk
      | ⟨1, _⟩ => exact wholeRhs_1 _ _)
    rw [el, er]
  · refine (broadcastInDim_apply _ _ _ (ix2 r q) (ix2 (0 : Fin 1) q) (fun a => ?_)).trans
      (broadcastInDim_apply _ _ b (ix2 (0 : Fin 1) q) (ix1 q) (fun a => ?_))
    · match a with
      | ⟨0, _⟩ => show 0 = if (1 : Nat) = 1 then 0 else r.val; rw [if_pos rfl]
      | ⟨1, _⟩ => show q.val = if (50 : Nat) = 1 then 0 else q.val; rw [if_neg (by decide)]
    · match a with
      | ⟨0, _⟩ => show q.val = if (50 : Nat) = 1 then 0 else q.val; rw [if_neg (by decide)]

/-- The positive part at an index. -/
theorem reluV_apply (y : Cert.Stage.VH) (i : Cert.ReferenceIdeal.S100000x50.Idx) : Cert.Stage.reluV y i = max (y i) 0 := by
  unfold Cert.Stage.reluV Cert.Stage.zerosV
  refine (maximumf_apply _ _ _).trans (congrArg (max (y i)) ?_)
  exact (broadcastInDim_apply _ _ _ i ix0 (fun a => a.elim0)).trans Ideal.ofBits_zero_f32

/-! ## One row of a block against one row of the array -/

/-- If a block of node features holds row `r` of the array at its row `p`, and the weight and bias blocks are the
    arrays, the body's first stored value at `(p, q)` is the positive part of the linear map at `(r, q)`. -/
theorem point7 (X : S100000x128.Idx → EReal) (W : S128x50.Idx → EReal) (B : S50.Idx → EReal)
    (x0 : Vec Ideal S10000x128 .f32) (w0 : Vec Ideal S128x50 .f32) (b0 : Vec Ideal S50 .f32)
    (p : Fin 10000) (q : Fin 50) (r : Fin 100000)
    (hx : ∀ k : Fin 128, x0 (ix2 p k) = X (ix2 r k)) (hw : ∀ k : Fin 128, w0 (ix2 k q) = W (ix2 k q)) (hb : b0 (ix1 q) = B (ix1 q)) :
    (k0_pay2 (F := Ideal) x0 w0 b0) (ix2 p q) = Cert.Stage.reluV (Cert.Stage.nodeLin X W B) (ix2 r q) := by
  rw [pay2_apply, reluV_apply, nodeLin_apply]
  simp only [hx, hw, hb]

/-- The same for the second stored value's left half … -/
theorem point8_left (X : S100000x128.Idx → EReal) (W : S128x50.Idx → EReal) (B : S50.Idx → EReal)
    (x0 : Vec Ideal S10000x128 .f32) (w0 w0' : Vec Ideal S128x50 .f32) (b0 b0' : Vec Ideal S50 .f32)
    (p : Fin 10000) (q : Fin 50) (q' : Fin 100) (hq : q'.val = q.val) (r : Fin 100000)
    (hx : ∀ k : Fin 128, x0 (ix2 p k) = X (ix2 r k)) (hw : ∀ k : Fin 128, w0 (ix2 k q) = W (ix2 k q)) (hb : b0 (ix1 q) = B (ix1 q)) :
    (k0_pay3 (F := Ideal) x0 w0 w0' b0 b0') (ix2 p q') = Cert.Stage.nodeLin X W B (ix2 r q) := by
  rw [pay3_apply_left x0 w0 w0' b0 b0' p q q' hq, nodeLin_apply]
  simp only [hx, hw, hb]

/-- … and its right half. -/
theorem point8_right (X : S100000x128.Idx → EReal) (W' : S128x50.Idx → EReal) (B' : S50.Idx → EReal)
    (x0 : Vec Ideal S10000x128 .f32) (w0 w0' : Vec Ideal S128x50 .f32) (b0 b0' : Vec Ideal S50 .f32)
    (p : Fin 10000) (q : Fin 50) (q' : Fin 100) (hq : q'.val = 50 + q.val) (r : Fin 100000)
    (hx : ∀ k : Fin 128, x0 (ix2 p k) = X (ix2 r k)) (hw : ∀ k : Fin 128, w0' (ix2 k q) = W' (ix2 k q)) (hb : b0' (ix1 q) = B' (ix1 q)) :
    (k0_pay3 (F := Ideal) x0 w0 w0' b0 b0') (ix2 p q') = Cert.Stage.nodeLin X W' B' (ix2 r q) := by
  rw [pay3_apply_right x0 w0 w0' b0 b0' p q q' hq, nodeLin_apply]
  simp only [hx, hw, hb]

/-! ## Two arrays side by side -/

/-- Two node-by-hidden arrays side by side along the columns, as one function of the wide array's index. -/
def sideBySide (L R : S100000x50.Idx → EReal) : S100000x100.Idx → EReal := fun i =>
  if h : (i 1).val < 50 then L (ix2 (⟨(i 0).val, idx2_lt0 i⟩ : Fin 100000) (⟨(i 1).val, h⟩ : Fin 50))
  else R (ix2 (⟨(i 0).val, idx2_lt0 i⟩ : Fin 100000) (⟨(i 1).val - 50, by have := idx2_lt1 i; omega⟩ : Fin 50))

theorem sideBySide_left (L R : S100000x50.Idx → EReal) (r : Fin 100000) (q : Fin 50) (q' : Fin 100) (hq : q'.val = q.val) :
    sideBySide L R (ix2 r q') = L (ix2 r q) := by
  unfold sideBySide
  rw [dif_pos (show ((ix2 r q' : S100000x100.Idx) 1).val < 50 by show q'.val < 50; omega)]
  refine congrArg L (funext fun a => Fin.ext ?_)
  match a with
  | ⟨0, _⟩ => rfl
  | ⟨1, _⟩ => exact hq

theorem sideBySide_right (L R : S100000x50.Idx → EReal) (r : Fin 100000) (q : Fin 50) (q' : Fin 100) (hq : q'.val = 50 + q.val) :
    sideBySide L R (ix2 r q') = R (ix2 r q) := by
  unfold sideBySide
  rw [dif_neg (show ¬((ix2 r q' : S100000x100.Idx) 1).val < 50 by show ¬q'.val < 50; omega)]
  refine congrArg R (funext fun a => Fin.ext ?_)
  match a with
  | ⟨0, _⟩ => rfl
  | ⟨1, _⟩ => show q'.val - 50 = q.val; omega

variable (V : (c : Dev nD) → (b : Ref sig .tc) → Buf (Elt Ideal) ((c : Thread nD τ).loc b))

/-! ## What each grid point writes back

Point `t` of the grid handles rows `10000 t … 10000 t + 9999`: the node features' and both outputs' blocks move with
`t` along the rows, the weight and bias windows stay on their whole arrays. -/

theorem zeros2 : (![0, 0] : Fin 2 → Nat) = fun _ => 0 := funext fun a => by fin_cases a <;> rfl
theorem zeros1 : (![0] : Fin 1 → Nat) = fun _ => 0 := funext fun a => by fin_cases a <;> rfl

theorem point_lt (t : Fin cfg0.N) : t.val < 10 := by have := t.isLt; have h : cfg0.N = 10 := N_0; omega

/-- The array row that row `p` of point `t`'s blocks is. -/
def rowOf (t : Fin cfg0.N) (p : Fin 10000) : Fin 100000 := ⟨t.val * 10000 + p.val, by have := point_lt t; omega⟩

/-- The index maps of the three windows that move with the grid point, decided over the ten points. -/
theorem idx0 : ∀ t : Fin cfg0.N, win0_0.index t (0 : Fin 2) = t.val ∧ win0_0.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)

/-- The node features' block at point `t` is rows `10000 t + p` of the array. -/
theorem blk_x (c : Dev nD) (t : Fin cfg0.N) (p : Fin 10000) (k : Fin 128) :
    (iblk0 (F := Ideal) V c 0 t : Vec Ideal S10000x128 .f32) (ix2 p k) = (V c main_arg0 : S100000x128.Idx → EReal) (ix2 (rowOf t p) k) := by
  obtain ⟨e0, e1⟩ := idx0 t
  unfold iblk0
  rw [View.read_apply]
  show V c main_arg0 _ = V c main_arg0 _
  congr 1
  funext a; apply Fin.ext
  match a with
  | ⟨0, _⟩ => show win0_0.index t (0 : Fin 2) * 10000 + 1 * p.val = t.val * 10000 + p.val; rw [e0]; omega
  | ⟨1, _⟩ => show win0_0.index t (1 : Fin 2) * 128 + 1 * k.val = k.val; rw [e1]; omega

/-- The weight and bias windows' blocks are their whole arrays. -/
theorem idx1 : ∀ t : Fin cfg0.N, win0_1.index t (0 : Fin 2) = 0 ∧ win0_1.index t (1 : Fin 2) = 0 :=
  (by decide +kernel : ∀ t : Fin grid0.N, _)
theorem blk_w1 (c : Dev nD) (t : Fin cfg0.N) (k : Fin 128) (q : Fin 50) :
    (iblk0 (F := Ideal) V c 1 t : Vec Ideal S128x50 .f32) (ix2 k q) = (V c main_arg4 : S128x50.Idx → EReal) (ix2 k q) := by
  obtain ⟨e0, e1⟩ := idx1 t
  unfold iblk0
  rw [View.read_apply]
  show V c main_arg4 _ = V c main_arg4 _
  congr 1
  funext a; apply Fin.ext
  match a with
  | ⟨0, _⟩ => show win0_1.index t (0 : Fin 2) * 128 + 1 * k.val = k.val; rw [e0]; omega
  | ⟨1, _⟩ => show win0_1.index t (1 : Fin 2) * 50 + 1 * q.val = q.val; rw [e1]; omega

theorem idx2 : ∀ t : Fin cfg0.N, win0_2.index t (0 : Fin 1) = 0 :=
  (by decide +kernel : ∀ t : Fin grid0.N, _)
theorem blk_b2 (c : Dev nD) (t : Fin cfg0.N) (q : Fin 50) :
    (iblk0 (F := Ideal) V c 2 t : Vec Ideal S50 .f32) (ix1 q) = (V c main_arg5 : S50.Idx → EReal) (ix1 q) := by
  have e0 := idx2 t
  unfold iblk0
  rw [View.read_apply]
  show V c main_arg5 _ = V c main_arg5 _
  congr 1
  funext a; apply Fin.ext
  match a with
  | ⟨0, _⟩ => show win0_2.index t (0 : Fin 1) * 50 + 1 * q.val = q.val; rw [e0]; omega

theorem idx3 : ∀ t : Fin cfg0.N, win0_3.index t (0 : Fin 2) = 0 ∧ win0_3.index t (1 : Fin 2) = 0 :=
  (by decide +kernel : ∀ t : Fin grid0.N, _)
theorem blk_w3 (c : Dev nD) (t : Fin cfg0.N) (k : Fin 128) (q : Fin 50) :
    (iblk0 (F := Ideal) V c 3 t : Vec Ideal S128x50 .f32) (ix2 k q) = (V c main_arg10 : S128x50.Idx → EReal) (ix2 k q) := by
  obtain ⟨e0, e1⟩ := idx3 t
  unfold iblk0
  rw [View.read_apply]
  show V c main_arg10 _ = V c main_arg10 _
  congr 1
  funext a; apply Fin.ext
  match a with
  | ⟨0, _⟩ => show win0_3.index t (0 : Fin 2) * 128 + 1 * k.val = k.val; rw [e0]; omega
  | ⟨1, _⟩ => show win0_3.index t (1 : Fin 2) * 50 + 1 * q.val = q.val; rw [e1]; omega

theorem idx4 : ∀ t : Fin cfg0.N, win0_4.index t (0 : Fin 1) = 0 :=
  (by decide +kernel : ∀ t : Fin grid0.N, _)
theorem blk_b4 (c : Dev nD) (t : Fin cfg0.N) (q : Fin 50) :
    (iblk0 (F := Ideal) V c 4 t : Vec Ideal S50 .f32) (ix1 q) = (V c main_arg11 : S50.Idx → EReal) (ix1 q) := by
  have e0 := idx4 t
  unfold iblk0
  rw [View.read_apply]
  show V c main_arg11 _ = V c main_arg11 _
  congr 1
  funext a; apply Fin.ext
  match a with
  | ⟨0, _⟩ => show win0_4.index t (0 : Fin 1) * 50 + 1 * q.val = q.val; rw [e0]; omega

theorem idx5 : ∀ t : Fin cfg0.N, win0_5.index t (0 : Fin 2) = 0 ∧ win0_5.index t (1 : Fin 2) = 0 :=
  (by decide +kernel : ∀ t : Fin grid0.N, _)
theorem blk_w5 (c : Dev nD) (t : Fin cfg0.N) (k : Fin 128) (q : Fin 50) :
    (iblk0 (F := Ideal) V c 5 t : Vec Ideal S128x50 .f32) (ix2 k q) = (V c main_arg12 : S128x50.Idx → EReal) (ix2 k q) := by
  obtain ⟨e0, e1⟩ := idx5 t
  unfold iblk0
  rw [View.read_apply]
  show V c main_arg12 _ = V c main_arg12 _
  congr 1
  funext a; apply Fin.ext
  match a with
  | ⟨0, _⟩ => show win0_5.index t (0 : Fin 2) * 128 + 1 * k.val = k.val; rw [e0]; omega
  | ⟨1, _⟩ => show win0_5.index t (1 : Fin 2) * 50 + 1 * q.val = q.val; rw [e1]; omega

theorem idx6 : ∀ t : Fin cfg0.N, win0_6.index t (0 : Fin 1) = 0 :=
  (by decide +kernel : ∀ t : Fin grid0.N, _)
theorem blk_b6 (c : Dev nD) (t : Fin cfg0.N) (q : Fin 50) :
    (iblk0 (F := Ideal) V c 6 t : Vec Ideal S50 .f32) (ix1 q) = (V c main_arg13 : S50.Idx → EReal) (ix1 q) := by
  have e0 := idx6 t
  unfold iblk0
  rw [View.read_apply]
  show V c main_arg13 _ = V c main_arg13 _
  congr 1
  funext a; apply Fin.ext
  match a with
  | ⟨0, _⟩ => show win0_6.index t (0 : Fin 1) * 50 + 1 * q.val = q.val; rw [e0]; omega

/-- Any contents of the first output array, read through point `t`'s block at `(p, q)`, is read at row `10000 t + p`. -/
theorem read7 (c : Dev nD) (G : Buf (Elt Ideal) ((c : Thread nD τ).loc main_v0_0)) (t : Fin cfg0.N) (p : Fin 10000) (q : Fin 50) :
    ((cfg0.win 7).blk t).view.read (Elt Ideal) G (ix2 p q) = (G : S100000x50.Idx → EReal) (ix2 (rowOf t p) q) := by
  obtain ⟨e0, e1⟩ := idx7 t
  rw [View.read_apply]
  show G _ = G _
  congr 1
  funext a; apply Fin.ext
  match a with
  | ⟨0, _⟩ => show win0_7.index t (0 : Fin 2) * 10000 + 1 * p.val = t.val * 10000 + p.val; rw [e0]; omega
  | ⟨1, _⟩ => show win0_7.index t (1 : Fin 2) * 50 + 1 * q.val = q.val; rw [e1]; omega

/-- The one store through the whole staging buffer leaves its value. -/
theorem out7_eq (x0 : Vec Ideal S10000x128 .f32) (x1 : Vec Ideal S128x50 .f32) (x2 : Vec Ideal S50 .f32) (x3 : Vec Ideal S128x50 .f32)
    (x4 : Vec Ideal S50 .f32) (x5 : Vec Ideal S128x50 .f32) (x6 : Vec Ideal S50 .f32) :
    out0_7 (F := Ideal) x0 x1 x2 x3 x4 x5 x6 = k0_pay2 x0 x1 x2 := by
  unfold out0_7
  rw [View.canon_unit_zero zeros2]
  simp only [View.ld_unit_zero (S := S10000x128) zeros2, View.ld_unit_zero (S := S128x50) zeros2, View.ld_unit_zero (S := S50) zeros1]

/-- Point `t` writes back block `t` of the positive part of the node features' linear map. -/
theorem flushed7_eq (c : Dev nD) (t : Fin cfg0.N) :
    (dat0 (F := Ideal) V c).flushed 7 t = ((cfg0.win 7).blk t).view.read (Elt Ideal)
      (Cert.Stage.reluV (Cert.Stage.nodeLin (V c main_arg0) (V c main_arg4) (V c main_arg5))) := by
  show (cfg0.win 7).cut (grid0.coords t) ((dat0 (F := Ideal) V c).after 7 t) = _
  rw [after0_7, out7_eq]
  funext j
  obtain ⟨p, q, rfl⟩ : ∃ (p : Fin 10000) (q : Fin 50), j = ix2 p q := ⟨j 0, j 1, eq_ix2 j⟩
  refine Eq.trans ?_ (read7 c _ t p q).symm
  exact point7 _ _ _ _ _ _ p q _ (fun k => blk_x V c t p k) (fun k => blk_w1 V c t k q) (blk_b2 V c t q)

/-- Any contents of the second output array, read through point `t`'s block at `(p, q)`, is read at row `10000 t + p`. -/
theorem read8 (c : Dev nD) (G : Buf (Elt Ideal) ((c : Thread nD τ).loc main_v0_1)) (t : Fin cfg0.N) (p : Fin 10000) (q : Fin 100) :
    ((cfg0.win 8).blk t).view.read (Elt Ideal) G (ix2 p q) = (G : S100000x100.Idx → EReal) (ix2 (rowOf t p) q) := by
  obtain ⟨e0, e1⟩ := idx8 t
  rw [View.read_apply]
  show G _ = G _
  congr 1
  funext a; apply Fin.ext
  match a with
  | ⟨0, _⟩ => show win0_8.index t (0 : Fin 2) * 10000 + 1 * p.val = t.val * 10000 + p.val; rw [e0]; omega
  | ⟨1, _⟩ => show win0_8.index t (1 : Fin 2) * 100 + 1 * q.val = q.val; rw [e1]; omega

theorem out8_eq (x0 : Vec Ideal S10000x128 .f32) (x1 : Vec Ideal S128x50 .f32) (x2 : Vec Ideal S50 .f32) (x3 : Vec Ideal S128x50 .f32)
    (x4 : Vec Ideal S50 .f32) (x5 : Vec Ideal S128x50 .f32) (x6 : Vec Ideal S50 .f32) :
    out0_8 (F := Ideal) x0 x1 x2 x3 x4 x5 x6 = k0_pay3 x0 x3 x5 x4 x6 := by
  unfold out0_8
  rw [View.canon_unit_zero zeros2]
  simp only [View.ld_unit_zero (S := S10000x128) zeros2, View.ld_unit_zero (S := S128x50) zeros2, View.ld_unit_zero (S := S50) zeros1]

/-- Point `t` writes back block `t` of the two node maps side by side. -/
theorem flushed8_eq (c : Dev nD) (t : Fin cfg0.N) :
    (dat0 (F := Ideal) V c).flushed 8 t = ((cfg0.win 8).blk t).view.read (Elt Ideal)
      (sideBySide (Cert.Stage.nodeLin (V c main_arg0) (V c main_arg10) (V c main_arg11))
        (Cert.Stage.nodeLin (V c main_arg0) (V c main_arg12) (V c main_arg13))) := by
  show (cfg0.win 8).cut (grid0.coords t) ((dat0 (F := Ideal) V c).after 8 t) = _
  rw [after0_8, out8_eq]
  funext j
  obtain ⟨p, q', rfl⟩ : ∃ (p : Fin 10000) (q' : Fin 100), j = ix2 p q' := ⟨j 0, j 1, eq_ix2 j⟩
  refine Eq.trans ?_ (read8 c _ t p q').symm
  by_cases h : q'.val < 50
  · refine Eq.trans ?_ (sideBySide_left _ _ (rowOf t p) ⟨q'.val, h⟩ q' rfl).symm
    exact point8_left _ _ _ _ _ _ _ _ p ⟨q'.val, h⟩ q' rfl _ (fun k => blk_x V c t p k) (fun k => blk_w3 V c t k _) (blk_b4 V c t _)
  · have h2 : q'.val - 50 < 50 := by have := q'.isLt; omega
    refine Eq.trans ?_ (sideBySide_right _ _ (rowOf t p) ⟨q'.val - 50, h2⟩ q' (by show q'.val = 50 + (q'.val - 50); omega)).symm
    exact point8_right _ _ _ _ _ _ _ _ p ⟨q'.val - 50, h2⟩ q' (by show q'.val = 50 + (q'.val - 50); omega) _ (fun k => blk_x V c t p k) (fun k => blk_w5 V c t k _) (blk_b6 V c t _)

/-! ## From blocks to the arrays -/

/-- An index of the first output array is in point `t`'s block iff each coordinate is in the block's range on its axis. -/
theorem mem_blk7 (t : Fin cfg0.N) (i : S100000x50.Idx) :
    i ∈ ((cfg0.win 7).blk t).view.set ↔ ∀ a : Fin 2, win0_7.index t a * S10000x50.size a ≤ (i a).val ∧ (i a).val < win0_7.index t a * S10000x50.size a + S10000x50.size a := by
  show i ∈ ((View.whole main_v0_0).slice (win0_7.rect t)).set ↔ _
  rw [View.set_slice_whole, Rect.mem_set_unit]
  exact Iff.rfl

theorem mem_blk8 (t : Fin cfg0.N) (i : S100000x100.Idx) :
    i ∈ ((cfg0.win 8).blk t).view.set ↔ ∀ a : Fin 2, win0_8.index t a * S10000x100.size a ≤ (i a).val ∧ (i a).val < win0_8.index t a * S10000x100.size a + S10000x100.size a := by
  show i ∈ ((View.whole main_v0_1).slice (win0_8.rect t)).set ↔ _
  rw [View.set_slice_whole, Rect.mem_set_unit]
  exact Iff.rfl

/-- Row `r` is in the block of point `r / 10000`. -/
theorem cover7 (i : S100000x50.Idx) : ∃ t : Fin cfg0.N, (cfg0.win 7).flush t = true ∧ i ∈ ((cfg0.win 7).blk t).view.set := by
  have hi0 : (i 0).val < 100000 := (i 0).isLt
  have hi1 : (i 1).val < 50 := (i 1).isLt
  have hN : cfg0.N = 10 := N_0
  obtain ⟨e0, e1⟩ := idx7 ⟨(i 0).val / 10000, by omega⟩
  refine ⟨⟨(i 0).val / 10000, by omega⟩, flush0_7 _, ?_⟩
  rw [mem_blk7]
  intro a
  match a with
  | ⟨0, _⟩ =>
    show win0_7.index _ (0 : Fin 2) * 10000 ≤ (i 0).val ∧ (i 0).val < win0_7.index _ (0 : Fin 2) * 10000 + 10000
    rw [e0]; show (i 0).val / 10000 * 10000 ≤ (i 0).val ∧ (i 0).val < (i 0).val / 10000 * 10000 + 10000; omega
  | ⟨1, _⟩ =>
    show win0_7.index _ (1 : Fin 2) * 50 ≤ (i 1).val ∧ (i 1).val < win0_7.index _ (1 : Fin 2) * 50 + 50
    rw [e1]; omega

theorem cover8 (i : S100000x100.Idx) : ∃ t : Fin cfg0.N, (cfg0.win 8).flush t = true ∧ i ∈ ((cfg0.win 8).blk t).view.set := by
  have hi0 : (i 0).val < 100000 := (i 0).isLt
  have hi1 : (i 1).val < 100 := (i 1).isLt
  have hN : cfg0.N = 10 := N_0
  obtain ⟨e0, e1⟩ := idx8 ⟨(i 0).val / 10000, by omega⟩
  refine ⟨⟨(i 0).val / 10000, by omega⟩, flush0_8 _, ?_⟩
  rw [mem_blk8]
  intro a
  match a with
  | ⟨0, _⟩ =>
    show win0_8.index _ (0 : Fin 2) * 10000 ≤ (i 0).val ∧ (i 0).val < win0_8.index _ (0 : Fin 2) * 10000 + 10000
    rw [e0]; show (i 0).val / 10000 * 10000 ≤ (i 0).val ∧ (i 0).val < (i 0).val / 10000 * 10000 + 10000; omega
  | ⟨1, _⟩ =>
    show win0_8.index _ (1 : Fin 2) * 100 ≤ (i 1).val ∧ (i 1).val < win0_8.index _ (1 : Fin 2) * 100 + 100
    rw [e1]; omega

/-- The second output array, once every block is written back: the two node maps side by side. -/
theorem final8 (c : Dev nD) :
    (dat0 (F := Ideal) V c).arrAt 8 cfg0.N
      = sideBySide (Cert.Stage.nodeLin (V c main_arg0) (V c main_arg10) (V c main_arg11))
          (Cert.Stage.nodeLin (V c main_arg0) (V c main_arg12) (V c main_arg13)) :=
  (dat0 (F := Ideal) V c).arrAt_eq_of_cover 8 _ (fun t _ => flushed8_eq V c t) cover8

theorem out7 (c : Dev nD) :
    (dat0 (F := Ideal) V c).arrAt 7 cfg0.N
      = Cert.Stage.reluV (Cert.Stage.nodeLin (V c main_arg0) (V c main_arg4) (V c main_arg5)) :=
  (dat0 (F := Ideal) V c).arrAt_eq_of_cover 7 _ (fun t _ => flushed7_eq V c t) cover7

theorem out8_left (c : Dev nD) :
    extractStridedSlice S100000x50 ![0, 0] ((dat0 (F := Ideal) V c).arrAt 8 cfg0.N) slices_S100000x100_S100000x50_0_0
      = Cert.Stage.nodeLin (V c main_arg0) (V c main_arg10) (V c main_arg11) := by
  rw [final8]
  funext j
  obtain ⟨r, q, rfl⟩ : ∃ (r : Fin 100000) (q : Fin 50), j = ix2 r q := ⟨j 0, j 1, eq_ix2 j⟩
  refine (slice2_axis1_apply (n0 := 100000) (n1 := 100) (m := 50) 0 _ _ r q ⟨q.val, by have := q.isLt; omega⟩ (Nat.zero_add _).symm).trans ?_
  exact sideBySide_left _ _ r q _ rfl

theorem out8_right (c : Dev nD) :
    extractStridedSlice S100000x50 ![0, 50] ((dat0 (F := Ideal) V c).arrAt 8 cfg0.N) slices_S100000x100_S100000x50_0_50
      = Cert.Stage.nodeLin (V c main_arg0) (V c main_arg12) (V c main_arg13) := by
  rw [final8]
  funext j
  obtain ⟨r, q, rfl⟩ : ∃ (r : Fin 100000) (q : Fin 50), j = ix2 r q := ⟨j 0, j 1, eq_ix2 j⟩
  refine (slice2_axis1_apply (n0 := 100000) (n1 := 100) (m := 50) 50 _ _ r q ⟨50 + q.val, by have := q.isLt; omega⟩ rfl).trans ?_
  exact sideBySide_right _ _ r q _ rfl

end Cert.KernelIdeal.R0

end
-- ==== Proof.R1.lean ====
/-
  Region 1 (the edge transform) at any entry contents: each of its two output arrays, once every block is written
  back, is the positive part of the edge features' linear map with that output's weights and bias.
-/
import proofs.«419642_j1082331758607_3_alg».proof.Proof.Gen.KernelIdeal.Frame
import proofs.«419642_j1082331758607_3_alg».proof.Proof.Gen.ReferenceIdeal
import proofs.«419642_j1082331758607_3_alg».proof.Proof.Gen.ReferenceIdeal.Read
import proofs.«419642_j1082331758607_3_alg».proof.Proof.Stages
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.R1

open Idealize.ShloMosaic Idealize.ShloMosaic.TcCoe Idealize.SL.Sem
open Idealize.ShloMosaic.ValueIdx
open Cert.KernelIdeal Cert.KernelIdeal.Gen

/-! ## The block product at an index -/

/-- The block product's left operand is read at the output's row … -/
theorem lhs_mm_0 (i : S8000x50.Idx) (q : dot_S8000x50_S50x50_S8000x50_1_0_0_1_n_n.contr.Idx) :
    (dot_S8000x50_S50x50_S8000x50_1_0_0_1_n_n.lhsIdx i q 0).val = (i 0).val := by
  unfold DotDims.lhsIdx
  rw [dif_neg (show ¬(0 : Fin S8000x50.rank) ∈ dot_S8000x50_S50x50_S8000x50_1_0_0_1_n_n.lhsBatch by decide), dif_pos (show (0 : Fin S8000x50.rank) ∈ dot_S8000x50_S50x50_S8000x50_1_0_0_1_n_n.lhsNonContracting by decide)]
  rfl
/-- … and the contracted lane; -/
theorem lhs_mm_1 (i : S8000x50.Idx) (q : dot_S8000x50_S50x50_S8000x50_1_0_0_1_n_n.contr.Idx) :
    (dot_S8000x50_S50x50_S8000x50_1_0_0_1_n_n.lhsIdx i q 1).val = (q ⟨0, by decide⟩).val :=
  dot_S8000x50_S50x50_S8000x50_1_0_0_1_n_n.lhsIdx_val_of_single rfl i q
/-- the right operand at the contracted row … -/
theorem rhs_mm_0 (i : S8000x50.Idx) (q : dot_S8000x50_S50x50_S8000x50_1_0_0_1_n_n.contr.Idx) :
    (dot_S8000x50_S50x50_S8000x50_1_0_0_1_n_n.rhsIdx i q 0).val = (q ⟨0, by decide⟩).val :=
  dot_S8000x50_S50x50_S8000x50_1_0_0_1_n_n.rhsIdx_val_of_single rfl i q
/-- … and the output's lane. -/
theorem rhs_mm_1 (i : S8000x50.Idx) (q : dot_S8000x50_S50x50_S8000x50_1_0_0_1_n_n.contr.Idx) :
    (dot_S8000x50_S50x50_S8000x50_1_0_0_1_n_n.rhsIdx i q 1).val = (i 1).val := by
  unfold DotDims.rhsIdx
  rw [dif_neg (show ¬(1 : Fin S50x50.rank) ∈ dot_S8000x50_S50x50_S8000x50_1_0_0_1_n_n.rhsBatch by decide), dif_pos (show (1 : Fin S50x50.rank) ∈ dot_S8000x50_S50x50_S8000x50_1_0_0_1_n_n.rhsNonContracting by decide)]
  rfl

/-- A block of rows times the weights, into a zero accumulator, at row `p` and lane `q`: the sum over the fifty
    contracted lanes. -/
theorem mm_apply {φ₁ φ₂ : FTy} (x : FVec Ideal S8000x50 φ₁) (w : FVec Ideal S50x50 φ₂) (p : Fin 8000) (q : Fin 50) :
    matmul dot_S8000x50_S50x50_S8000x50_1_0_0_1_n_n none x w (constant (F := Ideal) S8000x50 .f32 0x00000000#32) (ix2 p q)
      = ∑ k : Fin 50, x (ix2 p k) * w (ix2 k q) := by
  refine (Ideal.matmul_constant_zero_apply dot_S8000x50_S50x50_S8000x50_1_0_0_1_n_n none x w (ix2 p q)).trans ?_
  rw [← Equiv.sum_comp (contrEquiv1 dot_S8000x50_S50x50_S8000x50_1_0_0_1_n_n 50 rfl rfl).symm]
  refine Finset.sum_congr rfl fun k _ => ?_
  have hk := contrEquiv1_symm_val dot_S8000x50_S50x50_S8000x50_1_0_0_1_n_n 50 rfl rfl k
  have el : dot_S8000x50_S50x50_S8000x50_1_0_0_1_n_n.lhsIdx (ix2 p q) ((contrEquiv1 dot_S8000x50_S50x50_S8000x50_1_0_0_1_n_n 50 rfl rfl).symm k) = ix2 p k := funext fun a => Fin.ext (by
    match a with
    | ⟨0, _⟩ => exact lhs_mm_0 _ _
    | ⟨1, _⟩ => exact (lhs_mm_1 _ _).trans hk)
  have er : dot_S8000x50_S50x50_S8000x50_1_0_0_1_n_n.rhsIdx (ix2 p q) ((contrEquiv1 dot_S8000x50_S50x50_S8000x50_1_0_0_1_n_n 50 rfl rfl).symm k) = ix2 k q := funext fun a => Fin.ext (by
    match a with
    | ⟨0, _⟩ => exact (rhs_mm_0 _ _).trans hk
    | ⟨1, _⟩ => exact rhs_mm_1 _ _)
  rw [el, er]

/-- The bias row laid along a block's rows, at row `p` and lane `q`: the bias at `q`. -/
theorem bias_apply (b : FVec Ideal S50 .f32) (p : Fin 8000) (q : Fin 50) :
    broadcastTo S8000x50 (shapeCast S1x50 b shapeCasts_S50_S1x50) broadcasts_S1x50_S8000x50 (ix2 p q) = b (ix1 q) := by
  refine (broadcastTo_apply _ broadcasts_S1x50_S8000x50 (ix2 p q) (ix2 (0 : Fin 1) q) (fun a => ?_)).trans ?_
  · match a with
    | ⟨0, _⟩ => show 0 = if (1 : Nat) = 1 then 0 else _; rw [if_pos rfl]
    | ⟨1, _⟩ => show q.val = if (50 : Nat) = 1 then 0 else q.val; rw [if_neg (by decide)]
  · exact shapeCast_a_1a_apply b shapeCasts_S50_S1x50 0 q

/-- What a block's entry is: the positive part of the row's linear map at that lane. -/
def entry {n : Nat} (x : (⟨2, ![n, 50]⟩ : Shape).Idx → EReal) (w : S50x50.Idx → EReal) (b : S50.Idx → EReal) (r : Fin n) (q : Fin 50) : EReal :=
  max ((∑ k : Fin 50, x (ix2 r k) * w (ix2 k q)) + b (ix1 q)) 0

/-- The first output's payload at row `p` and lane `q` of the block. -/
theorem pay2_apply (x : Vec Ideal S8000x50 .f32) (w : Vec Ideal S50x50 .f32) (b : Vec Ideal S50 .f32) (p : Fin 8000) (q : Fin 50) :
    k1_pay2 (F := Ideal) x w b (ix2 p q) = entry x w b p q := by
  unfold k1_pay2 k1_pay1 entry
  show max (matmul dot_S8000x50_S50x50_S8000x50_1_0_0_1_n_n none (truncf .bf16 x bitsLt_bf16_f32) (truncf .bf16 w bitsLt_bf16_f32) (constant (F := Ideal) S8000x50 .f32 0x00000000#32) (ix2 p q)
      + broadcastTo S8000x50 (shapeCast S1x50 b shapeCasts_S50_S1x50) broadcasts_S1x50_S8000x50 (ix2 p q)) (Ideal.ofBits .f32 0x00000000#32) = _
  rw [mm_apply, bias_apply, Ideal.ofBits_zero_f32]
  rfl

/-- The second output's payload is the same function of its operands. -/
theorem pay3_apply (x : Vec Ideal S8000x50 .f32) (w : Vec Ideal S50x50 .f32) (b : Vec Ideal S50 .f32) (p : Fin 8000) (q : Fin 50) :
    k1_pay3 (F := Ideal) x w b (ix2 p q) = entry x w b p q := pay2_apply x w b p q

/-! ## The stage at an index -/

/-- The positive part of the edge features' linear map at row `r` and lane `q` of the whole array. -/
theorem stage_apply (x : FVec Ideal Cert.ReferenceIdeal.S1600000x50 .f32) (w : FVec Ideal Cert.ReferenceIdeal.S50x50 .f32)
    (b : FVec Ideal Cert.ReferenceIdeal.S50 .f32) (r : Fin 1600000) (q : Fin 50) :
    Cert.Stage.reluE (Cert.Stage.edgeLin x w b) (ix2 r q) = entry x w b r q := by
  show Cert.ReferenceIdeal.Read.val_main_v9 (F := Ideal) x w b (ix2 r q) = _
  rw [Cert.ReferenceIdeal.Read.val_main_v9_apply, Cert.ReferenceIdeal.Read.val_main_v8_apply,
    Cert.ReferenceIdeal.Read.val_main_v5_apply, Cert.ReferenceIdeal.Read.val_main_v7_apply,
    Cert.ReferenceIdeal.Read.val_main_v6_apply, Cert.ReferenceIdeal.Read.val_main_call1_v0_apply,
    Cert.ReferenceIdeal.Read.val_main_call1_cst_apply]
  show max ((∑ k : Fin 50, x (Cert.ReferenceIdeal.Read.lidx_main_v5 (ix2 r q) k) * w (Cert.ReferenceIdeal.Read.ridx_main_v5 (ix2 r q) k))
      + b (Cert.ReferenceIdeal.Read.idx_main_v6 (Cert.ReferenceIdeal.Read.idx_main_v7 (ix2 r q)))) (Ideal.ofBits .f32 0x00000000#32) = _
  rw [Ideal.ofBits_zero_f32]
  unfold entry
  have el : ∀ k : Fin 50, Cert.ReferenceIdeal.Read.lidx_main_v5 (ix2 r q) k = ix2 r k := fun k => funext fun a => by
    match a with
    | ⟨0, _⟩ => rfl
    | ⟨1, _⟩ => rfl
  have er : ∀ k : Fin 50, Cert.ReferenceIdeal.Read.ridx_main_v5 (ix2 r q) k = ix2 k q := fun k => funext fun a => by
    match a with
    | ⟨0, _⟩ => rfl
    | ⟨1, _⟩ => rfl
  have eb : Cert.ReferenceIdeal.Read.idx_main_v6 (Cert.ReferenceIdeal.Read.idx_main_v7 (ix2 r q)) = ix1 q := funext fun a => by
    match a with
    | ⟨0, _⟩ => rfl
  simp only [el, er, eb]

/-- A block's entry is the stage's at the row the block's row sits at, once the block's row holds that row of the
    edge features. -/
theorem pay2_eq_stage (X : FVec Ideal S1600000x50 .f32) (W : FVec Ideal S50x50 .f32) (B : FVec Ideal S50 .f32)
    (x : Vec Ideal S8000x50 .f32) (p : Fin 8000) (q : Fin 50) (r : Fin 1600000)
    (hx : ∀ k : Fin 50, x (ix2 p k) = X (ix2 r k)) :
    k1_pay2 (F := Ideal) x W B (ix2 p q) = Cert.Stage.reluE (Cert.Stage.edgeLin X W B) (ix2 r q) := by
  rw [pay2_apply, stage_apply]
  unfold entry
  simp only [hx]

variable (V : (c : Dev nD) → (b : Ref sig .tc) → Buf (Elt Ideal) ((c : Thread nD τ).loc b))

/-! ## From the blocks to the arrays -/

theorem zeros2 : (![0, 0] : Fin 2 → Nat) = fun _ => 0 := funext fun a => by fin_cases a <;> rfl
theorem zeros1 : (![0] : Fin 1 → Nat) = fun _ => 0 := funext fun a => by fin_cases a <;> rfl

/-- The index maps over the grid: the edge features' window and the two outputs' move one block of rows a point, the
    weights' and biases' windows stay on their whole arrays. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The first weights' block at any point is the whole array. -/
theorem wblk1 (c : Dev nD) (t : Fin cfg1.N) : iblk1 (F := Ideal) V c 1 t = V c main_arg6 := by
  obtain ⟨-, -, e0, e1, -⟩ := idx_facts t
  funext y
  show V c main_arg6 (((cfg1.win 1).blk t).view.emb y) = V c main_arg6 y
  refine congrArg _ (funext fun a => Fin.ext ?_)
  match a with
  | ⟨0, _⟩ => show win1_1.index t (0 : Fin 2) * 50 + 1 * (y 0).val = (y 0).val; rw [e0]; omega
  | ⟨1, _⟩ => show win1_1.index t (1 : Fin 2) * 50 + 1 * (y 1).val = (y 1).val; rw [e1]; omega

/-- The first bias's block at any point is the whole vector. -/
theorem bblk1 (c : Dev nD) (t : Fin cfg1.N) : iblk1 (F := Ideal) V c 2 t = V c main_arg7 := by
  obtain ⟨-, -, -, -, e0, -⟩ := idx_facts t
  funext y
  show V c main_arg7 (((cfg1.win 2).blk t).view.emb y) = V c main_arg7 y
  refine congrArg _ (funext fun a => Fin.ext ?_)
  match a with
  | ⟨0, _⟩ => show win1_2.index t (0 : Fin 1) * 50 + 1 * (y 0).val = (y 0).val; rw [e0]; omega

/-- The second weights' block at any point is the whole array. -/
theorem wblk2 (c : Dev nD) (t : Fin cfg1.N) : iblk1 (F := Ideal) V c 3 t = V c main_arg14 := by
  obtain ⟨-, -, -, -, -, e0, e1, -⟩ := idx_facts t
  funext y
  show V c main_arg14 (((cfg1.win 3).blk t).view.emb y) = V c main_arg14 y
  refine congrArg _ (funext fun a => Fin.ext ?_)
  match a with
  | ⟨0, _⟩ => show win1_3.index t (0 : Fin 2) * 50 + 1 * (y 0).val = (y 0).val; rw [e0]; omega
  | ⟨1, _⟩ => show win1_3.index t (1 : Fin 2) * 50 + 1 * (y 1).val = (y 1).val; rw [e1]; omega

/-- The second bias's block at any point is the whole vector. -/
theorem bblk2 (c : Dev nD) (t : Fin cfg1.N) : iblk1 (F := Ideal) V c 4 t = V c main_arg15 := by
  obtain ⟨-, -, -, -, -, -, -, e0, -⟩ := idx_facts t
  funext y
  show V c main_arg15 (((cfg1.win 4).blk t).view.emb y) = V c main_arg15 y
  refine congrArg _ (funext fun a => Fin.ext ?_)
  match a with
  | ⟨0, _⟩ => show win1_4.index t (0 : Fin 1) * 50 + 1 * (y 0).val = (y 0).val; rw [e0]; omega

/-- Row `p` of the edge features' block at point `t` is row `8000 t + p` of the array. -/
theorem xblk (c : Dev nD) (t : Fin cfg1.N) (p : Fin 8000) (k : Fin 50) (r : Fin 1600000) (hr : r.val = t.val * 8000 + p.val) :
    iblk1 (F := Ideal) V c 0 t (ix2 p k) = V c main_arg1 (ix2 r k) := by
  obtain ⟨e0, e1, -⟩ := idx_facts t
  show V c main_arg1 (((cfg1.win 0).blk t).view.emb (ix2 p k)) = V c main_arg1 (ix2 r k)
  refine congrArg _ (funext fun a => Fin.ext ?_)
  match a with
  | ⟨0, _⟩ => show win1_0.index t (0 : Fin 2) * 8000 + 1 * p.val = r.val; rw [e0, hr]; omega
  | ⟨1, _⟩ => show win1_0.index t (1 : Fin 2) * 50 + 1 * k.val = k.val; rw [e1]; omega

/-- What point `t` writes back to the first output is block `t` of the stage with the first weights and bias. -/
theorem flushed5_eq (c : Dev nD) (t : Fin cfg1.N) :
    (dat1 (F := Ideal) V c).flushed 5 t = ((cfg1.win 5).blk t).view.read (Elt Ideal)
      (Cert.Stage.reluE (Cert.Stage.edgeLin (V c main_arg1) (V c main_arg6) (V c main_arg7))) := by
  show (cfg1.win 5).cut (grid1.coords t) ((dat1 V c).after 5 t) = _
  rw [after1_5]
  unfold out1_5
  rw [View.canon_unit_zero zeros2]
  simp only [View.ld_unit_zero (S := S8000x50) zeros2, View.ld_unit_zero (S := S50x50) zeros2, View.ld_unit_zero (S := S50) zeros1]
  rw [wblk1, bblk1]
  funext j
  obtain ⟨p, q, rfl⟩ : ∃ (p : Fin 8000) (q : Fin 50), j = ix2 p q := ⟨j 0, j 1, eq_ix2 j⟩
  obtain ⟨-, -, -, -, -, -, -, -, e0, e1, -⟩ := idx_facts t
  have ht : t.val < 200 := lt_of_lt_of_eq t.isLt N_1
  have hr : ((cfg1.win 5).blk t).view.emb (ix2 p q) = ix2 (⟨t.val * 8000 + p.val, by omega⟩ : Fin 1600000) q := by
    funext a; apply Fin.ext
    match a with
    | ⟨0, _⟩ => show win1_5.index t (0 : Fin 2) * 8000 + 1 * p.val = t.val * 8000 + p.val; rw [e0]; omega
    | ⟨1, _⟩ => show win1_5.index t (1 : Fin 2) * 50 + 1 * q.val = q.val; rw [e1]; omega
  show k1_pay2 (F := Ideal) (iblk1 V c 0 t) (V c main_arg6) (V c main_arg7) (ix2 p q)
    = Cert.Stage.reluE (Cert.Stage.edgeLin (V c main_arg1) (V c main_arg6) (V c main_arg7)) (((cfg1.win 5).blk t).view.emb (ix2 p q))
  rw [hr]
  exact pay2_eq_stage _ _ _ _ p q _ fun k => xblk V c t p k _ rfl

/-- What point `t` writes back to the second output is block `t` of the stage with the second weights and bias. -/
theorem flushed6_eq (c : Dev nD) (t : Fin cfg1.N) :
    (dat1 (F := Ideal) V c).flushed 6 t = ((cfg1.win 6).blk t).view.read (Elt Ideal)
      (Cert.Stage.reluE (Cert.Stage.edgeLin (V c main_arg1) (V c main_arg14) (V c main_arg15))) := by
  show (cfg1.win 6).cut (grid1.coords t) ((dat1 V c).after 6 t) = _
  rw [after1_6]
  unfold out1_6
  rw [View.canon_unit_zero zeros2]
  simp only [View.ld_unit_zero (S := S8000x50) zeros2, View.ld_unit_zero (S := S50x50) zeros2, View.ld_unit_zero (S := S50) zeros1]
  rw [wblk2, bblk2]
  funext j
  obtain ⟨p, q, rfl⟩ : ∃ (p : Fin 8000) (q : Fin 50), j = ix2 p q := ⟨j 0, j 1, eq_ix2 j⟩
  obtain ⟨-, -, -, -, -, -, -, -, -, -, e0, e1⟩ := idx_facts t
  have ht : t.val < 200 := lt_of_lt_of_eq t.isLt N_1
  have hr : ((cfg1.win 6).blk t).view.emb (ix2 p q) = ix2 (⟨t.val * 8000 + p.val, by omega⟩ : Fin 1600000) q := by
    funext a; apply Fin.ext
    match a with
    | ⟨0, _⟩ => show win1_6.index t (0 : Fin 2) * 8000 + 1 * p.val = t.val * 8000 + p.val; rw [e0]; omega
    | ⟨1, _⟩ => show win1_6.index t (1 : Fin 2) * 50 + 1 * q.val = q.val; rw [e1]; omega
  show k1_pay3 (F := Ideal) (iblk1 V c 0 t) (V c main_arg14) (V c main_arg15) (ix2 p q)
    = Cert.Stage.reluE (Cert.Stage.edgeLin (V c main_arg1) (V c main_arg14) (V c main_arg15)) (((cfg1.win 6).blk t).view.emb (ix2 p q))
  rw [hr]
  exact pay2_eq_stage _ _ _ _ p q _ fun k => xblk V c t p k _ rfl

/-- An index of the first output is in point `t`'s block iff each coordinate is in the block's range on its axis. -/
theorem mem_blk5 (t : Fin cfg1.N) (i : S1600000x50.Idx) :
    i ∈ ((cfg1.win 5).blk t).view.set ↔ ∀ a : Fin 2, win1_5.index t a * S8000x50.size a ≤ (i a).val ∧ (i a).val < win1_5.index t a * S8000x50.size a + S8000x50.size a := by
  show i ∈ ((View.whole main_v1_0).slice (win1_5.rect t)).set ↔ _
  rw [View.set_slice_whole, Rect.mem_set_unit]
  exact Iff.rfl

/-- The same for the second output. -/
theorem mem_blk6 (t : Fin cfg1.N) (i : S1600000x50.Idx) :
    i ∈ ((cfg1.win 6).blk t).view.set ↔ ∀ a : Fin 2, win1_6.index t a * S8000x50.size a ≤ (i a).val ∧ (i a).val < win1_6.index t a * S8000x50.size a + S8000x50.size a := by
  show i ∈ ((View.whole main_v1_1).slice (win1_6.rect t)).set ↔ _
  rw [View.set_slice_whole, Rect.mem_set_unit]
  exact Iff.rfl

/-- The point whose block holds row `r`: `r / 8000`. -/
def pointOf (i : S1600000x50.Idx) : Fin cfg1.N :=
  ⟨(i 0).val / 8000, by
    have hi : (i 0).val < 1600000 := (i 0).isLt
    rw [show cfg1.N = 200 from N_1]; omega⟩

theorem pointOf_val (i : S1600000x50.Idx) : (pointOf i).val = (i 0).val / 8000 := rfl

/-- Every index of the first output is in the block of the point `row / 8000`, which writes back. -/
theorem cover5 (i : S1600000x50.Idx) :
    ∃ t : Fin cfg1.N, (cfg1.win 5).flush t = true ∧ i ∈ ((cfg1.win 5).blk t).view.set := by
  have hi0 : (i 0).val < 1600000 := (i 0).isLt
  have hi1 : (i 1).val < 50 := (i 1).isLt
  obtain ⟨-, -, -, -, -, -, -, -, e0, e1, -⟩ := idx_facts (pointOf i)
  have hv := pointOf_val i
  refine ⟨pointOf i, flush1_5 _, ?_⟩
  rw [mem_blk5]
  intro a
  match a with
  | ⟨0, _⟩ => show win1_5.index (pointOf i) (0 : Fin 2) * 8000 ≤ (i 0).val ∧ (i 0).val < win1_5.index (pointOf i) (0 : Fin 2) * 8000 + 8000; rw [e0, hv]; omega
  | ⟨1, _⟩ => show win1_5.index (pointOf i) (1 : Fin 2) * 50 ≤ (i 1).val ∧ (i 1).val < win1_5.index (pointOf i) (1 : Fin 2) * 50 + 50; rw [e1]; omega

/-- The same for the second output. -/
theorem cover6 (i : S1600000x50.Idx) :
    ∃ t : Fin cfg1.N, (cfg1.win 6).flush t = true ∧ i ∈ ((cfg1.win 6).blk t).view.set := by
  have hi0 : (i 0).val < 1600000 := (i 0).isLt
  have hi1 : (i 1).val < 50 := (i 1).isLt
  obtain ⟨-, -, -, -, -, -, -, -, -, -, e0, e1⟩ := idx_facts (pointOf i)
  have hv := pointOf_val i
  refine ⟨pointOf i, flush1_6 _, ?_⟩
  rw [mem_blk6]
  intro a
  match a with
  | ⟨0, _⟩ => show win1_6.index (pointOf i) (0 : Fin 2) * 8000 ≤ (i 0).val ∧ (i 0).val < win1_6.index (pointOf i) (0 : Fin 2) * 8000 + 8000; rw [e0, hv]; omega
  | ⟨1, _⟩ => show win1_6.index (pointOf i) (1 : Fin 2) * 50 ≤ (i 1).val ∧ (i 1).val < win1_6.index (pointOf i) (1 : Fin 2) * 50 + 50; rw [e1]; omega

theorem out5 (c : Dev nD) :
    (dat1 (F := Ideal) V c).arrAt 5 cfg1.N
      = Cert.Stage.reluE (Cert.Stage.edgeLin (V c main_arg1) (V c main_arg6) (V c main_arg7)) :=
  (dat1 V c).arrAt_eq_of_cover 5 _ (fun t _ => flushed5_eq V c t) cover5

theorem out6 (c : Dev nD) :
    (dat1 (F := Ideal) V c).arrAt 6 cfg1.N
      = Cert.Stage.reluE (Cert.Stage.edgeLin (V c main_arg1) (V c main_arg14) (V c main_arg15)) :=
  (dat1 V c).arrAt_eq_of_cover 6 _ (fun t _ => flushed6_eq V c t) cover6

end Cert.KernelIdeal.R1

end
-- ==== Proof.R2.lean ====
/-
  Region 2 (the edge update) at any entry contents: its output array is the edge update stage of the positive parts
  of its first two input arrays and of its third input array, with its weights and bias.
  Both sides are read at a row and a column as one expression — the positive part of the joined row (three runs of
  fifty lanes) times the weights' column, plus the bias —; each point's block is that expression of the rows it holds,
  and the blocks tile the array.
-/
import proofs.«419642_j1082331758607_3_alg».proof.Proof.Gen.KernelIdeal.Frame
import proofs.«419642_j1082331758607_3_alg».proof.Proof.Gen.ReferenceIdeal
import proofs.«419642_j1082331758607_3_alg».proof.Proof.Stages
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.R2

open Idealize.ShloMosaic Idealize.ShloMosaic.TcCoe Idealize.SL.Sem
open Cert.KernelIdeal Cert.KernelIdeal.Gen
open Idealize.ShloMosaic.ValueIdx

variable (V : (c : Dev nD) → (b : Ref sig .tc) → Buf (Elt Ideal) ((c : Thread nD τ).loc b))

/-- Three rows of fifty entries laid end to end along one row of a hundred and fifty. -/
def cat3 (a b c : Fin 50 → EReal) (k : Fin 150) : EReal :=
  if h : k.val < 50 then a ⟨k.val, h⟩
  else if h2 : k.val < 100 then b ⟨k.val - 50, by omega⟩
  else c ⟨k.val - 100, by omega⟩

/-! ## The block product's index bookkeeping -/

theorem lhs_blk_0 (i : S4000x50.Idx) (q : dot_S4000x150_S150x50_S4000x50_1_0_0_1_n_n.contr.Idx) :
    (dot_S4000x150_S150x50_S4000x50_1_0_0_1_n_n.lhsIdx i q 0).val = (i 0).val := by
  unfold DotDims.lhsIdx
  rw [dif_neg (show ¬(0 : Fin S4000x150.rank) ∈ dot_S4000x150_S150x50_S4000x50_1_0_0_1_n_n.lhsBatch by decide), dif_pos (show (0 : Fin S4000x150.rank) ∈ dot_S4000x150_S150x50_S4000x50_1_0_0_1_n_n.lhsNonContracting by decide)]
  rfl
theorem lhs_blk_1 (i : S4000x50.Idx) (q : dot_S4000x150_S150x50_S4000x50_1_0_0_1_n_n.contr.Idx) :
    (dot_S4000x150_S150x50_S4000x50_1_0_0_1_n_n.lhsIdx i q 1).val = (q ⟨0, by decide⟩).val :=
  dot_S4000x150_S150x50_S4000x50_1_0_0_1_n_n.lhsIdx_val_of_single rfl i q
theorem rhs_blk_0 (i : S4000x50.Idx) (q : dot_S4000x150_S150x50_S4000x50_1_0_0_1_n_n.contr.Idx) :
    (dot_S4000x150_S150x50_S4000x50_1_0_0_1_n_n.rhsIdx i q 0).val = (q ⟨0, by decide⟩).val :=
  dot_S4000x150_S150x50_S4000x50_1_0_0_1_n_n.rhsIdx_val_of_single rfl i q
theorem rhs_blk_1 (i : S4000x50.Idx) (q : dot_S4000x150_S150x50_S4000x50_1_0_0_1_n_n.contr.Idx) :
    (dot_S4000x150_S150x50_S4000x50_1_0_0_1_n_n.rhsIdx i q 1).val = (i 1).val := by
  unfold DotDims.rhsIdx
  rw [dif_neg (show ¬(1 : Fin S150x50.rank) ∈ dot_S4000x150_S150x50_S4000x50_1_0_0_1_n_n.rhsBatch by decide), dif_pos (show (1 : Fin S150x50.rank) ∈ dot_S4000x150_S150x50_S4000x50_1_0_0_1_n_n.rhsNonContracting by decide)]
  rfl

/-- The block product into a zero accumulator, at a row and a column: the sum over the hundred and fifty lanes. -/
theorem matmul_blk_apply (a : FVec Ideal S4000x150 .bf16) (b : FVec Ideal S150x50 .bf16) (p : Fin 4000) (q : Fin 50) :
    matmul dot_S4000x150_S150x50_S4000x50_1_0_0_1_n_n none a b (constant (F := Ideal) S4000x50 .f32 0x00000000#32) (ix2 p q)
      = ∑ k : Fin 150, a (ix2 p k) * b (ix2 k q) := by
  refine (Ideal.matmul_constant_zero_apply dot_S4000x150_S150x50_S4000x50_1_0_0_1_n_n none a b (ix2 p q)).trans ?_
  rw [← Equiv.sum_comp (contrEquiv1 dot_S4000x150_S150x50_S4000x50_1_0_0_1_n_n 150 rfl rfl).symm]
  refine Finset.sum_congr rfl fun k _ => ?_
  have hk := contrEquiv1_symm_val dot_S4000x150_S150x50_S4000x50_1_0_0_1_n_n 150 rfl rfl k
  have el : dot_S4000x150_S150x50_S4000x50_1_0_0_1_n_n.lhsIdx (ix2 p q) ((contrEquiv1 dot_S4000x150_S150x50_S4000x50_1_0_0_1_n_n 150 rfl rfl).symm k) = ix2 p k := funext fun a => Fin.ext (by
    match a with
    | ⟨0, _⟩ => exact lhs_blk_0 _ _
    | ⟨1, _⟩ => exact (lhs_blk_1 _ _).trans hk)
  have er : dot_S4000x150_S150x50_S4000x50_1_0_0_1_n_n.rhsIdx (ix2 p q) ((contrEquiv1 dot_S4000x150_S150x50_S4000x50_1_0_0_1_n_n 150 rfl rfl).symm k) = ix2 k q := funext fun a => Fin.ext (by
    match a with
    | ⟨0, _⟩ => exact (rhs_blk_0 _ _).trans hk
    | ⟨1, _⟩ => exact rhs_blk_1 _ _)
  rw [el, er]

/-- Three arrays of fifty lanes joined along the lanes, read at a row and a lane. -/
theorem concat3_apply {n : Nat} (A B C : (⟨2, ![n, 50]⟩ : Shape).Idx → EReal)
    (h : Shape.Concatenates [(⟨2, ![n, 50]⟩ : Shape), ⟨2, ![n, 50]⟩, ⟨2, ![n, 50]⟩] ⟨2, ![n, 150]⟩ 1) (p : Fin n) (k : Fin 150) :
    concatenate (⟨2, ![n, 150]⟩ : Shape) 1 [⟨⟨2, ![n, 50]⟩, A⟩, ⟨⟨2, ![n, 50]⟩, B⟩, ⟨⟨2, ![n, 50]⟩, C⟩] h (ix2 p k)
      = cat3 (fun j => A (ix2 p j)) (fun j => B (ix2 p j)) (fun j => C (ix2 p j)) k := by
  unfold cat3
  by_cases h1 : k.val < 50
  · rw [dif_pos h1]
    refine concatenate_apply_piece 1 [⟨⟨2, ![n, 50]⟩, A⟩, ⟨⟨2, ![n, 50]⟩, B⟩, ⟨⟨2, ![n, 50]⟩, C⟩] h (ix2 p k) 0 (show 0 < 3 by omega) ⟨2, ![n, 50]⟩ A rfl rfl 0 rfl (ix2 p ⟨k.val, h1⟩) (fun b hb => ?_) ?_
    · match b with
      | ⟨0, _⟩ => rfl
      | ⟨1, _⟩ => exact absurd rfl hb
    · show 0 + k.val = k.val; omega
  · rw [dif_neg h1]
    by_cases h2 : k.val < 100
    · rw [dif_pos h2]
      refine concatenate_apply_piece 1 [⟨⟨2, ![n, 50]⟩, A⟩, ⟨⟨2, ![n, 50]⟩, B⟩, ⟨⟨2, ![n, 50]⟩, C⟩] h (ix2 p k) 1 (show 1 < 3 by omega) ⟨2, ![n, 50]⟩ B rfl rfl 50 rfl (ix2 p ⟨k.val - 50, by omega⟩) (fun b hb => ?_) ?_
      · match b with
        | ⟨0, _⟩ => rfl
        | ⟨1, _⟩ => exact absurd rfl hb
      · show 50 + (k.val - 50) = k.val; omega
    · rw [dif_neg h2]
      have hk : k.val < 150 := k.isLt
      refine concatenate_apply_piece 1 [⟨⟨2, ![n, 50]⟩, A⟩, ⟨⟨2, ![n, 50]⟩, B⟩, ⟨⟨2, ![n, 50]⟩, C⟩] h (ix2 p k) 2 (show 2 < 3 by omega) ⟨2, ![n, 50]⟩ C rfl rfl 100 rfl (ix2 p ⟨k.val - 100, by omega⟩) (fun b hb => ?_) ?_
      · match b with
        | ⟨0, _⟩ => rfl
        | ⟨1, _⟩ => exact absurd rfl hb
      · show 100 + (k.val - 100) = k.val; omega

/-- The zero word is the real zero. -/
theorem zero_word : (FloatOps.ofBits (F := Ideal) .f32 0x00000000#32 : EReal) = 0 := Ideal.ofBits_zero_f32

/-- The block's bias row, read at a row and a column. -/
theorem bias_blk_apply (x4 : Vec Ideal S50 .f32) (p : Fin 4000) (q : Fin 50) :
    broadcastTo S4000x50 (shapeCast S1x50 x4 shapeCasts_S50_S1x50) broadcasts_S1x50_S4000x50 (ix2 p q) = x4 (ix1 q) :=
  (broadcastTo_1b_ab_apply _ _ p q).trans (shapeCast_a_1a_apply x4 _ 0 q)

/-- THE BLOCK'S VALUE at a row and a column: the positive part of the joined row times the weights' column, plus the bias. -/
theorem pay_apply (x0 x1 x2 : Vec Ideal S4000x50 .f32) (x3 : Vec Ideal S150x50 .f32) (x4 : Vec Ideal S50 .f32) (p : Fin 4000) (q : Fin 50) :
    k2_pay1 (F := Ideal) x0 x1 x2 x3 x4 (ix2 p q)
      = max ((∑ k : Fin 150, cat3 (fun j => max (x0 (ix2 p j)) 0) (fun j => max (x1 (ix2 p j)) 0) (fun j => x2 (ix2 p j)) k * x3 (ix2 k q)) + x4 (ix1 q)) 0 := by
  unfold k2_pay1
  rw [maximumf_apply, broadcast_apply, addf_apply, matmul_blk_apply, bias_blk_apply, zero_word]
  refine congrArg (fun z => max (z + x4 (ix1 q)) 0) (Finset.sum_congr rfl fun k _ => ?_)
  rw [truncf_apply, truncf_apply, concat3_apply]
  simp only [shapeCast_self, maximumf_apply, broadcast_apply, zero_word]

/-! ## The stage at a row and a column -/

theorem lhs_edge_0 (i : Cert.ReferenceIdeal.S1600000x50.Idx) (q : Cert.ReferenceIdeal.dot_S1600000x150_S150x50_S1600000x50_1_0_0_1_n_n.contr.Idx) :
    (Cert.ReferenceIdeal.dot_S1600000x150_S150x50_S1600000x50_1_0_0_1_n_n.lhsIdx i q 0).val = (i 0).val := by
  unfold DotDims.lhsIdx
  rw [dif_neg (show ¬(0 : Fin Cert.ReferenceIdeal.S1600000x150.rank) ∈ Cert.ReferenceIdeal.dot_S1600000x150_S150x50_S1600000x50_1_0_0_1_n_n.lhsBatch by decide), dif_pos (show (0 : Fin Cert.ReferenceIdeal.S1600000x150.rank) ∈ Cert.ReferenceIdeal.dot_S1600000x150_S150x50_S1600000x50_1_0_0_1_n_n.lhsNonContracting by decide)]
  rfl
theorem lhs_edge_1 (i : Cert.ReferenceIdeal.S1600000x50.Idx) (q : Cert.ReferenceIdeal.dot_S1600000x150_S150x50_S1600000x50_1_0_0_1_n_n.contr.Idx) :
    (Cert.ReferenceIdeal.dot_S1600000x150_S150x50_S1600000x50_1_0_0_1_n_n.lhsIdx i q 1).val = (q ⟨0, by decide⟩).val :=
  Cert.ReferenceIdeal.dot_S1600000x150_S150x50_S1600000x50_1_0_0_1_n_n.lhsIdx_val_of_single rfl i q
theorem rhs_edge_0 (i : Cert.ReferenceIdeal.S1600000x50.Idx) (q : Cert.ReferenceIdeal.dot_S1600000x150_S150x50_S1600000x50_1_0_0_1_n_n.contr.Idx) :
    (Cert.ReferenceIdeal.dot_S1600000x150_S150x50_S1600000x50_1_0_0_1_n_n.rhsIdx i q 0).val = (q ⟨0, by decide⟩).val :=
  Cert.ReferenceIdeal.dot_S1600000x150_S150x50_S1600000x50_1_0_0_1_n_n.rhsIdx_val_of_single rfl i q
theorem rhs_edge_1 (i : Cert.ReferenceIdeal.S1600000x50.Idx) (q : Cert.ReferenceIdeal.dot_S1600000x150_S150x50_S1600000x50_1_0_0_1_n_n.contr.Idx) :
    (Cert.ReferenceIdeal.dot_S1600000x150_S150x50_S1600000x50_1_0_0_1_n_n.rhsIdx i q 1).val = (i 1).val := by
  unfold DotDims.rhsIdx
  rw [dif_neg (show ¬(1 : Fin Cert.ReferenceIdeal.S150x50.rank) ∈ Cert.ReferenceIdeal.dot_S1600000x150_S150x50_S1600000x50_1_0_0_1_n_n.rhsBatch by decide), dif_pos (show (1 : Fin Cert.ReferenceIdeal.S150x50.rank) ∈ Cert.ReferenceIdeal.dot_S1600000x150_S150x50_S1600000x50_1_0_0_1_n_n.rhsNonContracting by decide)]
  rfl

/-- The whole-array product at a row and a column: the sum over the hundred and fifty lanes. -/
theorem dot_edge_apply (a : FVec Ideal Cert.ReferenceIdeal.S1600000x150 .f32) (w : FVec Ideal Cert.ReferenceIdeal.S150x50 .f32) (r : Fin 1600000) (q : Fin 50) :
    Host.dotGeneral (F := Ideal) Cert.ReferenceIdeal.dot_S1600000x150_S150x50_S1600000x50_1_0_0_1_n_n none a w (ix2 r q)
      = ∑ k : Fin 150, a (ix2 r k) * w (ix2 k q) := by
  simp only [Host.dotGeneral]
  rw [Ideal.dotGeneral_apply, ← Equiv.sum_comp (contrEquiv1 Cert.ReferenceIdeal.dot_S1600000x150_S150x50_S1600000x50_1_0_0_1_n_n 150 rfl rfl).symm]
  refine Finset.sum_congr rfl fun k _ => ?_
  have hk := contrEquiv1_symm_val Cert.ReferenceIdeal.dot_S1600000x150_S150x50_S1600000x50_1_0_0_1_n_n 150 rfl rfl k
  have el : Cert.ReferenceIdeal.dot_S1600000x150_S150x50_S1600000x50_1_0_0_1_n_n.lhsIdx (ix2 r q) ((contrEquiv1 Cert.ReferenceIdeal.dot_S1600000x150_S150x50_S1600000x50_1_0_0_1_n_n 150 rfl rfl).symm k) = ix2 r k := funext fun a => Fin.ext (by
    match a with
    | ⟨0, _⟩ => exact lhs_edge_0 _ _
    | ⟨1, _⟩ => exact (lhs_edge_1 _ _).trans hk)
  have er : Cert.ReferenceIdeal.dot_S1600000x150_S150x50_S1600000x50_1_0_0_1_n_n.rhsIdx (ix2 r q) ((contrEquiv1 Cert.ReferenceIdeal.dot_S1600000x150_S150x50_S1600000x50_1_0_0_1_n_n 150 rfl rfl).symm k) = ix2 k q := funext fun a => Fin.ext (by
    match a with
    | ⟨0, _⟩ => exact (rhs_edge_0 _ _).trans hk
    | ⟨1, _⟩ => exact rhs_edge_1 _ _)
  rw [el, er]

/-- The zero array reads zero everywhere. -/
theorem zerosE_apply (i : Cert.ReferenceIdeal.S1600000x50.Idx) : Cert.Stage.zerosE i = 0 := by
  unfold Cert.Stage.zerosE broadcastInDim
  exact Ideal.ofBits_zero_f32

/-- The positive part at an index. -/
theorem reluE_apply (x : Cert.Stage.EH) (i : Cert.ReferenceIdeal.S1600000x50.Idx) : Cert.Stage.reluE x i = max (x i) 0 := by
  unfold Cert.Stage.reluE
  rw [maximumf_apply, zerosE_apply]

/-- The bias laid along every row, read at a row and a column. -/
theorem biasE_apply (b : FVec Ideal Cert.ReferenceIdeal.S50 .f32) (r : Fin 1600000) (q : Fin 50) :
    Cert.Stage.biasE b (ix2 r q) = b (ix1 q) := by
  unfold Cert.Stage.biasE
  refine (broadcastInDim_apply _ _ _ (ix2 r q) (ix2 (0 : Fin 1) q) (fun a => ?_)).trans ?_
  · match a with
    | ⟨0, _⟩ => show 0 = if (1 : Nat) = 1 then 0 else r.val; rw [if_pos rfl]
    | ⟨1, _⟩ => show q.val = if (50 : Nat) = 1 then 0 else q.val; rw [if_neg (by decide)]
  · exact broadcastInDim_apply _ _ b (ix2 (0 : Fin 1) q) (ix1 q) (fun a => match a with
      | ⟨0, _⟩ => by show q.val = if (50 : Nat) = 1 then 0 else q.val; rw [if_neg (by decide)])

/-- THE STAGE'S VALUE at a row and a column: the same expression of the whole arrays' row. -/
theorem edgeUpd_apply (f s t : Cert.Stage.EH) (w : FVec Ideal Cert.ReferenceIdeal.S150x50 .f32) (b : FVec Ideal Cert.ReferenceIdeal.S50 .f32)
    (r : Fin 1600000) (q : Fin 50) :
    Cert.Stage.edgeUpd (Cert.Stage.reluE f) (Cert.Stage.reluE s) t w b (ix2 r q)
      = max ((∑ k : Fin 150, cat3 (fun j => max (f (ix2 r j)) 0) (fun j => max (s (ix2 r j)) 0) (fun j => t (ix2 r j)) k * w (ix2 k q)) + b (ix1 q)) 0 := by
  unfold Cert.Stage.edgeUpd
  rw [reluE_apply, addf_apply, dot_edge_apply, biasE_apply]
  refine congrArg (fun z => max (z + b (ix1 q)) 0) (Finset.sum_congr rfl fun k _ => ?_)
  rw [concat3_apply]
  simp only [reluE_apply]

/-! ## From the blocks to the array -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the three edge windows and the output move one block of rows per
    point; the weights and the bias stay at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- The first edge window's block at point `t` is rows `4000 t …` of its array. -/
theorem iblk_0 (c : Dev nD) (t : Fin cfg2.N) (p : Fin 4000) (q : Fin 50) (h : t.val * 4000 + p.val < 1600000) :
    iblk2 V c 0 t (ix2 p q) = V c main_v8 (ix2 ⟨t.val * 4000 + p.val, h⟩ q) := by
  obtain ⟨e0, e1, -⟩ := idx_facts t
  show V c main_v8 (((cfg2.win 0).blk t).view.emb (ix2 p q)) = _
  refine congrArg (V c main_v8) (funext fun a => Fin.ext ?_)
  match a with
  | ⟨0, _⟩ => show win2_0.index t (0 : Fin 2) * 4000 + 1 * p.val = t.val * 4000 + p.val; rw [e0]; omega
  | ⟨1, _⟩ => show win2_0.index t (1 : Fin 2) * 50 + 1 * q.val = q.val; rw [e1]; omega

/-- The second edge window's block. -/
theorem iblk_1 (c : Dev nD) (t : Fin cfg2.N) (p : Fin 4000) (q : Fin 50) (h : t.val * 4000 + p.val < 1600000) :
    iblk2 V c 1 t (ix2 p q) = V c main_v9 (ix2 ⟨t.val * 4000 + p.val, h⟩ q) := by
  obtain ⟨-, -, e0, e1, -⟩ := idx_facts t
  show V c main_v9 (((cfg2.win 1).blk t).view.emb (ix2 p q)) = _
  refine congrArg (V c main_v9) (funext fun a => Fin.ext ?_)
  match a with
  | ⟨0, _⟩ => show win2_1.index t (0 : Fin 2) * 4000 + 1 * p.val = t.val * 4000 + p.val; rw [e0]; omega
  | ⟨1, _⟩ => show win2_1.index t (1 : Fin 2) * 50 + 1 * q.val = q.val; rw [e1]; omega

/-- The third edge window's block. -/
theorem iblk_2 (c : Dev nD) (t : Fin cfg2.N) (p : Fin 4000) (q : Fin 50) (h : t.val * 4000 + p.val < 1600000) :
    iblk2 V c 2 t (ix2 p q) = V c main_v1_1 (ix2 ⟨t.val * 4000 + p.val, h⟩ q) := by
  obtain ⟨-, -, -, -, e0, e1, -⟩ := idx_facts t
  show V c main_v1_1 (((cfg2.win 2).blk t).view.emb (ix2 p q)) = _
  refine congrArg (V c main_v1_1) (funext fun a => Fin.ext ?_)
  match a with
  | ⟨0, _⟩ => show win2_2.index t (0 : Fin 2) * 4000 + 1 * p.val = t.val * 4000 + p.val; rw [e0]; omega
  | ⟨1, _⟩ => show win2_2.index t (1 : Fin 2) * 50 + 1 * q.val = q.val; rw [e1]; omega

/-- The weights' window holds the whole weight array at every point. -/
theorem iblk_3 (c : Dev nD) (t : Fin cfg2.N) (k : Fin 150) (q : Fin 50) :
    iblk2 V c 3 t (ix2 k q) = V c main_arg16 (ix2 k q) := by
  obtain ⟨-, -, -, -, -, -, e0, e1, -⟩ := idx_facts t
  show V c main_arg16 (((cfg2.win 3).blk t).view.emb (ix2 k q)) = _
  refine congrArg (V c main_arg16) (funext fun a => Fin.ext ?_)
  match a with
  | ⟨0, _⟩ => show win2_3.index t (0 : Fin 2) * 150 + 1 * k.val = k.val; rw [e0]; omega
  | ⟨1, _⟩ => show win2_3.index t (1 : Fin 2) * 50 + 1 * q.val = q.val; rw [e1]; omega

/-- The bias window holds the whole bias vector at every point. -/
theorem iblk_4 (c : Dev nD) (t : Fin cfg2.N) (q : Fin 50) :
    iblk2 V c 4 t (ix1 q) = V c main_arg17 (ix1 q) := by
  obtain ⟨-, -, -, -, -, -, -, -, e0, -⟩ := idx_facts t
  show V c main_arg17 (((cfg2.win 4).blk t).view.emb (ix1 q)) = _
  refine congrArg (V c main_arg17) (funext fun a => Fin.ext ?_)
  match a with
  | ⟨0, _⟩ => show win2_4.index t (0 : Fin 1) * 50 + 1 * q.val = q.val; rw [e0]; omega

/-- The output block's element `(p, q)` at point `t` sits at row `4000 t + p`, column `q` of the array. -/
theorem emb_5 (t : Fin cfg2.N) (p : Fin 4000) (q : Fin 50) (h : t.val * 4000 + p.val < 1600000) :
    ((cfg2.win 5).blk t).view.emb (ix2 p q) = ix2 ⟨t.val * 4000 + p.val, h⟩ q := by
  obtain ⟨-, -, -, -, -, -, -, -, -, e0, e1⟩ := idx_facts t
  refine funext fun a => Fin.ext ?_
  match a with
  | ⟨0, _⟩ => show win2_5.index t (0 : Fin 2) * 4000 + 1 * p.val = t.val * 4000 + p.val; rw [e0]; omega
  | ⟨1, _⟩ => show win2_5.index t (1 : Fin 2) * 50 + 1 * q.val = q.val; rw [e1]; omega

/-- WHAT POINT `t` WRITES BACK is block `t` of the edge update stage of the region's input arrays. -/
theorem flushed_eq (c : Dev nD) (t : Fin cfg2.N) :
    (dat2 (F := Ideal) V c).flushed 5 t = ((cfg2.win 5).blk t).view.read (Elt Ideal)
      (Cert.Stage.edgeUpd (Cert.Stage.reluE (V c main_v8)) (Cert.Stage.reluE (V c main_v9)) (V c main_v1_1)
          (V c main_arg16) (V c main_arg17)) := by
  show (cfg2.win 5).cut (grid2.coords t) ((dat2 V c).after 5 t) = _
  rw [after2_5]
  unfold out2_5
  rw [View.canon_unit_zero hz2]
  simp only [View.ld_unit_zero (S := S4000x50) hz2, View.ld_unit_zero (S := S150x50) hz2, View.ld_unit_zero (S := S50) hz1]
  funext j
  obtain ⟨p, q, rfl⟩ : ∃ (p : Fin 4000) (q : Fin 50), j = ix2 p q := ⟨j 0, j 1, eq_ix2 j⟩
  have hN : cfg2.N = 400 := N_2
  have ht : t.val < 400 := hN ▸ t.isLt
  have h : t.val * 4000 + p.val < 1600000 := by have := p.isLt; omega
  show k2_pay1 (F := Ideal) (iblk2 V c 0 t) (iblk2 V c 1 t) (iblk2 V c 2 t) (iblk2 V c 3 t) (iblk2 V c 4 t) (ix2 p q)
    = Cert.Stage.edgeUpd (Cert.Stage.reluE (V c main_v8)) (Cert.Stage.reluE (V c main_v9)) (V c main_v1_1)
          (V c main_arg16) (V c main_arg17) (((cfg2.win 5).blk t).view.emb (ix2 p q))
  rw [emb_5 t p q h]
  refine (pay_apply _ _ _ _ _ p q).trans ?_
  refine Eq.trans ?_ (edgeUpd_apply _ _ _ _ _ ⟨t.val * 4000 + p.val, h⟩ q).symm
  simp only [iblk_0 V c t _ _ h, iblk_1 V c t _ _ h, iblk_2 V c t _ _ h, iblk_3 V c t, iblk_4 V c t]

/-- An index of the array is in point `t`'s block iff each coordinate is in the block's range on its axis. -/
theorem mem_blk (t : Fin cfg2.N) (i : S1600000x50.Idx) :
    i ∈ ((cfg2.win 5).blk t).view.set ↔ ∀ a : Fin 2, win2_5.index t a * S4000x50.size a ≤ (i a).val ∧ (i a).val < win2_5.index t a * S4000x50.size a + S4000x50.size a := by
  show i ∈ ((View.whole main_v13).slice (win2_5.rect t)).set ↔ _
  rw [View.set_slice_whole, Rect.mem_set_unit]
  exact Iff.rfl

/-- Every index of the output array is in the block of the point its row falls in. -/
theorem covered (i : S1600000x50.Idx) :
    ∃ t : Fin cfg2.N, (cfg2.win 5).flush t = true ∧ i ∈ ((cfg2.win 5).blk t).view.set := by
  have hi0 : (i 0).val < 1600000 := (i 0).isLt
  have hi1 : (i 1).val < 50 := (i 1).isLt
  have hN : cfg2.N = 400 := N_2
  have ht : (i 0).val / 4000 < cfg2.N := by rw [hN]; omega
  obtain ⟨-, -, -, -, -, -, -, -, -, e0, e1⟩ := idx_facts ⟨(i 0).val / 4000, ht⟩
  refine ⟨⟨(i 0).val / 4000, ht⟩, flush2_5 _, ?_⟩
  rw [mem_blk]
  intro a
  match a with
  | ⟨0, _⟩ =>
    show win2_5.index ⟨(i 0).val / 4000, ht⟩ (0 : Fin 2) * 4000 ≤ (i 0).val ∧ (i 0).val < win2_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win2_5.index ⟨(i 0).val / 4000, ht⟩ (1 : Fin 2) * 50 ≤ (i 1).val ∧ (i 1).val < win2_5.index ⟨(i 0).val / 4000, ht⟩ (1 : Fin 2) * 50 + 50
    rw [e1]; omega

theorem out5 (c : Dev nD) :
    (dat2 (F := Ideal) V c).arrAt 5 cfg2.N
      = Cert.Stage.edgeUpd (Cert.Stage.reluE (V c main_v8)) (Cert.Stage.reluE (V c main_v9)) (V c main_v1_1)
          (V c main_arg16) (V c main_arg17) :=
  (dat2 (F := Ideal) V c).arrAt_eq_of_cover 5 _ (fun t _ => flushed_eq V c t) covered

end Cert.KernelIdeal.R2

end
-- ==== Proof.R3.lean ====
/-
  Region 3 (the node update) at any entry contents: its output array is the node update stage of its two input
  arrays, with its weights and bias.
-/
import proofs.«419642_j1082331758607_3_alg».proof.Proof.Gen.KernelIdeal.Frame
import proofs.«419642_j1082331758607_3_alg».proof.Proof.Gen.ReferenceIdeal
import proofs.«419642_j1082331758607_3_alg».proof.Proof.Stages
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.R3

open Idealize.ShloMosaic Idealize.ShloMosaic.TcCoe Idealize.SL.Sem
open Cert.KernelIdeal Cert.KernelIdeal.Gen
open Idealize.ShloMosaic.ValueIdx

variable (V : (c : Dev nD) → (b : Ref sig .tc) → Buf (Elt Ideal) ((c : Thread nD τ).loc b))

/-! ## Two arrays laid side by side along the lanes -/

/-- Row `p` of `[a | b]` at lane `k`: `a` on the first fifty lanes, `b` on the other fifty. -/
def cat {n : Nat} (a b : (⟨2, ![n, 50]⟩ : Shape).Idx → EReal) (p : Fin n) (k : Fin 100) : EReal :=
  if h : k.val < 50 then a (ix2 p ⟨k.val, h⟩) else b (ix2 p ⟨k.val - 50, by omega⟩)

/-- The two-piece concatenation along the lanes, read at an index. -/
theorem concat_lanes_apply {n : Nat} (a b : (⟨2, ![n, 50]⟩ : Shape).Idx → EReal)
    (h : Shape.Concatenates [(⟨2, ![n, 50]⟩ : Shape), ⟨2, ![n, 50]⟩] ⟨2, ![n, 100]⟩ 1) (p : Fin n) (k : Fin 100) :
    concatenate ⟨2, ![n, 100]⟩ 1 [⟨⟨2, ![n, 50]⟩, a⟩, ⟨⟨2, ![n, 50]⟩, b⟩] h (ix2 p k) = cat a b p k := by
  unfold cat
  split
  · rename_i hk
    refine concatenate_pair_apply_left 1 a b h (ix2 p k) rfl (ix2 p ⟨k.val, hk⟩) fun bx => ?_
    match bx with
    | ⟨0, _⟩ => rfl
    | ⟨1, _⟩ => rfl
  · rename_i hk
    refine concatenate_pair_apply_right 1 a b h (ix2 p k) rfl rfl (ix2 p ⟨k.val - 50, by omega⟩) (fun bx hb => ?_) ?_
    · match bx with
      | ⟨0, _⟩ => rfl
      | ⟨1, _⟩ => exact absurd rfl hb
    · show (k.val - 50) + 50 = k.val
      omega

/-! ## The block product at an index -/

theorem lhs_blk_0 (i : S5000x50.Idx) (q : dot_S5000x100_S100x50_S5000x50_1_0_0_1_n_n.contr.Idx) :
    (dot_S5000x100_S100x50_S5000x50_1_0_0_1_n_n.lhsIdx i q 0).val = (i 0).val := by
  unfold DotDims.lhsIdx
  rw [dif_neg (show ¬(0 : Fin S5000x100.rank) ∈ dot_S5000x100_S100x50_S5000x50_1_0_0_1_n_n.lhsBatch by decide), dif_pos (show (0 : Fin S5000x100.rank) ∈ dot_S5000x100_S100x50_S5000x50_1_0_0_1_n_n.lhsNonContracting by decide)]
  rfl
theorem lhs_blk_1 (i : S5000x50.Idx) (q : dot_S5000x100_S100x50_S5000x50_1_0_0_1_n_n.contr.Idx) :
    (dot_S5000x100_S100x50_S5000x50_1_0_0_1_n_n.lhsIdx i q 1).val = (q ⟨0, by decide⟩).val :=
  dot_S5000x100_S100x50_S5000x50_1_0_0_1_n_n.lhsIdx_val_of_single rfl i q
theorem rhs_blk_0 (i : S5000x50.Idx) (q : dot_S5000x100_S100x50_S5000x50_1_0_0_1_n_n.contr.Idx) :
    (dot_S5000x100_S100x50_S5000x50_1_0_0_1_n_n.rhsIdx i q 0).val = (q ⟨0, by decide⟩).val :=
  dot_S5000x100_S100x50_S5000x50_1_0_0_1_n_n.rhsIdx_val_of_single rfl i q
theorem rhs_blk_1 (i : S5000x50.Idx) (q : dot_S5000x100_S100x50_S5000x50_1_0_0_1_n_n.contr.Idx) :
    (dot_S5000x100_S100x50_S5000x50_1_0_0_1_n_n.rhsIdx i q 1).val = (i 1).val := by
  unfold DotDims.rhsIdx
  rw [dif_neg (show ¬(1 : Fin S100x50.rank) ∈ dot_S5000x100_S100x50_S5000x50_1_0_0_1_n_n.rhsBatch by decide), dif_pos (show (1 : Fin S100x50.rank) ∈ dot_S5000x100_S100x50_S5000x50_1_0_0_1_n_n.rhsNonContracting by decide)]
  rfl

/-- A block of a hundred lanes times the weights, into the zero accumulator: the plain sum over the hundred lanes. -/
theorem matmul_blk_apply (l : FVec Ideal S5000x100 .bf16) (r : FVec Ideal S100x50 .bf16) (p : Fin 5000) (q : Fin 50) :
    matmul dot_S5000x100_S100x50_S5000x50_1_0_0_1_n_n none l r (constant (F := Ideal) S5000x50 .f32 0x00000000#32) (ix2 p q)
      = ∑ k : Fin 100, l (ix2 p k) * r (ix2 k q) := by
  simp only [matmul]
  rw [Ideal.matmul_constant_zero_apply, ← Equiv.sum_comp (contrEquiv1 dot_S5000x100_S100x50_S5000x50_1_0_0_1_n_n 100 rfl rfl).symm]
  refine Finset.sum_congr rfl fun k _ => ?_
  have hk := contrEquiv1_symm_val dot_S5000x100_S100x50_S5000x50_1_0_0_1_n_n 100 rfl rfl k
  have el : dot_S5000x100_S100x50_S5000x50_1_0_0_1_n_n.lhsIdx (ix2 p q) ((contrEquiv1 dot_S5000x100_S100x50_S5000x50_1_0_0_1_n_n 100 rfl rfl).symm k) = ix2 p k := funext fun a => Fin.ext (by
    match a with
    | ⟨0, _⟩ => exact lhs_blk_0 _ _
    | ⟨1, _⟩ => exact (lhs_blk_1 _ _).trans hk)
  have er : dot_S5000x100_S100x50_S5000x50_1_0_0_1_n_n.rhsIdx (ix2 p q) ((contrEquiv1 dot_S5000x100_S100x50_S5000x50_1_0_0_1_n_n 100 rfl rfl).symm k) = ix2 k q := funext fun a => Fin.ext (by
    match a with
    | ⟨0, _⟩ => exact (rhs_blk_0 _ _).trans hk
    | ⟨1, _⟩ => exact rhs_blk_1 _ _)
  rw [el, er]

/-! ## The body's payload at an index -/

/-- What the body stores, at row `p` and column `q` of the block: the positive part of row `p` of `[x0 | x1]` times
    column `q` of the weights, plus the bias at `q`. -/
theorem pay_apply (x0 x1 : Vec Ideal S5000x50 .f32) (x2 : Vec Ideal S100x50 .f32) (x3 : Vec Ideal S50 .f32)
    (p : Fin 5000) (q : Fin 50) :
    k3_pay1 (F := Ideal) x0 x1 x2 x3 (ix2 p q)
      = max ((∑ k : Fin 100, cat x0 x1 p k * x2 (ix2 k q)) + x3 (ix1 q)) 0 := by
  unfold k3_pay1
  rw [shapeCast_self, shapeCast_self]
  refine (maximumf_apply _ _ _).trans ?_
  rw [broadcast_apply, addf_apply]
  rw [matmul_blk_apply, broadcastTo_1b_ab_apply, shapeCast_a_1a_apply]
  show max (_ + _) (Ideal.ofBits .f32 0x00000000#32) = _
  rw [Ideal.ofBits_zero_f32]
  refine congrArg (fun s => max (s + x3 (ix1 q)) 0) (Finset.sum_congr rfl fun k _ => ?_)
  rw [truncf_apply, truncf_apply, concat_lanes_apply]

/-! ## The stage at an index -/

theorem lhs_ref_0 (i : Cert.ReferenceIdeal.S100000x50.Idx) (q : Cert.ReferenceIdeal.dot_S100000x100_S100x50_S100000x50_1_0_0_1_n_n.contr.Idx) :
    (Cert.ReferenceIdeal.dot_S100000x100_S100x50_S100000x50_1_0_0_1_n_n.lhsIdx i q 0).val = (i 0).val := by
  unfold DotDims.lhsIdx
  rw [dif_neg (show ¬(0 : Fin Cert.ReferenceIdeal.S100000x100.rank) ∈ Cert.ReferenceIdeal.dot_S100000x100_S100x50_S100000x50_1_0_0_1_n_n.lhsBatch by decide), dif_pos (show (0 : Fin Cert.ReferenceIdeal.S100000x100.rank) ∈ Cert.ReferenceIdeal.dot_S100000x100_S100x50_S100000x50_1_0_0_1_n_n.lhsNonContracting by decide)]
  rfl
theorem lhs_ref_1 (i : Cert.ReferenceIdeal.S100000x50.Idx) (q : Cert.ReferenceIdeal.dot_S100000x100_S100x50_S100000x50_1_0_0_1_n_n.contr.Idx) :
    (Cert.ReferenceIdeal.dot_S100000x100_S100x50_S100000x50_1_0_0_1_n_n.lhsIdx i q 1).val = (q ⟨0, by decide⟩).val :=
  Cert.ReferenceIdeal.dot_S100000x100_S100x50_S100000x50_1_0_0_1_n_n.lhsIdx_val_of_single rfl i q
theorem rhs_ref_0 (i : Cert.ReferenceIdeal.S100000x50.Idx) (q : Cert.ReferenceIdeal.dot_S100000x100_S100x50_S100000x50_1_0_0_1_n_n.contr.Idx) :
    (Cert.ReferenceIdeal.dot_S100000x100_S100x50_S100000x50_1_0_0_1_n_n.rhsIdx i q 0).val = (q ⟨0, by decide⟩).val :=
  Cert.ReferenceIdeal.dot_S100000x100_S100x50_S100000x50_1_0_0_1_n_n.rhsIdx_val_of_single rfl i q
theorem rhs_ref_1 (i : Cert.ReferenceIdeal.S100000x50.Idx) (q : Cert.ReferenceIdeal.dot_S100000x100_S100x50_S100000x50_1_0_0_1_n_n.contr.Idx) :
    (Cert.ReferenceIdeal.dot_S100000x100_S100x50_S100000x50_1_0_0_1_n_n.rhsIdx i q 1).val = (i 1).val := by
  unfold DotDims.rhsIdx
  rw [dif_neg (show ¬(1 : Fin Cert.ReferenceIdeal.S100x50.rank) ∈ Cert.ReferenceIdeal.dot_S100000x100_S100x50_S100000x50_1_0_0_1_n_n.rhsBatch by decide), dif_pos (show (1 : Fin Cert.ReferenceIdeal.S100x50.rank) ∈ Cert.ReferenceIdeal.dot_S100000x100_S100x50_S100000x50_1_0_0_1_n_n.rhsNonContracting by decide)]
  rfl

/-- The whole array of a hundred lanes times the weights: the plain sum over the hundred lanes. -/
theorem dot_ref_apply (x : FVec Ideal Cert.ReferenceIdeal.S100000x100 .f32) (w : FVec Ideal Cert.ReferenceIdeal.S100x50 .f32)
    (r : Fin 100000) (q : Fin 50) :
    Host.dotGeneral (F := Ideal) Cert.ReferenceIdeal.dot_S100000x100_S100x50_S100000x50_1_0_0_1_n_n none x w (ix2 r q)
      = ∑ k : Fin 100, x (ix2 r k) * w (ix2 k q) := by
  simp only [Host.dotGeneral]
  rw [Ideal.dotGeneral_apply, ← Equiv.sum_comp (contrEquiv1 Cert.ReferenceIdeal.dot_S100000x100_S100x50_S100000x50_1_0_0_1_n_n 100 rfl rfl).symm]
  refine Finset.sum_congr rfl fun k _ => ?_
  have hk := contrEquiv1_symm_val Cert.ReferenceIdeal.dot_S100000x100_S100x50_S100000x50_1_0_0_1_n_n 100 rfl rfl k
  have el : Cert.ReferenceIdeal.dot_S100000x100_S100x50_S100000x50_1_0_0_1_n_n.lhsIdx (ix2 r q) ((contrEquiv1 Cert.ReferenceIdeal.dot_S100000x100_S100x50_S100000x50_1_0_0_1_n_n 100 rfl rfl).symm k) = ix2 r k := funext fun a => Fin.ext (by
    match a with
    | ⟨0, _⟩ => exact lhs_ref_0 _ _
    | ⟨1, _⟩ => exact (lhs_ref_1 _ _).trans hk)
  have er : Cert.ReferenceIdeal.dot_S100000x100_S100x50_S100000x50_1_0_0_1_n_n.rhsIdx (ix2 r q) ((contrEquiv1 Cert.ReferenceIdeal.dot_S100000x100_S100x50_S100000x50_1_0_0_1_n_n 100 rfl rfl).symm k) = ix2 k q := funext fun a => Fin.ext (by
    match a with
    | ⟨0, _⟩ => exact (rhs_ref_0 _ _).trans hk
    | ⟨1, _⟩ => exact rhs_ref_1 _ _)
  rw [el, er]

/-- The bias laid along every row reads the bias at the column. -/
theorem biasV_apply (b : FVec Ideal Cert.ReferenceIdeal.S50 .f32) (r : Fin 100000) (q : Fin 50) :
    Cert.Stage.biasV b (ix2 r q) = b (ix1 q) := by
  unfold Cert.Stage.biasV
  refine (broadcastInDim_apply _ _ _ (ix2 r q) (ix2 (0 : Fin 1) q) (fun a => ?_)).trans ?_
  · match a with
    | ⟨0, _⟩ => show 0 = if (1 : Nat) = 1 then 0 else r.val; rw [if_pos rfl]
    | ⟨1, _⟩ => show q.val = if (50 : Nat) = 1 then 0 else q.val; rw [if_neg (by decide)]
  · refine broadcastInDim_apply _ _ b (ix2 (0 : Fin 1) q) (ix1 q) (fun a => ?_)
    match a with
    | ⟨0, _⟩ => show q.val = if (50 : Nat) = 1 then 0 else q.val; rw [if_neg (by decide)]

/-- The zero array reads zero. -/
theorem zerosV_apply (i : Cert.ReferenceIdeal.S100000x50.Idx) : Cert.Stage.zerosV i = 0 := by
  unfold Cert.Stage.zerosV
  refine (broadcastInDim_apply _ _ _ i ix0 (fun a => a.elim0)).trans ?_
  rw [constant_apply, Ideal.ofBits_zero_f32]

/-- The node update stage at row `r` and column `q`: the positive part of row `r` of `[nn | en]` times column `q`
    of the weights, plus the bias at `q`. -/
theorem nodeUpd_apply (nn en : Cert.Stage.VH) (w : FVec Ideal Cert.ReferenceIdeal.S100x50 .f32)
    (b : FVec Ideal Cert.ReferenceIdeal.S50 .f32) (r : Fin 100000) (q : Fin 50) :
    Cert.Stage.nodeUpd nn en w b (ix2 r q)
      = max ((∑ k : Fin 100, cat nn en r k * w (ix2 k q)) + b (ix1 q)) 0 := by
  unfold Cert.Stage.nodeUpd Cert.Stage.reluV
  refine (maximumf_apply _ _ _).trans ?_
  rw [zerosV_apply, addf_apply, biasV_apply, dot_ref_apply]
  refine congrArg (fun s => max (s + b (ix1 q)) 0) (Finset.sum_congr rfl fun k _ => ?_)
  rw [concat_lanes_apply]

/-! ## One grid point -/

/-- Row `p` of `[x0 | x1]` is row `r` of `[nn | en]` when the two blocks hold those arrays' rows from `r - p` on. -/
theorem cat_blk_eq (nn en : Cert.Stage.VH) (x0 x1 : Vec Ideal S5000x50 .f32) (p : Fin 5000) (r : Fin 100000)
    (h0 : ∀ q : Fin 50, x0 (ix2 p q) = nn (ix2 r q)) (h1 : ∀ q : Fin 50, x1 (ix2 p q) = en (ix2 r q)) (k : Fin 100) :
    cat x0 x1 p k = cat nn en r k := by
  unfold cat
  split
  · exact h0 _
  · exact h1 _

/-- The payload of blocks that hold the arrays' rows is the stage at the row the block's row sits at. -/
theorem point_eq (nn en : Cert.Stage.VH) (w : FVec Ideal Cert.ReferenceIdeal.S100x50 .f32)
    (b : FVec Ideal Cert.ReferenceIdeal.S50 .f32)
    (x0 x1 : Vec Ideal S5000x50 .f32) (x2 : Vec Ideal S100x50 .f32) (x3 : Vec Ideal S50 .f32)
    (p : Fin 5000) (q : Fin 50) (r : Fin 100000)
    (h0 : ∀ q : Fin 50, x0 (ix2 p q) = nn (ix2 r q)) (h1 : ∀ q : Fin 50, x1 (ix2 p q) = en (ix2 r q))
    (h2 : ∀ k : Fin 100, x2 (ix2 k q) = w (ix2 k q)) (h3 : x3 (ix1 q) = b (ix1 q)) :
    k3_pay1 (F := Ideal) x0 x1 x2 x3 (ix2 p q) = Cert.Stage.nodeUpd nn en w b (ix2 r q) := by
  rw [pay_apply, nodeUpd_apply, h3]
  refine congrArg (fun s => max (s + b (ix1 q)) 0) (Finset.sum_congr rfl fun k _ => ?_)
  rw [cat_blk_eq nn en x0 x1 p r h0 h1 k, h2 k]

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: the two row windows and the output move down by one block a point,
    the weights and the bias stay. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- Point `t`'s block of the first input array holds that array's rows from `5000 t` on. -/
theorem iblk0_apply (c : Dev nD) (t : Fin cfg3.N) (p : Fin 5000) (q : Fin 50) (r : Fin 100000)
    (hr : r.val = t.val * 5000 + p.val) :
    iblk3 (F := Ideal) V c 0 t (ix2 p q) = (V c main_v0_0 : Cert.Stage.VH) (ix2 r q) := by
  obtain ⟨e00, e01, -⟩ := idx_facts t
  unfold iblk3
  rw [View.read_apply]
  show (V c main_v0_0 : Cert.Stage.VH) (((cfg3.win 0).blk t).view.emb (ix2 p q)) = _
  refine congrArg _ (funext fun a => Fin.ext ?_)
  match a with
  | ⟨0, _⟩ => show win3_0.index t (0 : Fin 2) * 5000 + 1 * p.val = r.val; rw [e00, hr]; omega
  | ⟨1, _⟩ => show win3_0.index t (1 : Fin 2) * 50 + 1 * q.val = q.val; rw [e01]; omega

/-- Point `t`'s block of the second input array holds that array's rows from `5000 t` on. -/
theorem iblk1_apply (c : Dev nD) (t : Fin cfg3.N) (p : Fin 5000) (q : Fin 50) (r : Fin 100000)
    (hr : r.val = t.val * 5000 + p.val) :
    iblk3 (F := Ideal) V c 1 t (ix2 p q) = (V c main_v12 : Cert.Stage.VH) (ix2 r q) := by
  obtain ⟨-, -, e10, e11, -⟩ := idx_facts t
  unfold iblk3
  rw [View.read_apply]
  show (V c main_v12 : Cert.Stage.VH) (((cfg3.win 1).blk t).view.emb (ix2 p q)) = _
  refine congrArg _ (funext fun a => Fin.ext ?_)
  match a with
  | ⟨0, _⟩ => show win3_1.index t (0 : Fin 2) * 5000 + 1 * p.val = r.val; rw [e10, hr]; omega
  | ⟨1, _⟩ => show win3_1.index t (1 : Fin 2) * 50 + 1 * q.val = q.val; rw [e11]; omega

/-- Every point's block of the weights is the weights. -/
theorem iblk2_apply (c : Dev nD) (t : Fin cfg3.N) (k : Fin 100) (q : Fin 50) :
    iblk3 (F := Ideal) V c 2 t (ix2 k q) = (V c main_arg8 : FVec Ideal Cert.ReferenceIdeal.S100x50 .f32) (ix2 k q) := by
  obtain ⟨-, -, -, -, e20, e21, -⟩ := idx_facts t
  unfold iblk3
  rw [View.read_apply]
  show (V c main_arg8 : FVec Ideal Cert.ReferenceIdeal.S100x50 .f32) (((cfg3.win 2).blk t).view.emb (ix2 k q)) = _
  refine congrArg _ (funext fun a => Fin.ext ?_)
  match a with
  | ⟨0, _⟩ => show win3_2.index t (0 : Fin 2) * 100 + 1 * k.val = k.val; rw [e20]; omega
  | ⟨1, _⟩ => show win3_2.index t (1 : Fin 2) * 50 + 1 * q.val = q.val; rw [e21]; omega

/-- Every point's block of the bias is the bias. -/
theorem iblk3_apply (c : Dev nD) (t : Fin cfg3.N) (q : Fin 50) :
    iblk3 (F := Ideal) V c 3 t (ix1 q) = (V c main_arg9 : FVec Ideal Cert.ReferenceIdeal.S50 .f32) (ix1 q) := by
  obtain ⟨-, -, -, -, -, -, e30, -⟩ := idx_facts t
  unfold iblk3
  rw [View.read_apply]
  show (V c main_arg9 : FVec Ideal Cert.ReferenceIdeal.S50 .f32) (((cfg3.win 3).blk t).view.emb (ix1 q)) = _
  refine congrArg _ (funext fun a => Fin.ext ?_)
  match a with
  | ⟨0, _⟩ => show win3_3.index t (0 : Fin 1) * 50 + 1 * q.val = q.val; rw [e30]; omega

/-- Point `t`'s block of an array of the output's shape holds that array's rows from `5000 t` on. -/
theorem oblk_apply (G : Cert.Stage.VH) (t : Fin cfg3.N) (p : Fin 5000) (q : Fin 50) (r : Fin 100000)
    (hr : r.val = t.val * 5000 + p.val) :
    ((cfg3.win 4).blk t).view.read (Elt Ideal) G (ix2 p q) = G (ix2 r q) := by
  obtain ⟨-, -, -, -, -, -, -, e40, e41⟩ := idx_facts t
  rw [View.read_apply]
  show G (((cfg3.win 4).blk t).view.emb (ix2 p q)) = _
  refine congrArg G (funext fun a => Fin.ext ?_)
  match a with
  | ⟨0, _⟩ => show win3_4.index t (0 : Fin 2) * 5000 + 1 * p.val = r.val; rw [e40, hr]; omega
  | ⟨1, _⟩ => show win3_4.index t (1 : Fin 2) * 50 + 1 * q.val = q.val; rw [e41]; omega

/-- What point `t` writes back is block `t` of the stage of the region's input arrays. -/
theorem flushed_eq (c : Dev nD) (t : Fin cfg3.N) :
    (dat3 (F := Ideal) V c).flushed 4 t = ((cfg3.win 4).blk t).view.read (Elt Ideal)
      (Cert.Stage.nodeUpd (V c main_v0_0) (V c main_v12) (V c main_arg8) (V c main_arg9)) := by
  show (cfg3.win 4).cut (grid3.coords t) ((dat3 (F := Ideal) V c).after 4 t) = _
  rw [after3_4]
  unfold out3_4
  rw [View.canon_unit_zero hz2]
  simp only [View.ld_unit_zero (S := S5000x50) hz2, View.ld_unit_zero (S := S100x50) hz2, View.ld_unit_zero (S := S50) hz1]
  have ht : t.val < 20 := t.isLt
  funext j
  obtain ⟨p, q, rfl⟩ : ∃ (p : Fin 5000) (q : Fin 50), j = ix2 p q := ⟨j 0, j 1, eq_ix2 j⟩
  have hp : p.val < 5000 := p.isLt
  refine (point_eq (V c main_v0_0) (V c main_v12) (V c main_arg8) (V c main_arg9) _ _ _ _ p q
    ⟨t.val * 5000 + p.val, by omega⟩ (fun q' => iblk0_apply V c t p q' _ rfl) (fun q' => iblk1_apply V c t p q' _ rfl)
    (fun k => iblk2_apply V c t k q) (iblk3_apply V c t q)).trans ?_
  exact (oblk_apply _ t p q _ rfl).symm

/-! ## From the blocks to the array -/

/-- An index of the array is in point `t`'s block iff each coordinate is in the block's range on its axis. -/
theorem mem_blk (t : Fin cfg3.N) (i : S100000x50.Idx) :
    i ∈ ((cfg3.win 4).blk t).view.set ↔ ∀ a : Fin 2, win3_4.index t a * S5000x50.size a ≤ (i a).val
      ∧ (i a).val < win3_4.index t a * S5000x50.size a + S5000x50.size a := by
  show i ∈ ((View.whole main_v14).slice (win3_4.rect t)).set ↔ _
  rw [View.set_slice_whole, Rect.mem_set_unit]
  exact Iff.rfl

/-- Row `r` of the array lies in the block of point `r / 5000`. -/
theorem covered (i : S100000x50.Idx) :
    ∃ t : Fin cfg3.N, (cfg3.win 4).flush t = true ∧ i ∈ ((cfg3.win 4).blk t).view.set := by
  have hi0 : (i 0).val < 100000 := (i 0).isLt
  have hi1 : (i 1).val < 50 := (i 1).isLt
  have hN : cfg3.N = 20 := N_3
  have hlt : (i 0).val / 5000 < cfg3.N := by rw [hN]; omega
  obtain ⟨-, -, -, -, -, -, -, e40, e41⟩ := idx_facts ⟨(i 0).val / 5000, hlt⟩
  refine ⟨⟨(i 0).val / 5000, hlt⟩, flush3_4 _, ?_⟩
  rw [mem_blk]
  intro a
  match a with
  | ⟨0, _⟩ =>
    show win3_4.index ⟨(i 0).val / 5000, hlt⟩ (0 : Fin 2) * 5000 ≤ (i 0).val
      ∧ (i 0).val < win3_4.index ⟨(i 0).val / 5000, hlt⟩ (0 : Fin 2) * 5000 + 5000
    rw [e40]
    show (i 0).val / 5000 * 5000 ≤ (i 0).val ∧ (i 0).val < (i 0).val / 5000 * 5000 + 5000
    omega
  | ⟨1, _⟩ =>
    show win3_4.index ⟨(i 0).val / 5000, hlt⟩ (1 : Fin 2) * 50 ≤ (i 1).val
      ∧ (i 1).val < win3_4.index ⟨(i 0).val / 5000, hlt⟩ (1 : Fin 2) * 50 + 50
    rw [e41]
    omega

/-- After all twenty points have written back, the output array is the node update stage of the input arrays. -/
theorem out4 (c : Dev nD) :
    (dat3 (F := Ideal) V c).arrAt 4 cfg3.N
      = Cert.Stage.nodeUpd (V c main_v0_0) (V c main_v12) (V c main_arg8) (V c main_arg9) := by
  exact (dat3 (F := Ideal) V c).arrAt_eq_of_cover 4 _ (fun t _ => flushed_eq V c t) covered

end Cert.KernelIdeal.R3

end
-- ==== Proof.Take.lean ====
/-
  The kernel's row take. Its host operations move negative indices up by the number of nodes, test every moved index
  against the node range, gather the rows, and put a fill word where the test fails. When every index is a node number
  the test never fails and the take is the plain row gather at the moved indices — the reference's `rows`.
  The range of the two index inputs is part of the precondition: `inRange_of_pre` reads it there.
-/
import proofs.«419642_j1082331758607_3_alg».proof.KernelIdeal
import proofs.«419642_j1082331758607_3_alg».proof.Pre_finite_inputs
import proofs.«419642_j1082331758607_3_alg».proof.Proof.Gen.KernelIdeal
import proofs.«419642_j1082331758607_3_alg».proof.Proof.Gen.ReferenceIdeal
import proofs.«419642_j1082331758607_3_alg».proof.Proof.Gen.Pre_finite_inputs
import proofs.«419642_j1082331758607_3_alg».proof.Proof.Stages
import Idealize.ShloMosaic.Lib.ValueIdx
import Idealize.ShloMosaic.Lib.ReduceAll
import Idealize.ShloMosaic.Lib.StableHlo.Predicate

set_option maxRecDepth 16384

noncomputable section

namespace Cert.KernelIdeal.Take

open Idealize.ShloMosaic Cert.KernelIdeal Cert.KernelIdeal.Facts₀

/-- Every entry of an index vector is a node number: at least 0 and below 100000, as signed words. -/
def InRange (i : IVec S1600000 32) : Prop :=
  ∀ e : S1600000.Idx, IntOp.cmpi .sge (i e) 0#32 = 1#1 ∧ IntOp.cmpi .slt (i e) 100000#32 = 1#1

/-! ### Words -/

/-- A word that is at least 0 and below 100000, read signed, has a value below 100000. -/
theorem toNat_lt_of_range (v : BitVec 32) (h0 : IntOp.cmpi .sge v 0#32 = 1#1) (h1 : IntOp.cmpi .slt v 100000#32 = 1#1) :
    v.toNat < 100000 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e1 : (100000#32 : BitVec 32).toInt = 100000 := by decide
  rw [e0] at h0; rw [e1] at h1
  rw [BitVec.toInt_eq_toNat_cond] at h0 h1
  have := v.isLt
  split at h0 <;> omega

/-- A node number is not negative, so it is not moved; and it passes the test `0 ≤ · ≤ 99999`. -/
theorem moved_ok (v : BitVec 32) (h0 : IntOp.cmpi .sge v 0#32 = 1#1) (h1 : IntOp.cmpi .slt v 100000#32 = 1#1) :
    IntOp.andi
      (IntOp.cmpi .sge (Scalar.select (IntOp.cmpi .slt v 0#32) (IntOp.addi v 100000#32) v) 0#32)
      (IntOp.cmpi .sle (Scalar.select (IntOp.cmpi .slt v 0#32) (IntOp.addi v 100000#32) v) 99999#32) = 1#1 := by
  have hv := toNat_lt_of_range v h0 h1
  have hneg : IntOp.cmpi .slt v 0#32 = 0#1 := by
    apply ValueIdx.eq_zero_of_ne_one
    intro hc
    rw [StableHlo.Predicate.slt_iff_toNat (by omega) (by decide)] at hc
    simp at hc
  rw [hneg, ValueIdx.select_zero, h0]
  have : IntOp.cmpi .sle v 99999#32 = 1#1 := by
    rw [StableHlo.Predicate.sle_iff_toNat (by omega) (by decide)]
    show v.toNat ≤ 99999
    omega
  rw [this]; decide

/-! ### An and-reduce of ones -/

/-- A left fold by `and` from 1 over 1s is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..), show IntOp.andi (1#1) (1#1) = 1#1 from by decide]
    exact foldl_andi_one f l (fun n hn => h n (List.mem_cons_of_mem _ hn))

/-- A reduce by `and` from 1 of an array of 1s is 1 at every index. -/
theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl, hi]
  exact foldl_andi_one x _ (fun n _ => hx n)

/-- The kernel's take of the rows of `x` at the index vector `i`, as its host operations compute it. -/
def takeK (x : FVec Ideal S100000x50 .f32) (i : IVec S1600000 32) : FVec Ideal S1600000x50 .f32 :=
  select
    (broadcastInDim S1600000x50 ![0] bcast_S1600000_S1600000x50_0
      ((fun x v => Host.reduce IntOp.andi x v reducesTo_S1600000x1_S1600000_d1 h_S_)
        (andi
          (cmpi .sge
            (broadcastInDim S1600000x1 ![0] bcast_S1600000_S1600000x1_0
              (select (cmpi .slt i (broadcastInDim S1600000 ![] bcast_S_S1600000 (constantI S_ 32 0#32)))
                (addi i (broadcastInDim S1600000 ![] bcast_S_S1600000 (constantI S_ 32 100000#32))) i))
            (broadcastInDim S1600000x1 ![] bcast_S_S1600000x1 (constantI S_ 32 0#32)))
          (cmpi .sle
            (broadcastInDim S1600000x1 ![0] bcast_S1600000_S1600000x1_0
              (select (cmpi .slt i (broadcastInDim S1600000 ![] bcast_S_S1600000 (constantI S_ 32 0#32)))
                (addi i (broadcastInDim S1600000 ![] bcast_S_S1600000 (constantI S_ 32 100000#32))) i))
            (broadcastInDim S1600000x1 ![0, 1] bcast_S1x1_S1600000x1_0_1
              (broadcastInDim S1x1 ![1] bcast_S1_S1x1_1 (constantI S1 32 99999#32)))))
        (constantI S_ 1 1#1)))
    (Host.gather gather_S100000x50_S1600000x1_S1600000x50_1_0_n_n_0_1_150 x
      (broadcastInDim S1600000x1 ![0] bcast_S1600000_S1600000x1_0
        (select (cmpi .slt i (broadcastInDim S1600000 ![] bcast_S_S1600000 (constantI S_ 32 0#32)))
          (addi i (broadcastInDim S1600000 ![] bcast_S_S1600000 (constantI S_ 32 100000#32))) i)))
    (broadcastInDim S1600000x50 ![] bcast_S_S1600000x50 (constant (F := Ideal) S_ .f32 0x7FC00000#32))

/-- On node numbers the kernel's take is the reference's row gather. -/
theorem takeK_eq_rows (x : FVec Ideal S100000x50 .f32) (i : IVec S1600000 32) (h : InRange i) :
    takeK x i = Cert.Stage.rows x i := by
  funext p
  unfold takeK
  rw [ValueIdx.select_apply]
  have hm : ∀ j : S1600000.Idx,
      Host.reduce IntOp.andi
        (andi
          (cmpi .sge
            (broadcastInDim S1600000x1 ![0] bcast_S1600000_S1600000x1_0
              (select (cmpi .slt i (broadcastInDim S1600000 ![] bcast_S_S1600000 (constantI S_ 32 0#32)))
                (addi i (broadcastInDim S1600000 ![] bcast_S_S1600000 (constantI S_ 32 100000#32))) i))
            (broadcastInDim S1600000x1 ![] bcast_S_S1600000x1 (constantI S_ 32 0#32)))
          (cmpi .sle
            (broadcastInDim S1600000x1 ![0] bcast_S1600000_S1600000x1_0
              (select (cmpi .slt i (broadcastInDim S1600000 ![] bcast_S_S1600000 (constantI S_ 32 0#32)))
                (addi i (broadcastInDim S1600000 ![] bcast_S_S1600000 (constantI S_ 32 100000#32))) i))
            (broadcastInDim S1600000x1 ![0, 1] bcast_S1x1_S1600000x1_0_1
              (broadcastInDim S1x1 ![1] bcast_S1_S1x1_1 (constantI S1 32 99999#32)))))
        (constantI S_ 1 1#1) reducesTo_S1600000x1_S1600000_d1 h_S_ j = 1#1 := by
    intro j
    refine reduce_andi_one _ _ _ _ j rfl (fun q => ?_)
    exact moved_ok _ (h _).1 (h _).2
  have hb : ∀ (m : IVec S1600000 1), (∀ j, m j = 1#1) →
      broadcastInDim S1600000x50 ![0] bcast_S1600000_S1600000x50_0 m p = 1#1 := fun m hm => hm _
  rw [hb _ hm, ValueIdx.select_one]
  rfl

/-! ### The precondition's index conjuncts -/

/-- The scalar shape has one index. -/
theorem subsingleton_scalar : Subsingleton Cert.Pre_finite_inputs.S_.Idx := ⟨fun a b => funext fun d => d.elim0⟩

/-- An `all` of a signed compare of an index vector against a scalar laid along it, read at an entry. -/
theorem all_cmpi (p : CmpIPredicate) (a : IVec Cert.Pre_finite_inputs.S1600000 32) (c : BitVec 32)
    (hr : Host.reduce IntOp.andi
        (cmpi p a (broadcastInDim Cert.Pre_finite_inputs.S1600000 ![] Cert.Pre_finite_inputs.Facts.bcast_S_S1600000
          (constantI Cert.Pre_finite_inputs.S_ 32 c)))
        (constantI Cert.Pre_finite_inputs.S_ 1 1#1) Cert.Pre_finite_inputs.Facts.reducesTo_S1600000_S_d0
        Cert.Pre_finite_inputs.Facts.h_S_ ValueIdx.ix0 = 1#1)
    (e : Cert.Pre_finite_inputs.S1600000.Idx) : IntOp.cmpi p (a e) c = 1#1 := by
  haveI := subsingleton_scalar
  exact Host.reduce_andi_all _ _ _ _ _ hr e

/-- The last stretch of the precondition: its three closing conjuncts say the mask it is handed is all ones and the
    second index vector holds node numbers; what it is handed as the conjunction so far holds too. -/
theorem part5 (a3 : IVec Cert.Pre_finite_inputs.S1600000 32) (v82 : IVec Cert.Pre_finite_inputs.S_ 1)
    (v84 : IVec Cert.Pre_finite_inputs.S1600000 1)
    (h : Cert.Pre_finite_inputs.fn_part5 (F := Ideal) a3 v82 v84 ValueIdx.ix0 = 1#1) :
    v82 ValueIdx.ix0 = 1#1 ∧ (∀ e, v84 e = 1#1) ∧ InRange a3 := by
  haveI := subsingleton_scalar
  dsimp only [Cert.Pre_finite_inputs.fn_part5] at h
  obtain ⟨h90, h93⟩ := IntOp.andi_eq_one.mp h
  obtain ⟨h86, h89⟩ := IntOp.andi_eq_one.mp h90
  obtain ⟨h82, h85⟩ := IntOp.andi_eq_one.mp h86
  refine ⟨h82, fun e => Host.reduce_andi_all _ _ _ _ _ h85 e, ?_⟩
  intro e
  exact ⟨all_cmpi _ _ _ h89 e, all_cmpi _ _ _ h93 e⟩

/-- The stretch before it: its last conjunct and the mask it hands on say the first index vector holds node numbers. -/
theorem part4 (a2 a3 : IVec Cert.Pre_finite_inputs.S1600000 32) (a16 : FVec Ideal Cert.Pre_finite_inputs.S150x50 .f32)
    (a17 : FVec Ideal Cert.Pre_finite_inputs.S50 .f32) (v63 v67 : IVec Cert.Pre_finite_inputs.S_ 1)
    (h : Cert.Pre_finite_inputs.fn_part4 (F := Ideal) a2 a3 a16 a17 v63 v67 ValueIdx.ix0 = 1#1) :
    InRange a2 ∧ InRange a3 := by
  dsimp only [Cert.Pre_finite_inputs.fn_part4] at h
  obtain ⟨h82, h84, hr3⟩ := part5 _ _ _ h
  obtain ⟨-, h81⟩ := IntOp.andi_eq_one.mp h82
  refine ⟨?_, hr3⟩
  intro e
  exact ⟨all_cmpi _ _ _ h81 e, h84 e⟩

/-- The precondition says both index inputs hold node numbers. -/
theorem inRange_of_pre
    (a0 : FVec Ideal Cert.Pre_finite_inputs.S100000x128 .f32) (a1 : FVec Ideal Cert.Pre_finite_inputs.S1600000x50 .f32)
    (a2 a3 : IVec Cert.Pre_finite_inputs.S1600000 32)
    (a4 : FVec Ideal Cert.Pre_finite_inputs.S128x50 .f32) (a5 : FVec Ideal Cert.Pre_finite_inputs.S50 .f32)
    (a6 : FVec Ideal Cert.Pre_finite_inputs.S50x50 .f32) (a7 : FVec Ideal Cert.Pre_finite_inputs.S50 .f32)
    (a8 : FVec Ideal Cert.Pre_finite_inputs.S100x50 .f32) (a9 : FVec Ideal Cert.Pre_finite_inputs.S50 .f32)
    (a10 : FVec Ideal Cert.Pre_finite_inputs.S128x50 .f32) (a11 : FVec Ideal Cert.Pre_finite_inputs.S50 .f32)
    (a12 : FVec Ideal Cert.Pre_finite_inputs.S128x50 .f32) (a13 : FVec Ideal Cert.Pre_finite_inputs.S50 .f32)
    (a14 : FVec Ideal Cert.Pre_finite_inputs.S50x50 .f32) (a15 : FVec Ideal Cert.Pre_finite_inputs.S50 .f32)
    (a16 : FVec Ideal Cert.Pre_finite_inputs.S150x50 .f32) (a17 : FVec Ideal Cert.Pre_finite_inputs.S50 .f32)
    (h : Cert.Pre_finite_inputs.fn (F := Ideal) a0 a1 a2 a3 a4 a5 a6 a7 a8 a9 a10 a11 a12 a13 a14 a15 a16 a17 = fun _ => 1#1) :
    InRange a2 ∧ InRange a3 := by
  have h0 := congrFun h ValueIdx.ix0
  exact part4 _ _ _ _ _ _ h0

end Cert.KernelIdeal.Take

end
-- ==== Proof.HostMid.lean ====
/-
  The contents region 2 finds, read back through the host operations between regions 1 and 2: the two sums of row
  takes of the left and right halves of region 0's second output, the edge rows summed into their destination nodes,
  and the buffers those operations leave alone.
-/
import proofs.«419642_j1082331758607_3_alg».proof.Proof.Gen.KernelIdeal.Frame
import proofs.«419642_j1082331758607_3_alg».proof.Proof.Gen.ReferenceIdeal
import proofs.«419642_j1082331758607_3_alg».proof.Proof.Stages
import proofs.«419642_j1082331758607_3_alg».proof.Proof.Take
import Idealize.ShloMosaic.Lib.StableHlo.Run
set_option maxRecDepth 16384

noncomputable section

namespace Cert.KernelIdeal.HostMid

open Idealize.ShloMosaic Idealize.ShloMosaic.TcCoe Idealize.SL.Sem Idealize.ShloMosaic.StableHlo
open Cert.KernelIdeal Cert.KernelIdeal.Gen Cert.KernelIdeal.Take

/-- Moving contents to a buffer's own type and back is the identity. -/
theorem ofBuf_toBuf {T : BufTy} {Val : EltTy → Type} (x : TRef sig T) (v : T.Contents Val) :
    x.ofBuf (x.toBuf v) = v := by
  obtain ⟨r, h, h2, h3⟩ := x
  subst h
  rfl

/-! ## The buffers each stretch writes, and the buffers it leaves alone -/

/-- The two column slices. -/
noncomputable def wr0 : List (Ref sig .tc) := [main_v2, main_v3]
/-- The first row take: one buffer per value of its body, the last its result. -/
noncomputable def wr1 : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_v14, main_call0_cst,
   main_call0_v15, main_v4]
/-- The second row take: one buffer per value of its body, the last its result. -/
noncomputable def wr2 : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14, main_call1_cst,
   main_call1_v15, main_v5]
/-- The third row take: one buffer per value of its body, the last its result. -/
noncomputable def wr3 : List (Ref sig .tc) :=
  [main_call2_c, main_call2_v0, main_call2_v1, main_call2_c_0, main_call2_v2, main_call2_v3, main_call2_v4,
   main_call2_v5, main_call2_c_1, main_call2_c_2, main_call2_v6, main_call2_v7, main_call2_v8, main_call2_v9,
   main_call2_v10, main_call2_v11, main_call2_c_3, main_call2_v12, main_call2_v13, main_call2_v14, main_call2_cst,
   main_call2_v15, main_v6]
/-- The fourth row take: one buffer per value of its body, the last its result. -/
noncomputable def wr4 : List (Ref sig .tc) :=
  [main_call3_c, main_call3_v0, main_call3_v1, main_call3_c_0, main_call3_v2, main_call3_v3, main_call3_v4,
   main_call3_v5, main_call3_c_1, main_call3_c_2, main_call3_v6, main_call3_v7, main_call3_v8, main_call3_v9,
   main_call3_v10, main_call3_v11, main_call3_c_3, main_call3_v12, main_call3_v13, main_call3_v14, main_call3_cst,
   main_call3_v15, main_v7]
/-- The two sums, the zero array, the destination column and the summed rows. -/
noncomputable def wr5 : List (Ref sig .tc) := [main_v8, main_v9, main_cst, main_v10, main_v11, main_v12]

section Stretches

variable (V : Valuation τ sig (Elt Ideal))

theorem pass0 {r : Ref sig .tc} (hr : r ∉ wr0) :
    StableHlo.after hostOps2 V (Proc.devRef .tc r) = V (Proc.devRef .tc r) :=
  StableHlo.after_of_writes_sub (W := wr0) _ V (by
    simp only [hostOps2, List.Forall, StableHlo.nullary_writes, StableHlo.unary_writes, StableHlo.binary_writes,
      StableHlo.ternary_writes, Finset.singleton_subset_iff, List.mem_toFinset]
    repeat' apply And.intro
    all_goals exact List.mem_map_of_mem (by decide)) hr

theorem pass1 {r : Ref sig .tc} (hr : r ∉ wr1) :
    StableHlo.after hostOps2_1 V (Proc.devRef .tc r) = V (Proc.devRef .tc r) :=
  StableHlo.after_of_writes_sub (W := wr1) _ V (by
    simp only [hostOps2_1, List.Forall, StableHlo.nullary_writes, StableHlo.unary_writes, StableHlo.binary_writes,
      StableHlo.ternary_writes, Finset.singleton_subset_iff, List.mem_toFinset]
    repeat' apply And.intro
    all_goals exact List.mem_map_of_mem (by decide)) hr

theorem pass2 {r : Ref sig .tc} (hr : r ∉ wr2) :
    StableHlo.after hostOps2_2 V (Proc.devRef .tc r) = V (Proc.devRef .tc r) :=
  StableHlo.after_of_writes_sub (W := wr2) _ V (by
    simp only [hostOps2_2, List.Forall, StableHlo.nullary_writes, StableHlo.unary_writes, StableHlo.binary_writes,
      StableHlo.ternary_writes, Finset.singleton_subset_iff, List.mem_toFinset]
    repeat' apply And.intro
    all_goals exact List.mem_map_of_mem (by decide)) hr

theorem pass3 {r : Ref sig .tc} (hr : r ∉ wr3) :
    StableHlo.after hostOps2_3 V (Proc.devRef .tc r) = V (Proc.devRef .tc r) :=
  StableHlo.after_of_writes_sub (W := wr3) _ V (by
    simp only [hostOps2_3, List.Forall, StableHlo.nullary_writes, StableHlo.unary_writes, StableHlo.binary_writes,
      StableHlo.ternary_writes, Finset.singleton_subset_iff, List.mem_toFinset]
    repeat' apply And.intro
    all_goals exact List.mem_map_of_mem (by decide)) hr

theorem pass4 {r : Ref sig .tc} (hr : r ∉ wr4) :
    StableHlo.after hostOps2_4 V (Proc.devRef .tc r) = V (Proc.devRef .tc r) :=
  StableHlo.after_of_writes_sub (W := wr4) _ V (by
    simp only [hostOps2_4, List.Forall, StableHlo.nullary_writes, StableHlo.unary_writes, StableHlo.binary_writes,
      StableHlo.ternary_writes, Finset.singleton_subset_iff, List.mem_toFinset]
    repeat' apply And.intro
    all_goals exact List.mem_map_of_mem (by decide)) hr

theorem pass5 {r : Ref sig .tc} (hr : r ∉ wr5) :
    StableHlo.after hostOps2_5 V (Proc.devRef .tc r) = V (Proc.devRef .tc r) :=
  StableHlo.after_of_writes_sub (W := wr5) _ V (by
    simp only [hostOps2_5, List.Forall, StableHlo.nullary_writes, StableHlo.unary_writes, StableHlo.binary_writes,
      StableHlo.ternary_writes, Finset.singleton_subset_iff, List.mem_toFinset]
    repeat' apply And.intro
    all_goals exact List.mem_map_of_mem (by decide)) hr

/-! ## What each stretch leaves in its result buffers -/

/-- The two halves of the array the slices read. -/
abbrev lft : FVec Ideal S100000x50 .f32 :=
  extractStridedSlice S100000x50 ![0, 0] (V (Proc.devRef .tc main_v0_1)) slices_S100000x100_S100000x50_0_0
abbrev rgt : FVec Ideal S100000x50 .f32 :=
  extractStridedSlice S100000x50 ![0, 50] (V (Proc.devRef .tc main_v0_1)) slices_S100000x100_S100000x50_0_50

theorem sliceL : StableHlo.after hostOps2 V (Proc.devRef .tc main_v2) = lft V := by
  after_results_simp <;> rfl
theorem sliceR : StableHlo.after hostOps2 V (Proc.devRef .tc main_v3) = rgt V := by
  after_results_simp <;> rfl

/-- The first take's 23 operations compose to `takeK` of the source rows and the index vector. -/
theorem take1 :
    StableHlo.after hostOps2_1 V (Proc.devRef .tc main_v4)
      = takeK (V (Proc.devRef .tc main_v2)) (V (Proc.devRef .tc main_arg2)) := by
  have e1 : ∀ u, (TRef.of main_v2 : TRef sig ⟨S100000x50, .f32⟩).ofBuf (Val := Elt Ideal) u = u := fun _ => rfl
  have e2 : ∀ u, (TRef.of main_arg2 : TRef sig ⟨S1600000, .i32⟩).ofBuf (Val := Elt Ideal) u = u := fun _ => rfl
  have e3 : ∀ u, (TRef.of main_v4 : TRef sig ⟨S1600000x50, .f32⟩).toBuf (Val := Elt Ideal) u = u := fun _ => rfl
  after_results_simp
  simp only [ofBuf_toBuf, e1, e2, e3]
  rfl

/-- The second take's 23 operations compose to `takeK` of the source rows and the index vector. -/
theorem take2 :
    StableHlo.after hostOps2_2 V (Proc.devRef .tc main_v5)
      = takeK (V (Proc.devRef .tc main_v3)) (V (Proc.devRef .tc main_arg3)) := by
  have e1 : ∀ u, (TRef.of main_v3 : TRef sig ⟨S100000x50, .f32⟩).ofBuf (Val := Elt Ideal) u = u := fun _ => rfl
  have e2 : ∀ u, (TRef.of main_arg3 : TRef sig ⟨S1600000, .i32⟩).ofBuf (Val := Elt Ideal) u = u := fun _ => rfl
  have e3 : ∀ u, (TRef.of main_v5 : TRef sig ⟨S1600000x50, .f32⟩).toBuf (Val := Elt Ideal) u = u := fun _ => rfl
  after_results_simp
  simp only [ofBuf_toBuf, e1, e2, e3]
  rfl

/-- The third take's 23 operations compose to `takeK` of the source rows and the index vector. -/
theorem take3 :
    StableHlo.after hostOps2_3 V (Proc.devRef .tc main_v6)
      = takeK (V (Proc.devRef .tc main_v3)) (V (Proc.devRef .tc main_arg2)) := by
  have e1 : ∀ u, (TRef.of main_v3 : TRef sig ⟨S100000x50, .f32⟩).ofBuf (Val := Elt Ideal) u = u := fun _ => rfl
  have e2 : ∀ u, (TRef.of main_arg2 : TRef sig ⟨S1600000, .i32⟩).ofBuf (Val := Elt Ideal) u = u := fun _ => rfl
  have e3 : ∀ u, (TRef.of main_v6 : TRef sig ⟨S1600000x50, .f32⟩).toBuf (Val := Elt Ideal) u = u := fun _ => rfl
  after_results_simp
  simp only [ofBuf_toBuf, e1, e2, e3]
  rfl

/-- The fourth take's 23 operations compose to `takeK` of the source rows and the index vector. -/
theorem take4 :
    StableHlo.after hostOps2_4 V (Proc.devRef .tc main_v7)
      = takeK (V (Proc.devRef .tc main_v2)) (V (Proc.devRef .tc main_arg3)) := by
  have e1 : ∀ u, (TRef.of main_v2 : TRef sig ⟨S100000x50, .f32⟩).ofBuf (Val := Elt Ideal) u = u := fun _ => rfl
  have e2 : ∀ u, (TRef.of main_arg3 : TRef sig ⟨S1600000, .i32⟩).ofBuf (Val := Elt Ideal) u = u := fun _ => rfl
  have e3 : ∀ u, (TRef.of main_v7 : TRef sig ⟨S1600000x50, .f32⟩).toBuf (Val := Elt Ideal) u = u := fun _ => rfl
  after_results_simp
  simp only [ofBuf_toBuf, e1, e2, e3]
  rfl

theorem sum8 :
    StableHlo.after hostOps2_5 V (Proc.devRef .tc main_v8)
      = (addf (V (Proc.devRef .tc main_v4) : FVec Ideal S1600000x50 .f32) (V (Proc.devRef .tc main_v5)) :
          FVec Ideal S1600000x50 .f32) := by
  after_results_simp <;> rfl
theorem sum9 :
    StableHlo.after hostOps2_5 V (Proc.devRef .tc main_v9)
      = (addf (V (Proc.devRef .tc main_v6) : FVec Ideal S1600000x50 .f32) (V (Proc.devRef .tc main_v7)) :
          FVec Ideal S1600000x50 .f32) := by
  after_results_simp <;> rfl
theorem seg12 :
    StableHlo.after hostOps2_5 V (Proc.devRef .tc main_v12)
      = Host.scatterAdd scatter_S100000x50_S1600000x1_S1600000x50_1_0_0_1
          (broadcastInDim S100000x50 ![] bcast_S_S100000x50 (constant (F := Ideal) S_ .f32 0x00000000#32))
          (broadcastInDim S1600000x1 ![0] bcast_S1600000_S1600000x1_0 (V (Proc.devRef .tc main_arg3)))
          (V (Proc.devRef .tc main_v1_0)) := by
  after_results_simp <;> rfl

/-! ## The six stretches in a row -/

/-- The contents after each stretch, from the contents `V` before the first. -/
abbrev A3 := StableHlo.after hostOps2 V
abbrev A4 := StableHlo.after hostOps2_1 (A3 V)
abbrev A5 := StableHlo.after hostOps2_2 (A4 V)
abbrev A6 := StableHlo.after hostOps2_3 (A5 V)
abbrev A7 := StableHlo.after hostOps2_4 (A6 V)
abbrev A8 := StableHlo.after hostOps2_5 (A7 V)

/-- A buffer that neither the slices nor the takes write is, before the last stretch, as it was at the start. -/
theorem thru7 {r : Ref sig .tc} (hr : r ∉ wr0 ∧ r ∉ wr1 ∧ r ∉ wr2 ∧ r ∉ wr3 ∧ r ∉ wr4) :
    A7 V (Proc.devRef .tc r) = V (Proc.devRef .tc r) :=
  (pass4 (A6 V) hr.2.2.2.2).trans <| (pass3 (A5 V) hr.2.2.2.1).trans <| (pass2 (A4 V) hr.2.2.1).trans <|
    (pass1 (A3 V) hr.2.1).trans (pass0 V hr.1)

/-- A buffer no stretch writes ends as it was at the start. -/
theorem thru8 {r : Ref sig .tc} (hr : r ∉ wr0 ∧ r ∉ wr1 ∧ r ∉ wr2 ∧ r ∉ wr3 ∧ r ∉ wr4) (h5 : r ∉ wr5) :
    A8 V (Proc.devRef .tc r) = V (Proc.devRef .tc r) :=
  (pass5 (A7 V) h5).trans (thru7 V hr)

/-- Each take's result, carried to the last stretch and read back to the start. -/
theorem A7_v4 : A7 V (Proc.devRef .tc main_v4) = takeK (lft V) (V (Proc.devRef .tc main_arg2)) :=
  (pass4 (A6 V) (r := main_v4) (by decide)).trans <| (pass3 (A5 V) (r := main_v4) (by decide)).trans <|
    (pass2 (A4 V) (r := main_v4) (by decide)).trans <| (take1 (A3 V)).trans <|
      congrArg₂ takeK (sliceL V) (pass0 V (r := main_arg2) (by decide))
theorem A7_v5 : A7 V (Proc.devRef .tc main_v5) = takeK (rgt V) (V (Proc.devRef .tc main_arg3)) :=
  (pass4 (A6 V) (r := main_v5) (by decide)).trans <| (pass3 (A5 V) (r := main_v5) (by decide)).trans <|
    (take2 (A4 V)).trans <|
      congrArg₂ takeK ((pass1 (A3 V) (r := main_v3) (by decide)).trans (sliceR V))
        ((pass1 (A3 V) (r := main_arg3) (by decide)).trans (pass0 V (r := main_arg3) (by decide)))
theorem A7_v6 : A7 V (Proc.devRef .tc main_v6) = takeK (rgt V) (V (Proc.devRef .tc main_arg2)) :=
  (pass4 (A6 V) (r := main_v6) (by decide)).trans <| (take3 (A5 V)).trans <|
    congrArg₂ takeK
      ((pass2 (A4 V) (r := main_v3) (by decide)).trans <| (pass1 (A3 V) (r := main_v3) (by decide)).trans (sliceR V))
      ((pass2 (A4 V) (r := main_arg2) (by decide)).trans <| (pass1 (A3 V) (r := main_arg2) (by decide)).trans
        (pass0 V (r := main_arg2) (by decide)))
theorem A7_v7 : A7 V (Proc.devRef .tc main_v7) = takeK (lft V) (V (Proc.devRef .tc main_arg3)) :=
  (take4 (A6 V)).trans <|
    congrArg₂ takeK
      ((pass3 (A5 V) (r := main_v2) (by decide)).trans <| (pass2 (A4 V) (r := main_v2) (by decide)).trans <|
        (pass1 (A3 V) (r := main_v2) (by decide)).trans (sliceL V))
      ((pass3 (A5 V) (r := main_arg3) (by decide)).trans <| (pass2 (A4 V) (r := main_arg3) (by decide)).trans <|
        (pass1 (A3 V) (r := main_arg3) (by decide)).trans (pass0 V (r := main_arg3) (by decide)))

theorem A8_v8 :
    A8 V (Proc.devRef .tc main_v8)
      = addf (takeK (lft V) (V (Proc.devRef .tc main_arg2))) (takeK (rgt V) (V (Proc.devRef .tc main_arg3))) :=
  (sum8 (A7 V)).trans (congrArg₂ addf (A7_v4 V) (A7_v5 V))
theorem A8_v9 :
    A8 V (Proc.devRef .tc main_v9)
      = addf (takeK (rgt V) (V (Proc.devRef .tc main_arg2))) (takeK (lft V) (V (Proc.devRef .tc main_arg3))) :=
  (sum9 (A7 V)).trans (congrArg₂ addf (A7_v6 V) (A7_v7 V))
theorem A8_v12 :
    A8 V (Proc.devRef .tc main_v12)
      = Host.scatterAdd scatter_S100000x50_S1600000x1_S1600000x50_1_0_0_1
          (broadcastInDim S100000x50 ![] bcast_S_S100000x50 (constant (F := Ideal) S_ .f32 0x00000000#32))
          (broadcastInDim S1600000x1 ![0] bcast_S1600000_S1600000x1_0 (V (Proc.devRef .tc main_arg3)))
          (V (Proc.devRef .tc main_v1_0)) := by
  refine (seg12 (A7 V)).trans ?_
  rw [thru7 V (r := main_arg3) (by decide), thru7 V (r := main_v1_0) (by decide)]

end Stretches

variable (m : (ℓ : Loc nD τ sig) → Buf (Elt Ideal) ℓ) (ρ : Dev nD → PrngReg)

/-- The left and right halves of region 0's second output, as region 1 leaves it. -/
abbrev leftK (c : Dev nD) : FVec Ideal S100000x50 .f32 :=
  extractStridedSlice S100000x50 ![0, 0] (W2 (F := Ideal) m ρ c (Proc.devRef .tc main_v0_1)) slices_S100000x100_S100000x50_0_0
abbrev rightK (c : Dev nD) : FVec Ideal S100000x50 .f32 :=
  extractStridedSlice S100000x50 ![0, 50] (W2 (F := Ideal) m ρ c (Proc.devRef .tc main_v0_1)) slices_S100000x100_S100000x50_0_50

theorem W8_v8 (c : Dev nD) :
    W8 (F := Ideal) m ρ c (Proc.devRef .tc main_v8)
      = addf (takeK (leftK m ρ c) (W2 (F := Ideal) m ρ c (Proc.devRef .tc main_arg2)))
             (takeK (rightK m ρ c) (W2 (F := Ideal) m ρ c (Proc.devRef .tc main_arg3))) :=
  A8_v8 (W2 (F := Ideal) m ρ c)

theorem W8_v9 (c : Dev nD) :
    W8 (F := Ideal) m ρ c (Proc.devRef .tc main_v9)
      = addf (takeK (rightK m ρ c) (W2 (F := Ideal) m ρ c (Proc.devRef .tc main_arg2)))
             (takeK (leftK m ρ c) (W2 (F := Ideal) m ρ c (Proc.devRef .tc main_arg3))) :=
  A8_v9 (W2 (F := Ideal) m ρ c)

theorem W8_v12 (c : Dev nD) :
    W8 (F := Ideal) m ρ c (Proc.devRef .tc main_v12)
      = Host.scatterAdd scatter_S100000x50_S1600000x1_S1600000x50_1_0_0_1
          (broadcastInDim S100000x50 ![] bcast_S_S100000x50 (constant (F := Ideal) S_ .f32 0x00000000#32))
          (broadcastInDim S1600000x1 ![0] bcast_S1600000_S1600000x1_0 (W2 (F := Ideal) m ρ c (Proc.devRef .tc main_arg3)))
          (W2 (F := Ideal) m ρ c (Proc.devRef .tc main_v1_0)) :=
  A8_v12 (W2 (F := Ideal) m ρ c)

/-- The host operations write none of these: region 1's second output, region 0's first output, and the weights
    and biases the last two regions read. -/
theorem W8_v1_1 (c : Dev nD) : W8 (F := Ideal) m ρ c (Proc.devRef .tc main_v1_1) = W2 (F := Ideal) m ρ c (Proc.devRef .tc main_v1_1) :=
  thru8 (W2 (F := Ideal) m ρ c) (r := main_v1_1) (by decide) (by decide)
theorem W8_v0_0 (c : Dev nD) : W8 (F := Ideal) m ρ c (Proc.devRef .tc main_v0_0) = W2 (F := Ideal) m ρ c (Proc.devRef .tc main_v0_0) :=
  thru8 (W2 (F := Ideal) m ρ c) (r := main_v0_0) (by decide) (by decide)

end Cert.KernelIdeal.HostMid

end
-- ==== Proof.Chain.lean ====
/-
  The idealized kernel's two result arrays as compositions of the layer's stages at the launch arguments.
  The contents at the end of @main are a fold over its ten segments; each result buffer is walked back through that
  fold: a region's output array is its stage of the region's inputs, a host-written buffer is the host operations'
  term of what they read, and every other buffer is what the previous segment left. Where the index inputs hold node
  numbers (the precondition) the kernel's four row takes are the plain row gathers.
-/
import proofs.«419642_j1082331758607_3_alg».proof.Defs
import proofs.«419642_j1082331758607_3_alg».proof.Proof.Gen.KernelIdeal.Frame
import proofs.«419642_j1082331758607_3_alg».proof.Proof.Gen.ReferenceIdeal
import proofs.«419642_j1082331758607_3_alg».proof.Proof.Gen.Pre_finite_inputs
import proofs.«419642_j1082331758607_3_alg».proof.Proof.Stages
import proofs.«419642_j1082331758607_3_alg».proof.Proof.R0
import proofs.«419642_j1082331758607_3_alg».proof.Proof.R1
import proofs.«419642_j1082331758607_3_alg».proof.Proof.R2
import proofs.«419642_j1082331758607_3_alg».proof.Proof.R3
import proofs.«419642_j1082331758607_3_alg».proof.Proof.Take
import proofs.«419642_j1082331758607_3_alg».proof.Proof.HostMid

set_option maxRecDepth 16384

noncomputable section

namespace Cert.KernelIdeal.Chain

open Idealize.ShloMosaic Idealize.ShloMosaic.TcCoe Idealize.SL.Sem
open Cert.KernelIdeal Cert.KernelIdeal.Gen Cert.KernelIdeal.Take Cert.KernelIdeal.HostMid
open Cert.Stage

variable (m : (ℓ : Loc nD τ sig) → Buf (Elt Ideal) ℓ) (ρ : Dev nD → PrngReg)

/-! ## The stages' values at the launch arguments -/

/-- `relu (x · wₙ + bₙ)`, the node-to-node message. -/
def nn (c : Dev nD) : VH := reluV (nodeLin (m ((c : Thread nD τ).loc main_arg0)) (m ((c : Thread nD τ).loc main_arg4)) (m ((c : Thread nD τ).loc main_arg5)))
/-- `x · w_l + b_l` and `x · w_r + b_r`. -/
def left (c : Dev nD) : VH := nodeLin (m ((c : Thread nD τ).loc main_arg0)) (m ((c : Thread nD τ).loc main_arg10)) (m ((c : Thread nD τ).loc main_arg11))
def right (c : Dev nD) : VH := nodeLin (m ((c : Thread nD τ).loc main_arg0)) (m ((c : Thread nD τ).loc main_arg12)) (m ((c : Thread nD τ).loc main_arg13))
/-- `relu (e · w + b)` with the edge-to-node and with the edge-to-edge weights. -/
def e2n (c : Dev nD) : EH := reluE (edgeLin (m ((c : Thread nD τ).loc main_arg1)) (m ((c : Thread nD τ).loc main_arg6)) (m ((c : Thread nD τ).loc main_arg7)))
def third (c : Dev nD) : EH := reluE (edgeLin (m ((c : Thread nD τ).loc main_arg1)) (m ((c : Thread nD τ).loc main_arg14)) (m ((c : Thread nD τ).loc main_arg15)))
/-- The node result and the edge result. -/
def nodeOut (c : Dev nD) : VH := nodeUpd (nn m c) (segSum (m ((c : Thread nD τ).loc main_arg3)) (e2n m c)) (m ((c : Thread nD τ).loc main_arg8)) (m ((c : Thread nD τ).loc main_arg9))
def edgeOut (c : Dev nD) : EH :=
  edgeUpd (reluE (addf (rows (left m c) (m ((c : Thread nD τ).loc main_arg2))) (rows (right m c) (m ((c : Thread nD τ).loc main_arg3)))))
          (reluE (addf (rows (right m c) (m ((c : Thread nD τ).loc main_arg2))) (rows (left m c) (m ((c : Thread nD τ).loc main_arg3)))))
          (third m c) (m ((c : Thread nD τ).loc main_arg16)) (m ((c : Thread nD τ).loc main_arg17))

/-! ## After regions 0 and 1 -/

theorem W2_v0_0 (c : Dev nD) : W2 (F := Ideal) m ρ c (Proc.devRef .tc main_v0_0) = nn m c :=
  calc W2 (F := Ideal) m ρ c (Proc.devRef .tc main_v0_0)
    _ = W1 (F := Ideal) m ρ c (Proc.devRef .tc main_v0_0) := W2_of_ne m ρ c main_v0_0 (by decide)
    _ = (dat0 (V0 (F := Ideal) m ρ) c).arrAt 7 cfg0.N := W1_arr m ρ c 7
    _ = nn m c := R0.out7 (V0 (F := Ideal) m ρ) c

theorem W2_left (c : Dev nD) : leftK m ρ c = left m c := by
  unfold leftK
  rw [show W2 (F := Ideal) m ρ c (Proc.devRef .tc main_v0_1) = (dat0 (V0 (F := Ideal) m ρ) c).arrAt 8 cfg0.N from
    (W2_of_ne m ρ c main_v0_1 (by decide)).trans (W1_arr m ρ c 8)]
  exact R0.out8_left (V0 (F := Ideal) m ρ) c

theorem W2_right (c : Dev nD) : rightK m ρ c = right m c := by
  unfold rightK
  rw [show W2 (F := Ideal) m ρ c (Proc.devRef .tc main_v0_1) = (dat0 (V0 (F := Ideal) m ρ) c).arrAt 8 cfg0.N from
    (W2_of_ne m ρ c main_v0_1 (by decide)).trans (W1_arr m ρ c 8)]
  exact R0.out8_right (V0 (F := Ideal) m ρ) c

/-- An argument no window of region 0 stages is, at region 1's entry, as launched. -/
theorem V1_arg1 (c : Dev nD) : V1 (F := Ideal) m ρ c main_arg1 = (m ((c : Thread nD τ).loc main_arg1)) := W1_of_ne m ρ c main_arg1 (by decide)
theorem V1_arg6 (c : Dev nD) : V1 (F := Ideal) m ρ c main_arg6 = (m ((c : Thread nD τ).loc main_arg6)) := W1_of_ne m ρ c main_arg6 (by decide)
theorem V1_arg7 (c : Dev nD) : V1 (F := Ideal) m ρ c main_arg7 = (m ((c : Thread nD τ).loc main_arg7)) := W1_of_ne m ρ c main_arg7 (by decide)
theorem V1_arg14 (c : Dev nD) : V1 (F := Ideal) m ρ c main_arg14 = (m ((c : Thread nD τ).loc main_arg14)) := W1_of_ne m ρ c main_arg14 (by decide)
theorem V1_arg15 (c : Dev nD) : V1 (F := Ideal) m ρ c main_arg15 = (m ((c : Thread nD τ).loc main_arg15)) := W1_of_ne m ρ c main_arg15 (by decide)

theorem W2_v1_0 (c : Dev nD) : W2 (F := Ideal) m ρ c (Proc.devRef .tc main_v1_0) = e2n m c :=
  calc W2 (F := Ideal) m ρ c (Proc.devRef .tc main_v1_0)
    _ = (dat1 (V1 (F := Ideal) m ρ) c).arrAt 5 cfg1.N := W2_arr m ρ c 5
    _ = reluE (edgeLin (V1 (F := Ideal) m ρ c main_arg1) (V1 (F := Ideal) m ρ c main_arg6) (V1 (F := Ideal) m ρ c main_arg7)) :=
        R1.out5 (V1 (F := Ideal) m ρ) c
    _ = e2n m c := by rw [V1_arg1, V1_arg6, V1_arg7]; rfl

theorem W2_v1_1 (c : Dev nD) : W2 (F := Ideal) m ρ c (Proc.devRef .tc main_v1_1) = third m c :=
  calc W2 (F := Ideal) m ρ c (Proc.devRef .tc main_v1_1)
    _ = (dat1 (V1 (F := Ideal) m ρ) c).arrAt 6 cfg1.N := W2_arr m ρ c 6
    _ = reluE (edgeLin (V1 (F := Ideal) m ρ c main_arg1) (V1 (F := Ideal) m ρ c main_arg14) (V1 (F := Ideal) m ρ c main_arg15)) :=
        R1.out6 (V1 (F := Ideal) m ρ) c
    _ = third m c := by rw [V1_arg1, V1_arg14, V1_arg15]; rfl

/-- The index inputs reach the host operations as launched. -/
theorem W2_arg2 (c : Dev nD) : W2 (F := Ideal) m ρ c (Proc.devRef .tc main_arg2) = (m ((c : Thread nD τ).loc main_arg2)) :=
  (W2_of_ne m ρ c main_arg2 (by decide)).trans (W1_of_ne m ρ c main_arg2 (by decide))
theorem W2_arg3 (c : Dev nD) : W2 (F := Ideal) m ρ c (Proc.devRef .tc main_arg3) = (m ((c : Thread nD τ).loc main_arg3)) :=
  (W2_of_ne m ρ c main_arg3 (by decide)).trans (W1_of_ne m ρ c main_arg3 (by decide))

/-! ## The index inputs hold node numbers -/

theorem inRange (hpre : Cert.Pre_KernelIdeal m) (c : Dev nD) :
    InRange (m ((c : Thread nD τ).loc main_arg2)) ∧ InRange (m ((c : Thread nD τ).loc main_arg3)) :=
  inRange_of_pre _ _ _ _ _ _ _ _ _ _ _ _ _ _ _ _ _ _ (hpre c)

/-! ## Region 2's entry: after the host operations -/

theorem V8_v8 (hpre : Cert.Pre_KernelIdeal m) (c : Dev nD) :
    V8 (F := Ideal) m ρ c main_v8 = addf (rows (left m c) (m ((c : Thread nD τ).loc main_arg2))) (rows (right m c) (m ((c : Thread nD τ).loc main_arg3))) := by
  have hr := inRange m hpre c
  refine (HostMid.W8_v8 m ρ c).trans ?_
  rw [W2_left, W2_right, W2_arg2, W2_arg3, takeK_eq_rows _ _ hr.1, takeK_eq_rows _ _ hr.2]

theorem V8_v9 (hpre : Cert.Pre_KernelIdeal m) (c : Dev nD) :
    V8 (F := Ideal) m ρ c main_v9 = addf (rows (right m c) (m ((c : Thread nD τ).loc main_arg2))) (rows (left m c) (m ((c : Thread nD τ).loc main_arg3))) := by
  have hr := inRange m hpre c
  refine (HostMid.W8_v9 m ρ c).trans ?_
  rw [W2_left, W2_right, W2_arg2, W2_arg3, takeK_eq_rows _ _ hr.1, takeK_eq_rows _ _ hr.2]

theorem W8_segSum (c : Dev nD) :
    W8 (F := Ideal) m ρ c (Proc.devRef .tc main_v12) = segSum (m ((c : Thread nD τ).loc main_arg3)) (e2n m c) := by
  refine (HostMid.W8_v12 m ρ c).trans ?_
  rw [W2_arg3, W2_v1_0]
  rfl

theorem V8_v1_1 (c : Dev nD) : V8 (F := Ideal) m ρ c main_v1_1 = third m c :=
  (HostMid.W8_v1_1 m ρ c).trans (W2_v1_1 m ρ c)

/-- A weight or bias a later region stages is, at that region's entry, as launched: the region's exit contents hold
    it unchanged (an input window's array is not written), and the end contents hold the launch value. -/
theorem V8_arg16 (c : Dev nD) : V8 (F := Ideal) m ρ c main_arg16 = (m ((c : Thread nD τ).loc main_arg16)) :=
  ((W9_arr m ρ c 3).trans (((dat2 (V8 (F := Ideal) m ρ) c).arrAt_in 3 rfl _).trans (A_eq2 (V8 (F := Ideal) m ρ) c 3))).symm.trans
    ((W10_of_ne m ρ c main_arg16 (by decide)).symm.trans (W10_main_arg16 m ρ c))
theorem V8_arg17 (c : Dev nD) : V8 (F := Ideal) m ρ c main_arg17 = (m ((c : Thread nD τ).loc main_arg17)) :=
  ((W9_arr m ρ c 4).trans (((dat2 (V8 (F := Ideal) m ρ) c).arrAt_in 4 rfl _).trans (A_eq2 (V8 (F := Ideal) m ρ) c 4))).symm.trans
    ((W10_of_ne m ρ c main_arg17 (by decide)).symm.trans (W10_main_arg17 m ρ c))

/-! ## The edge result: region 2's output -/

theorem edge_result (hpre : Cert.Pre_KernelIdeal m) (c : Dev nD) :
    W10 (F := Ideal) m ρ c (Proc.devRef .tc main_v13) = edgeOut m c :=
  calc W10 (F := Ideal) m ρ c (Proc.devRef .tc main_v13)
    _ = W9 (F := Ideal) m ρ c (Proc.devRef .tc main_v13) := W10_of_ne m ρ c main_v13 (by decide)
    _ = (dat2 (V8 (F := Ideal) m ρ) c).arrAt 5 cfg2.N := W9_arr m ρ c 5
    _ = edgeUpd (reluE (V8 (F := Ideal) m ρ c main_v8)) (reluE (V8 (F := Ideal) m ρ c main_v9)) (V8 (F := Ideal) m ρ c main_v1_1)
          (V8 (F := Ideal) m ρ c main_arg16) (V8 (F := Ideal) m ρ c main_arg17) := R2.out5 (V8 (F := Ideal) m ρ) c
    _ = edgeOut m c := by
        rw [V8_v8 m ρ hpre c, V8_v9 m ρ hpre c, V8_v1_1, V8_arg16, V8_arg17]; rfl

/-! ## The node result: region 3's output -/

theorem V9_v0_0 (c : Dev nD) : V9 (F := Ideal) m ρ c main_v0_0 = nn m c :=
  calc W9 (F := Ideal) m ρ c (Proc.devRef .tc main_v0_0)
    _ = W8 (F := Ideal) m ρ c (Proc.devRef .tc main_v0_0) := W9_of_ne m ρ c main_v0_0 (by decide)
    _ = W2 (F := Ideal) m ρ c (Proc.devRef .tc main_v0_0) := HostMid.W8_v0_0 m ρ c
    _ = nn m c := W2_v0_0 m ρ c

theorem V9_v12 (c : Dev nD) : V9 (F := Ideal) m ρ c main_v12 = segSum (m ((c : Thread nD τ).loc main_arg3)) (e2n m c) :=
  (W9_of_ne m ρ c main_v12 (by decide)).trans (W8_segSum m ρ c)

theorem V9_arg8 (c : Dev nD) : V9 (F := Ideal) m ρ c main_arg8 = (m ((c : Thread nD τ).loc main_arg8)) :=
  ((W10_arr m ρ c 2).trans (((dat3 (V9 (F := Ideal) m ρ) c).arrAt_in 2 rfl _).trans (A_eq3 (V9 (F := Ideal) m ρ) c 2))).symm.trans
    (W10_main_arg8 m ρ c)
theorem V9_arg9 (c : Dev nD) : V9 (F := Ideal) m ρ c main_arg9 = (m ((c : Thread nD τ).loc main_arg9)) :=
  ((W10_arr m ρ c 3).trans (((dat3 (V9 (F := Ideal) m ρ) c).arrAt_in 3 rfl _).trans (A_eq3 (V9 (F := Ideal) m ρ) c 3))).symm.trans
    (W10_main_arg9 m ρ c)

theorem node_result (c : Dev nD) :
    W10 (F := Ideal) m ρ c (Proc.devRef .tc main_v14) = nodeOut m c :=
  calc W10 (F := Ideal) m ρ c (Proc.devRef .tc main_v14)
    _ = (dat3 (V9 (F := Ideal) m ρ) c).arrAt 4 cfg3.N := W10_arr m ρ c 4
    _ = nodeUpd (V9 (F := Ideal) m ρ c main_v0_0) (V9 (F := Ideal) m ρ c main_v12) (V9 (F := Ideal) m ρ c main_arg8)
          (V9 (F := Ideal) m ρ c main_arg9) := R3.out4 (V9 (F := Ideal) m ρ) c
    _ = nodeOut m c := by rw [V9_v0_0, V9_v12, V9_arg8, V9_arg9]; rfl

end Cert.KernelIdeal.Chain

end
-- ==== Proof.lean ====
/-
  One graph layer, computed two ways. Both programs take node features, edge features and the edges' end points, and
  return the updated node array `relu ([relu (x·wₙ+bₙ) | Σ_{edges into the node} relu (e·wₑ+bₑ)] · w + b)` and the
  updated edge array `relu ([relu (left[src]+right[dst]) | relu (right[src]+left[dst]) | relu (e·w'+b')] · w'' + b'')`
  with `left = x·w_l+b_l`, `right = x·w_r+b_r`. The kernel program computes the linear maps in four tiled regions
  (rounding to a shorter float format on the way into each product, which is the identity on extended reals) and does
  the row gathers and the scatter sum between them; the reference is one chain of array operations. The two differ in
  one place: the kernel's row take puts a fill word where an index is not a node number, the reference's gather clamps.
  Under the precondition that both index inputs hold node numbers, 0 ≤ · < 100000, the take is the gather, and every
  stage of the kernel is the reference's stage of the same arrays; the sums over the contracted axis are the same sums,
  so no law of the extended reals beyond that is used and finiteness of the inputs is not needed.
  The frames are the generated ones; the reference's run is the generated run of its host operations.
-/
import proofs.«419642_j1082331758607_3_alg».proof.Defs
import proofs.«419642_j1082331758607_3_alg».proof.Proof.Gen.Kernel
import proofs.«419642_j1082331758607_3_alg».proof.Proof.Gen.Kernel.Skeleton
import proofs.«419642_j1082331758607_3_alg».proof.Proof.Gen.Kernel.Launch
import proofs.«419642_j1082331758607_3_alg».proof.Proof.Gen.Kernel.Points
import proofs.«419642_j1082331758607_3_alg».proof.Proof.Gen.Kernel.Frame
import proofs.«419642_j1082331758607_3_alg».proof.Proof.Gen.KernelIdeal
import proofs.«419642_j1082331758607_3_alg».proof.Proof.Gen.KernelIdeal.Skeleton
import proofs.«419642_j1082331758607_3_alg».proof.Proof.Gen.KernelIdeal.Launch
import proofs.«419642_j1082331758607_3_alg».proof.Proof.Gen.KernelIdeal.Points
import proofs.«419642_j1082331758607_3_alg».proof.Proof.Gen.KernelIdeal.Frame
import proofs.«419642_j1082331758607_3_alg».proof.Proof.Gen.ReferenceIdeal
import proofs.«419642_j1082331758607_3_alg».proof.Proof.Gen.Pre_finite_inputs
import proofs.«419642_j1082331758607_3_alg».proof.Proof.Gen.ReferenceIdeal.Run
import proofs.«419642_j1082331758607_3_alg».proof.Proof.Gen.ReferenceIdeal.Read
import proofs.«419642_j1082331758607_3_alg».proof.Proof.Stages
import proofs.«419642_j1082331758607_3_alg».proof.Proof.ValueRun
import proofs.«419642_j1082331758607_3_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- The reference's node result, as its run states it, is the stage composition at its own arguments; with the
    arguments agreeing, the kernel's. -/
theorem algebraic : Cert.algebraic_KernelIdeal_ReferenceIdeal := by
  intro m ρ m' ρ' hpre hagree
  refine ⟨fun c => Cert.KernelIdeal.Chain.nodeOut m c, fun c => Cert.KernelIdeal.Chain.edgeOut m c, ?_, ?_⟩
  · exact (θ_run Cert.KernelIdeal.defs _ _).mono
      (fun r h c => ⟨(h c).1.trans (Cert.KernelIdeal.Chain.node_result m ρ c),
        (h c).2.1.trans (Cert.KernelIdeal.Chain.edge_result m ρ hpre c), (h c).2.2⟩)
      (Cert.KernelIdeal.ValueRun.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15, h16, h17⟩ := hagree c
      rw [h0, h1, h3, h4, h5, h6, h7, h8, h9]
      rfl
    · obtain ⟨h0, h1, h2, h3, h4, h5, h6, h7, h8, h9, h10, h11, h12, h13, h14, h15, h16, h17⟩ := hagree c
      unfold Cert.ReferenceIdeal.Value.res_main_v69
      rw [h0, h1, h2, h3, h10, h11, h12, h13, h14, h15, h16, h17]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
